-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1 : Shape := ⟨2, ![1, 1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S12x1024 : S_.BroadcastsInDim S12x1024 (![] : Fin 0 → Fin S12x1024.rank)
  reducesTo_S12x1024_S_d0_1 : S12x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S12x2048 : S_.BroadcastsInDim S12x2048 (![] : Fin 0 → Fin S12x2048.rank)
  reducesTo_S12x2048_S_d0_1 : S12x2048.ReducesTo [0, 1] S_
  bcast_S_S12 : S_.BroadcastsInDim S12 (![] : Fin 0 → Fin S12.rank)
  reducesTo_S12_S_d0 : S12.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257 : S_.BroadcastsInDim S50257 (![] : Fin 0 → Fin S50257.rank)
  reducesTo_S50257_S_d0 : S50257.ReducesTo [0] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg0 : IVec S1x1 32) (main_v63 : IVec S_ 1) (main_v67 : IVec S_ 1) : IVec S_ 1 :=
  let main_v68 : IVec S_ 1 := andi main_v63 main_v67
  let main_c_26 : IVec S_ 32 := constantI S_ 32 0#32
  let main_v69 : IVec S1x1 32 := broadcastInDim S1x1 ![] bcast_S_S1x1 main_c_26
  let main_v70 : IVec S1x1 1 := cmpi .sge main_arg0 main_v69
  let main_c_27 : IVec S_ 32 := constantI S_ 32 50257#32
  let main_v71 : IVec S1x1 32 := broadcastInDim S1x1 ![] bcast_S_S1x1 main_c_27
  let main_v72 : IVec S1x1 1 := cmpi .slt main_arg0 main_v71
  let main_v73 : IVec S1x1 1 := andi main_v70 main_v72
  let main_c_28 : IVec S_ 1 := constantI S_ 1 1#1
  let main_v74 : IVec S_ 1 := (fun x v => Host.reduce IntOp.andi x v reducesTo_S1x1_S_d0_1 h_S_) main_v73 main_c_28
  let main_v75 : IVec S_ 1 := andi main_v68 main_v74
  main_v75

def fn_part3 {F : FTy → Type} [FloatOps F] (main_arg0 : IVec S1x1 32) (main_arg12 : FVec F S4096 .f32) (main_arg13 : FVec F S50257x1024 .f32) (main_arg14 : FVec F S50257 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S50257x1024 .f32 := Host.absf main_arg13
  let main_cst_22 : FVec F S_ .f32 := constant S_ .f32 0x7F800000#32
  let main_v60 : FVec F S50257x1024 .f32 := broadcastInDim S50257x1024 ![] bcast_S_S50257x1024 main_cst_22
  let main_v61 : IVec S50257x1024 1 := cmpf .olt main_v59 main_v60
  let main_c_23 : IVec S_ 1 := constantI S_ 1 1#1
  let main_v62 : IVec S_ 1 := (fun x v => Host.reduce IntOp.andi x v reducesTo_S50257x1024_S_d0_1 h_S_) main_v61 main_c_23
  let main_v63 : IVec S_ 1 := andi main_v58 main_v62
  let main_v64 : FVec F S50257 .f32 := Host.absf main_arg14
  let main_cst_24 : FVec F S_ .f32 := constant S_ .f32 0x7F800000#32
  let main_v65 : FVec F S50257 .f32 := broadcastInDim S50257 ![] bcast_S_S50257 main_cst_24
  let main_v66 : IVec S50257 1 := cmpf .olt main_v64 main_v65
  let main_c_25 : IVec S_ 1 := constantI S_ 1 1#1
  let main_v67 : IVec S_ 1 := (fun x v => Host.reduce IntOp.andi x v reducesTo_S50257_S_d0 h_S_) main_v66 main_c_25
  fn_part4 (F := F) main_arg0 main_v63 main_v67

def fn_part2 {F : FTy → Type} [FloatOps F] (main_arg0 : IVec S1x1 32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg0 main_arg12 main_arg13 main_arg14 main_v48 main_v49 main_v50

def fn_part1 {F : FTy → Type} [FloatOps F] (main_arg0 : IVec S1x1 32) (main_arg5 : FVec F S12x2048 .f32) (main_arg6 : FVec F S12 .f32) (main_arg7 : FVec F S1024x2048 .f32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S12x2048 .f32 := Host.absf main_arg5
  let main_cst_6 : FVec F S_ .f32 := constant S_ .f32 0x7F800000#32
  let main_v20 : FVec F S12x2048 .f32 := broadcastInDim S12x2048 ![] bcast_S_S12x2048 main_cst_6
  let main_v21 : IVec S12x2048 1 := cmpf .olt main_v19 main_v20
  let main_c_7 : IVec S_ 1 := constantI S_ 1 1#1
  let main_v22 : IVec S_ 1 := (fun x v => Host.reduce IntOp.andi x v reducesTo_S12x2048_S_d0_1 h_S_) main_v21 main_c_7
  let main_v23 : IVec S_ 1 := andi main_v18 main_v22
  let main_v24 : FVec F S12 .f32 := Host.absf main_arg6
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_v29 : FVec F S1024x2048 .f32 := Host.absf main_arg7
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S1x1 32) (main_arg1 : FVec F S1x1x1024 .f32) (main_arg2 : FVec F S1x1x1024 .f32) (main_arg3 : FVec F S12x1024 .f32) (main_arg4 : FVec F S50257x1024 .f32) (main_arg5 : FVec F S12x2048 .f32) (main_arg6 : FVec F S12 .f32) (main_arg7 : FVec F S1024x2048 .f32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S12x1024 .f32 := Host.absf main_arg3
  let main_cst_2 : FVec F S_ .f32 := constant S_ .f32 0x7F800000#32
  let main_v10 : FVec F S12x1024 .f32 := broadcastInDim S12x1024 ![] bcast_S_S12x1024 main_cst_2
  let main_v11 : IVec S12x1024 1 := cmpf .olt main_v9 main_v10
  let main_c_3 : IVec S_ 1 := constantI S_ 1 1#1
  let main_v12 : IVec S_ 1 := (fun x v => Host.reduce IntOp.andi x v reducesTo_S12x1024_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S1x1 : Shape := ⟨2, ![1, 1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S1 : Shape := ⟨1, ![1]⟩
abbrev S_ : Shape := ⟨0, ![]⟩
abbrev S1x1024 : Shape := ⟨2, ![1, 1024]⟩
abbrev S1x12 : Shape := ⟨2, ![1, 12]⟩
abbrev S1x4096 : Shape := ⟨2, ![1, 4096]⟩
abbrev S1x50257 : Shape := ⟨2, ![1, 50257]⟩
abbrev S2048x1024 : Shape := ⟨2, ![2048, 1024]⟩
abbrev S1x2048 : Shape := ⟨2, ![1, 2048]⟩

abbrev nBuf : Space → Nat
  | .hbm => 84
  | .vmem => 21
  | .smem => 1
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S1x1x1024, .f32⟩
  | .hbm, ⟨3, _⟩ => ⟨S12x1024, .f32⟩
  | .hbm, ⟨4, _⟩ => ⟨S50257x1024, .f32⟩
  | .hbm, ⟨5, _⟩ => ⟨S12x2048, .f32⟩
  | .hbm, ⟨6, _⟩ => ⟨S12, .f32⟩
  | .hbm, ⟨7, _⟩ => ⟨S1024x2048, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S50257x1024, .f32⟩
  | .hbm, ⟨14, _⟩ => ⟨S50257, .f32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1x1024, .f32⟩
  | .hbm, ⟨24, _⟩ => ⟨S1x1024, .f32⟩
  | .hbm, ⟨25, _⟩ => ⟨S1x12, .f32⟩
  | .hbm, ⟨26, _⟩ => ⟨S1x1024, .f32⟩
  | .hbm, ⟨27, _⟩ => ⟨S1x4096, .f32⟩
  | .hbm, ⟨28, _⟩ => ⟨S1x4096, .f32⟩
  | .hbm, ⟨29, _⟩ => ⟨S1x50257, .f32⟩
  | .hbm, ⟨30, _⟩ => ⟨S1x4096, .f32⟩
  | .hbm, ⟨31, _⟩ => ⟨S1x12, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x50257, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1x1, .f32⟩
  | .hbm, ⟨73, _⟩ => ⟨S1x50257, .f32⟩
  | .hbm, ⟨74, _⟩ => ⟨S1x50257, .f32⟩
  | .hbm, ⟨75, _⟩ => ⟨S1x50257, .f32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S1x1, .f32⟩
  | .hbm, ⟨80, _⟩ => ⟨S1x50257, .f32⟩
  | .hbm, ⟨81, _⟩ => ⟨S1x50257, .f32⟩
  | .hbm, ⟨82, _⟩ => ⟨S1x1x1024, .f32⟩
  | .hbm, ⟨83, _⟩ => ⟨S1x1x1024, .f32⟩
  | .local _ .vmem, ⟨0, _⟩ => ⟨S1x1024, .f32⟩
  | .local _ .vmem, ⟨1, _⟩ => ⟨S12x1024, .f32⟩
  | .local _ .vmem, ⟨2, _⟩ => ⟨S12x2048, .f32⟩
  | .local _ .vmem, ⟨3, _⟩ => ⟨S1x12, .f32⟩
  | .local _ .vmem, ⟨4, _⟩ => ⟨S1024x2048, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x12, .f32⟩
  | .local _ .vmem, ⟨13, _⟩ => ⟨S1x1024, .f32⟩
  | .local _ .vmem, ⟨14, _⟩ => ⟨S1x1024, .f32⟩
  | .local _ .vmem, ⟨15, _⟩ => ⟨S4096x1024, .f32⟩
  | .local _ .vmem, ⟨16, _⟩ => ⟨S4096x1024, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S1x4096, .f32⟩
  | .local _ .smem, ⟨0, _⟩ => ⟨S1, .i32⟩
  | _, _ => ⟨S1x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_cst : Ref sig .tc := ⟨.hbm, 67, rfl⟩
abbrev main_call1_v0 : Ref sig .tc := ⟨.hbm, 68, rfl⟩
abbrev main_call1_cst_0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_1 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32 : BitVec 32 := 0#32
  ![v0.toNat, 0]

def k0_chk1 (v0 : BitVec 32) : Prop :=
  (∀ a, (k0_off1 v0) a + S1x1024.size a ≤ S50257x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1024.size a ≤ S50257x1024.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 2 → Memref sig .tc .vmem S1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x1_S1 : S1x1.ShapeCasts S1
  bcast_S_S1 : S_.BroadcastsInDim S1 (![] : Fin 0 → Fin S1.rank)
  shapeCasts_S1x1x1024_S1x1024 : S1x1x1024.ShapeCasts S1x1024
  shapeCasts_S12_S1x12 : S12.ShapeCasts S1x12
  shapeCasts_S1024_S1x1024 : S1024.ShapeCasts S1x1024
  shapeCasts_S4096_S1x4096 : S4096.ShapeCasts S1x4096
  shapeCasts_S50257_S1x50257 : S50257.ShapeCasts S1x50257
  inb_S1_S1_0 : ∀ a, (![0] : Fin 1 → Nat) a + S1.size a ≤ S1.size a
  numel1_S1 : S1.numel = 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S12x2048_S12x2048_0_0 : ∀ a, (![0, 0] : Fin 2 → Nat) a + S12x2048.size a ≤ S12x2048.size a
  h_S12x2048 : 0 < S12x2048.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  reduces_S1x12_S1 : S1x12.Reduces [1] S1
  shapeCasts_S1_S1x1 : S1.ShapeCasts S1x1
  broadcasts_S1x1_S1x12 : S1x1.Broadcasts S1x12
  inb_S12x1024_S12x1024_0_0 : ∀ a, (![0, 0] : Fin 2 → Nat) a + S12x1024.size a ≤ S12x1024.size a
  h_S12x1024 : 0 < S12x1024.numel
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  bcast_S_S1x1024 : S_.BroadcastsInDim S1x1024 (![] : Fin 0 → Fin S1x1024.rank)
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reducesTo_S1x50257_S1_d1 : S1x50257.ReducesTo [1] S1
  h_S_ : 0 < S_.numel
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S12x2048_S1x12_1_1_0_0_n_n_wf : DotDims.WF S1x2048 S12x2048 S1x12 [1] [1] [0] [0] [] []
  dot_S1x12_S12x1024_S1x1024_1_0_0_1_n_n_wf : DotDims.WF S1x12 S12x1024 S1x1024 [1] [0] [0] [1] [] []
  dot_S1x2048_S1024x2048_S1x1024_1_1_0_0_n_n_wf : DotDims.WF S1x2048 S1024x2048 S1x1024 [1] [1] [0] [0] [] []
  dot_S1x1024_S2048x1024_S1x2048_1_1_0_0_n_n_wf : DotDims.WF S1x1024 S2048x1024 S1x2048 [1] [1] [0] [0] [] []
  dot_S1x1024_S4096x1024_S1x4096_1_1_0_0_n_n_wf : DotDims.WF S1x1024 S4096x1024 S1x4096 [1] [1] [0] [0] [] []
  hcc0_scratch1 : 13 + S_.numel ≤ 21
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x1024.size a ≤ S1x1024.size a
  hwx0_0 : ∀ i : grid0.Coords, EltTy.bits .f32 = 32 ∨ (Rect.block (s := S1x1024) S1x1024.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S12x1024.size a ≤ S12x1024.size a
  hwx0_1 : ∀ i : grid0.Coords, EltTy.bits .f32 = 32 ∨ (Rect.block (s := S12x1024) S12x1024.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S12x2048.size a ≤ S12x2048.size a
  hwx0_2 : ∀ i : grid0.Coords, EltTy.bits .f32 = 32 ∨ (Rect.block (s := S12x2048) S12x2048.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x12.size a ≤ S1x12.size a
  hwx0_3 : ∀ i : grid0.Coords, EltTy.bits .f32 = 32 ∨ (Rect.block (s := S1x12) S1x12.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1024x2048.size a ≤ S1024x2048.size a
  hwx0_4 : ∀ i : grid0.Coords, EltTy.bits .f32 = 32 ∨ (Rect.block (s := S1024x2048) S1024x2048.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x1024.size a ≤ S1x1024.size a
  hwx0_5 : ∀ i : grid0.Coords, EltTy.bits .f32 = 32 ∨ (Rect.block (s := S1x1024) S1x1024.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S2048x1024.size a ≤ S4096x1024.size a
  hwx0_6 : ∀ i : grid0.Coords, EltTy.bits .f32 = 32 ∨ (Rect.block (s := S4096x1024) S2048x1024.size (cc0_transform_7 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S2048x1024.size a ≤ S4096x1024.size a
  hwx0_7 : ∀ i : grid0.Coords, EltTy.bits .f32 = 32 ∨ (Rect.block (s := S4096x1024) S2048x1024.size (cc0_transform_8 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_9 i = cc0_transform_9 i'
  hinb0_8 : ∀ (i : grid0.Coords) a, (cc0_transform_9 i a + 1) * S1x2048.size a ≤ S1x4096.size a
  hwx0_8 : ∀ i : grid0.Coords, EltTy.bits .f32 = 32 ∨ (Rect.block (s := S1x4096) S1x2048.size (cc0_transform_9 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_10 i = cc0_transform_10 i'
  hinb0_9 : ∀ (i : grid0.Coords) a, (cc0_transform_10 i a + 1) * S1x2048.size a ≤ S1x4096.size a
  hwx0_9 : ∀ i : grid0.Coords, EltTy.bits .f32 = 32 ∨ (Rect.block (s := S1x4096) S1x2048.size (cc0_transform_10 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_11 i = cc0_transform_11 i'
  hinb0_10 : ∀ (i : grid0.Coords) a, (cc0_transform_11 i a + 1) * S1x2048.size a ≤ S1x4096.size a
  hwx0_10 : ∀ i : grid0.Coords, EltTy.bits .f32 = 32 ∨ (Rect.block (s := S1x4096) S1x2048.size (cc0_transform_11 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_12 i = cc0_transform_12 i'
  hinb0_11 : ∀ (i : grid0.Coords) a, (cc0_transform_12 i a + 1) * S1x12.size a ≤ S1x12.size a
  hwx0_11 : ∀ i : grid0.Coords, EltTy.bits .f32 = 32 ∨ (Rect.block (s := S1x12) S1x12.size (cc0_transform_12 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x1024.size a < S50257x1024.size a
  hwx1_1 : ∀ i : grid1.Coords, EltTy.bits .f32 = 32 ∨ (Rect.unit (s := S50257x1024) (fun a => cc1_transform_1 i a * S4096x1024.size a) (fun a => (Pipeline.Clip.of (cc1_transform_1 i a) (S4096x1024.size a) (S50257x1024.size a)).extent (S4096x1024.size a)) fun a => Pipeline.Clip.inb (Pipeline.Clip.ok_of (hstart1_1 i a))).WholeWords (EltTy.packing .f32)
  hwxs1_1 : ∀ i : grid1.Coords, EltTy.bits .f32 = 32 ∨ (Rect.unit (s := S4096x1024) (fun _ => 0) (fun a => (Pipeline.Clip.of (cc1_transform_1 i a) (S4096x1024.size a) (S50257x1024.size a)).extent (S4096x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x50257.size a
  hwx1_2 : ∀ i : grid1.Coords, EltTy.bits .f32 = 32 ∨ (Rect.unit (s := S1x50257) (fun a => cc1_transform_2 i a * S1x4096.size a) (fun a => (Pipeline.Clip.of (cc1_transform_2 i a) (S1x4096.size a) (S1x50257.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x50257.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x4096.size a < S1x50257.size a
  hwx1_3 : ∀ i : grid1.Coords, EltTy.bits .f32 = 32 ∨ (Rect.unit (s := S1x50257) (fun a => cc1_transform_3 i a * S1x4096.size a) (fun a => (Pipeline.Clip.of (cc1_transform_3 i a) (S1x4096.size a) (S1x50257.size a)).extent (S1x4096.size a)) fun a => Pipeline.Clip.inb (Pipeline.Clip.ok_of (hstart1_3 i a))).WholeWords (EltTy.packing .f32)
  hwxs1_3 : ∀ i : grid1.Coords, EltTy.bits .f32 = 32 ∨ (Rect.unit (s := S1x4096) (fun _ => 0) (fun a => (Pipeline.Clip.of (cc1_transform_3 i a) (S1x4096.size a) (S1x50257.size a)).extent (S1x4096.size a)) fun a => (Nat.zero_add _).trans_le (Pipeline.Clip.extent_le (Pipeline.Clip.ok_of (hstart1_3 i a)))).WholeWords (EltTy.packing .f32)

variable [Facts₀]

abbrev cc0_scratch1 : DmaSems sig S_ := SemArray.consecutive 13 S_ hcc0_scratch1
def dot_S1x2048_S12x2048_S1x12_1_1_0_0_n_n : DotDims S1x2048 S12x2048 S1x12 where
  lhsContracting := [1]
  rhsContracting := [1]
  lhsNonContracting := [0]
  rhsNonContracting := [0]
  lhsBatch := []
  rhsBatch := []
  wf := dot_S1x2048_S12x2048_S1x12_1_1_0_0_n_n_wf
def dot_S1x12_S12x1024_S1x1024_1_0_0_1_n_n : DotDims S1x12 S12x1024 S1x1024 where
  lhsContracting := [1]
  rhsContracting := [0]
  lhsNonContracting := [0]
  rhsNonContracting := [1]
  lhsBatch := []
  rhsBatch := []
  wf := dot_S1x12_S12x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev spec0_0 : Pipeline.WinSpec sig grid0.rank :=
  Pipeline.WinSpec.ofSpec (Memref.whole main_v2) S1x1024.size reads0_0 false true 1 stage0_0 sem0_0 nbuf0_0 hstage0_0

abbrev spec0_1 : Pipeline.WinSpec sig grid0.rank :=
  Pipeline.WinSpec.ofSpec (Memref.whole main_arg3) S12x1024.size reads0_1 false true 1 stage0_1 sem0_1 nbuf0_1 hstage0_1

abbrev spec0_2 : Pipeline.WinSpec sig grid0.rank :=
  Pipeline.WinSpec.ofSpec (Memref.whole main_arg5) S12x2048.size reads0_2 false true 1 stage0_2 sem0_2 nbuf0_2 hstage0_2

abbrev spec0_3 : Pipeline.WinSpec sig grid0.rank :=
  Pipeline.WinSpec.ofSpec (Memref.whole main_v4) S1x12.size reads0_3 false true 1 stage0_3 sem0_3 nbuf0_3 hstage0_3

abbrev spec0_4 : Pipeline.WinSpec sig grid0.rank :=
  Pipeline.WinSpec.ofSpec (Memref.whole main_arg7) S1024x2048.size reads0_4 false true 1 stage0_4 sem0_4 nbuf0_4 hstage0_4

abbrev spec0_5 : Pipeline.WinSpec sig grid0.rank :=
  Pipeline.WinSpec.ofSpec (Memref.whole main_v5) S1x1024.size reads0_5 false true 1 stage0_5 sem0_5 nbuf0_5 hstage0_5

abbrev spec0_6 : Pipeline.WinSpec sig grid0.rank :=
  Pipeline.WinSpec.ofSpec (Memref.whole main_arg9) S2048x1024.size reads0_6 false true 1 stage0_6 sem0_6 nbuf0_6 hstage0_6

abbrev spec0_7 : Pipeline.WinSpec sig grid0.rank :=
  Pipeline.WinSpec.ofSpec (Memref.whole main_arg10) S2048x1024.size reads0_7 false true 1 stage0_7 sem0_7 nbuf0_7 hstage0_7

abbrev spec0_8 : Pipeline.WinSpec sig grid0.rank :=
  Pipeline.WinSpec.ofSpec (Memref.whole main_v6) S1x2048.size reads0_8 false true 1 stage0_8 sem0_8 nbuf0_8 hstage0_8

abbrev spec0_9 : Pipeline.WinSpec sig grid0.rank :=
  Pipeline.WinSpec.ofSpec (Memref.whole main_v7) S1x2048.size reads0_9 false true 1 stage0_9 sem0_9 nbuf0_9 hstage0_9

abbrev spec0_10 : Pipeline.WinSpec sig grid0.rank :=
  Pipeline.WinSpec.ofSpec (Memref.whole main_v9_0) S1x2048.size reads0_10 true false 2 stage0_10 sem0_10 nbuf0_10 hstage0_10

abbrev spec0_11 : Pipeline.WinSpec sig grid0.rank :=
  Pipeline.WinSpec.ofSpec (Memref.whole main_v9_1) S1x12.size reads0_11 true true 1 stage0_11 sem0_11 nbuf0_11 hstage0_11

abbrev spec0 : Fin 12 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | ⟨_ + 12, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | ⟨_ + 12, h⟩ => absurd h (Nat.not_lt.2 (Nat.le_add_left _ _))
abbrev ix0 (pf : pre0.Contents (Elt F)) : (w : Fin 12) → grid0.Coords → Fin (spec0 w).shape.rank → Nat := fun | 0 => cc0_transform_1 | 1 => cc0_transform_2 | 2 => cc0_transform_3 | 3 => cc0_transform_4 | 4 => cc0_transform_5 | 5 => cc0_transform_6 | 6 => cc0_transform_7 | 7 => cc0_transform_8 | 8 => cc0_transform_9 | 9 => cc0_transform_10 | 10 => cc0_transform_11 | 11 => cc0_transform_12 | ⟨_ + 12, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | ⟨_ + 12, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | ⟨_ + 12, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | ⟨_ + 12, h⟩ => absurd h (Nat.not_lt.2 (Nat.le_add_left _ _))
abbrev win1_0 : Pipeline.Window sig grid1 :=
  Pipeline.Window.ofSpec (Memref.whole main_v37) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg13) S4096x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v8) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v38) S1x4096.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  harr0 : ∀ w, (spec0 w).arr.IsWhole

variable [Facts]
-- ==== ReferenceIdeal.lean ====
abbrev S1x1 : Shape := ⟨2, ![1, 1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S1 : Shape := ⟨1, ![1]⟩
abbrev S_ : Shape := ⟨0, ![]⟩
abbrev S1x1024 : Shape := ⟨2, ![1, 1024]⟩
abbrev S1x2048 : Shape := ⟨2, ![1, 2048]⟩
abbrev S2048x12 : Shape := ⟨2, ![2048, 12]⟩
abbrev S1x12 : Shape := ⟨2, ![1, 12]⟩
abbrev S2048x1024 : Shape := ⟨2, ![2048, 1024]⟩
abbrev S1024x4096 : Shape := ⟨2, ![1024, 4096]⟩
abbrev S1x4096 : Shape := ⟨2, ![1, 4096]⟩
abbrev S1024x50257 : Shape := ⟨2, ![1024, 50257]⟩
abbrev S1x50257 : Shape := ⟨2, ![1, 50257]⟩

abbrev nBuf : Space → Nat
  | .hbm => 119
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S1x1x1024, .f32⟩
  | .hbm, ⟨3, _⟩ => ⟨S12x1024, .f32⟩
  | .hbm, ⟨4, _⟩ => ⟨S50257x1024, .f32⟩
  | .hbm, ⟨5, _⟩ => ⟨S12x2048, .f32⟩
  | .hbm, ⟨6, _⟩ => ⟨S12, .f32⟩
  | .hbm, ⟨7, _⟩ => ⟨S1024x2048, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S50257x1024, .f32⟩
  | .hbm, ⟨14, _⟩ => ⟨S50257, .f32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S_, .i32⟩
  | .hbm, ⟨20, _⟩ => ⟨S1, .i32⟩
  | .hbm, ⟨21, _⟩ => ⟨S1, .i32⟩
  | .hbm, ⟨22, _⟩ => ⟨S1, .i32⟩
  | .hbm, ⟨23, _⟩ => ⟨S1x1, .i32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x2048, .f32⟩
  | .hbm, ⟨28, _⟩ => ⟨S2048x12, .f32⟩
  | .hbm, ⟨29, _⟩ => ⟨S1x12, .f32⟩
  | .hbm, ⟨30, _⟩ => ⟨S1x12, .f32⟩
  | .hbm, ⟨31, _⟩ => ⟨S1x12, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1x12, .f32⟩
  | .hbm, ⟨39, _⟩ => ⟨S1x12, .f32⟩
  | .hbm, ⟨40, _⟩ => ⟨S1x12, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1x12, .f32⟩
  | .hbm, ⟨45, _⟩ => ⟨S1x12, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1024x4096, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S1024x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1024x50257, .f32⟩
  | .hbm, ⟨99, _⟩ => ⟨S1x50257, .f32⟩
  | .hbm, ⟨100, _⟩ => ⟨S1x50257, .f32⟩
  | .hbm, ⟨101, _⟩ => ⟨S1x50257, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S1x1, .f32⟩
  | .hbm, ⟨108, _⟩ => ⟨S1x50257, .f32⟩
  | .hbm, ⟨109, _⟩ => ⟨S1x50257, .f32⟩
  | .hbm, ⟨110, _⟩ => ⟨S1x50257, .f32⟩
  | .hbm, ⟨111, _⟩ => ⟨S_, .f32⟩
  | .hbm, ⟨112, _⟩ => ⟨S1, .f32⟩
  | .hbm, ⟨113, _⟩ => ⟨S1x1, .f32⟩
  | .hbm, ⟨114, _⟩ => ⟨S1x1, .f32⟩
  | .hbm, ⟨115, _⟩ => ⟨S1x50257, .f32⟩
  | .hbm, ⟨116, _⟩ => ⟨S1x50257, .f32⟩
  | .hbm, ⟨117, _⟩ => ⟨S1x1x1024, .f32⟩
  | .hbm, ⟨118, _⟩ => ⟨S1x1x1024, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call1_cst : Ref sig .tc := ⟨.hbm, 102, rfl⟩
abbrev main_call1_v0 : Ref sig .tc := ⟨.hbm, 103, rfl⟩
abbrev main_call1_cst_0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_cst_1 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  shapeCasts_S1x1_S1 : S1x1.ShapeCasts S1
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S12x2048_S2048x12_1_0 : S12x2048.Transposes [1, 0] S2048x12
  bcast_S12_S1x12_1 : S12.BroadcastsInDim S1x12 (![1] : Fin 1 → Fin S1x12.rank)
  reducesTo_S1x12_S1_d1 : S1x12.ReducesTo [1] S1
  h_S_ : 0 < S_.numel
  bcast_S1x1_S1x12_0_1 : S1x1.BroadcastsInDim S1x12 (![0, 1] : Fin 2 → Fin S1x12.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x12_S1x12_1_0_0_1_n_n_wf : DotDims.WF S1x2048 S2048x12 S1x12 [1] [0] [0] [1] [] []
  dot_S1x12_S12x1024_S1x1024_1_0_0_1_n_n_wf : DotDims.WF S1x12 S12x1024 S1x1024 [1] [0] [0] [1] [] []
  dot_S1x2048_S2048x1024_S1x1024_1_0_0_1_n_n_wf : DotDims.WF S1x2048 S2048x1024 S1x1024 [1] [0] [0] [1] [] []
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x12_S1x12_1_0_0_1_n_n : DotDims S1x2048 S2048x12 S1x12 where
  lhsContracting := [1]
  rhsContracting := [0]
  lhsNonContracting := [0]
  rhsNonContracting := [1]
  lhsBatch := []
  rhsBatch := []
  wf := dot_S1x2048_S2048x12_S1x12_1_0_0_1_n_n_wf
def dot_S1x12_S12x1024_S1x1024_1_0_0_1_n_n : DotDims S1x12 S12x1024 S1x1024 where
  lhsContracting := [1]
  rhsContracting := [0]
  lhsNonContracting := [0]
  rhsNonContracting := [1]
  lhsBatch := []
  rhsBatch := []
  wf := dot_S1x12_S12x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Body0.lean ====
/-
  The small-step kernel's body on whole staging buffers. It reads the token id from the prefetched table in scalar
  memory, copies that row of the embedding table from the array left in HBM into its scratch buffer (its own copy on
  its own semaphore, waited for at once), and from the row e and the input blocks computes the attention weights
  softmax([e, h] · attn_Wᵀ + attn_b), the combined input relu([e, weights · enc] · comb_Wᵀ + comb_b), and this
  point's half of the raw gates (x · W_ihᵀ + b_ih) + (h · W_hhᵀ + b_hh), storing the gates half and the weights
  whole into the two output buffers.
-/
import proofs.«424451_j23149873725851_3_alg».proof.Proof.Gen.Kernel.Launch
import proofs.«424451_j23149873725851_3_alg».proof.Proof.Gen.Kernel.Skeleton
import proofs.«424451_j23149873725851_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The embedding table, left in HBM, as a whole memref; the scratch row the body copies into; the table of one word. -/
abbrev embM : Memref sig .tc .hbm S50257x1024 .f32 := Memref.whole main_arg4
abbrev scrM : Memref sig .tc .vmem S1x1024 .f32 := Memref.whole cc0_scratch0
abbrev tblM : Memref sig .tc .smem S1 .i32 := Memref.whole main_v1
/-- Memref `M`'s buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The index of the table's one word. -/
abbrev j0 : S1.Idx := fun a => ⟨0, by fin_cases a; decide⟩
/-- The embedding row the body's copy lands in the scratch: row `v0.toNat` of the table `fh`, read through the
    one-row slice the body takes of the array. -/
def embRow (c : Dev nD) (fh : HbBuf (F := F) c embM) (v0 : BitVec 32) (h : k0_chk1 v0) : Vec F S1x1024 .f32 :=
  (embM.slice (Rect.unit (s := S50257x1024) (k0_off1 v0) S1x1024.size (k0_off1_inb v0 h)) (fun _ => rfl)).view.read (Elt F) fh
/-- The attention weights the body stores, from the embedding row `e`, the hidden row, attn_W and attn_b. -/
def attn0 (e : Vec F S1x1024 .f32) (x0 : Vec F S1x1024 .f32) (x2 : Vec F S12x2048 .f32) (x3 : Vec F S1x12 .f32) : Vec F S1x12 .f32 :=
  k0_pay3 e x0 x2 x3
/-- The half of the raw gates the body stores, from the embedding row and the ten input blocks. -/
def gates0 (e : Vec F S1x1024 .f32) (x0 : Vec F S1x1024 .f32) (x1 : Vec F S12x1024 .f32) (x2 : Vec F S12x2048 .f32) (x3 : Vec F S1x12 .f32) (x4 : Vec F S1024x2048 .f32) (x5 : Vec F S1x1024 .f32) (x6 : Vec F S2048x1024 .f32) (x7 : Vec F S2048x1024 .f32) (x8 : Vec F S1x2048 .f32) (x9 : Vec F S1x2048 .f32) : Vec F S1x2048 .f32 :=
  k0_pay1 (k0_pay2 x0) (k0_pay4 e x0 x2 x3 x1 x4 x5) (k0_pay5 (F := F)) x6 x8 x7 x9

/-- The rank-1 offsets `![0]` and the rank-2 offsets `![0, 0]` are the zero offsets. -/
theorem offs0 : (![0] : Fin 1 → Nat) = fun _ => 0 := funext fun a => by fin_cases a; rfl
theorem offs00 : (![0, 0] : Fin 2 → Nat) = fun _ => 0 := funext fun a => by fin_cases a <;> rfl

/-- A load through the whole-shape rectangle at zero offsets (however the zeros are spelt), of a buffer ONE write
    through the whole rectangle filled, reads what was written. -/
theorem readCov_whole_of_zero {κ : Kind} {sp : Space} {S : Shape} {e : EltTy} (v : View sig κ sp S e)
    {off : Fin S.rank → Nat} (h : off = fun _ => 0) (inb : ∀ a, off a + S.size a ≤ S.size a) (w : S.Idx → Elt F e) :
    v.readCov [(⟨Rect.whole S, w⟩ : View.Piece (Elt F) S e)] (Rect.unit off S.size inb).toLoadRect = w := by
  subst h; exact View.readCov_unit_zero v rfl _ w

/-- What the body loads from its scratch after its copy has landed: the copy wrote the scratch whole with the one-row
    slice of the table at the word `w` the body read; where that word is `v0`, the loaded row is `embRow … v0`. -/
theorem scratch_row (c : Dev nD) (fh : HbBuf (F := F) c embM) (w : BitVec 32) (hw : k0_chk1 w) (v0 : BitVec 32)
    (h0 : k0_chk1 v0) (e : w = v0) (v : View sig .tc .vmem S1x1024 .f32) :
    v.readCov [(⟨Rect.whole S1x1024, ReadAs.same.apply
        ((embM.slice (Rect.unit (s := S50257x1024) (k0_off1 w) S1x1024.size (k0_off1_inb w hw)) (fun _ => rfl)).view.read (Elt F) fh)⟩ :
          View.Piece (Elt F) S1x1024 .f32)]
      (Rect.unit (s := S1x1024) ![0, 0] S1x1024.size inb_S1x1024_S1x1024_0_0).toLoadRect = embRow c fh v0 h0 := by
  subst e
  rw [readCov_whole_of_zero _ offs00, ReadAs.apply_same]; rfl

/-- The two outputs' whole-shape rectangles at zero offsets, as the body's stores name them; one store through
    either covers its buffer. -/
abbrev rGates : Rect S1x2048 := Rect.unit (s := S1x2048) ![0, 0] S1x2048.size inb_S1x2048_S1x2048_0_0
abbrev rAttn : Rect S1x12 := Rect.unit (s := S1x12) ![0, 0] S1x12.size inb_S1x12_S1x12_0_0
theorem cover_gates (p0 : Vec F S1x2048 .f32) (y : S1x2048.Idx) :
    ∃ pc ∈ ([⟨rGates, p0⟩] : List (View.Piece (Elt F) S1x2048 .f32)), y ∈ pc.1.set :=
  ⟨⟨rGates, p0⟩, List.mem_singleton_self _, View.mem_set_unit_zero (S := S1x2048) offs00 inb_S1x2048_S1x2048_0_0 y⟩
theorem cover_attn (p0 : Vec F S1x12 .f32) (y : S1x12.Idx) :
    ∃ pc ∈ ([⟨rAttn, p0⟩] : List (View.Piece (Elt F) S1x12 .f32)), y ∈ pc.1.set :=
  ⟨⟨rAttn, p0⟩, List.mem_singleton_self _, View.mem_set_unit_zero (S := S1x12) offs00 inb_S1x12_S1x12_0_0 y⟩

/-- The body, from the table's word in range (`hchk`: the one fact the body assumes), the ten input buffers at their
    contents, the two output buffers and the scratch at anything, the copy's semaphore at zero, the embedding table
    held whole at `fh` and the core's `owes`: it runs to its return with the table, the inputs, the embedding table and
    the semaphore as they were, the scratch at something, and the outputs at `gates0` and `attn0` of the row the
    copy fetched. -/
theorem sound_kernel0 (c : Dev nD) (i : grid0.Coords)
    (arg1 : Memref sig .tc .smem S1 .i32) (harg1 : arg1.IsWhole)
    (arg3 : Memref sig .tc .vmem S1x1024 .f32) (harg3 : arg3.IsWhole)
    (arg4 : Memref sig .tc .vmem S12x1024 .f32) (harg4 : arg4.IsWhole)
    (arg5 : Memref sig .tc .vmem S12x2048 .f32) (harg5 : arg5.IsWhole)
    (arg6 : Memref sig .tc .vmem S1x12 .f32) (harg6 : arg6.IsWhole)
    (arg7 : Memref sig .tc .vmem S1024x2048 .f32) (harg7 : arg7.IsWhole)
    (arg8 : Memref sig .tc .vmem S1x1024 .f32) (harg8 : arg8.IsWhole)
    (arg9 : Memref sig .tc .vmem S2048x1024 .f32) (harg9 : arg9.IsWhole)
    (arg10 : Memref sig .tc .vmem S2048x1024 .f32) (harg10 : arg10.IsWhole)
    (arg11 : Memref sig .tc .vmem S1x2048 .f32) (harg11 : arg11.IsWhole)
    (arg12 : Memref sig .tc .vmem S1x2048 .f32) (harg12 : arg12.IsWhole)
    (arg13 : Memref sig .tc .vmem S1x2048 .f32) (harg13 : arg13.IsWhole)
    (arg14 : Memref sig .tc .vmem S1x12 .f32) (harg14 : arg14.IsWhole)
    (tb : S1.Idx → Elt F .i32) (hchk : k0_chk1 (tb j0))
    (x0 : Vec F S1x1024 .f32) (x1 : Vec F S12x1024 .f32) (x2 : Vec F S12x2048 .f32) (x3 : Vec F S1x12 .f32) (x4 : Vec F S1024x2048 .f32) (x5 : Vec F S1x1024 .f32) (x6 : Vec F S2048x1024 .f32) (x7 : Vec F S2048x1024 .f32) (x8 : Vec F S1x2048 .f32) (x9 : Vec F S1x2048 .f32)
    (fh : HbBuf (F := F) c embM) (W : Waits sig Unit) (K : PUnit → sProp 𝕄) :
    iprop(owns (c : Thread nD τ) arg1 fullShare tb ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
        ∗ (∃ d, owns (c : Thread nD τ) arg13 fullShare d) ∗ (∃ d, owns (c : Thread nD τ) arg14 fullShare d)
        ∗ (∃ d, owns (c : Thread nD τ) scrM fullShare d) ∗ semVal ((c : Thread nD τ), SemLoc.dma 13) 0
        ∗ hbPt c embM fh ∗ owes (c : Thread nD τ) 0 W
        ∗ (iprop(owns (c : Thread nD τ) arg1 fullShare tb ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (gates0 (embRow c fh (tb j0) hchk) x0 x1 x2 x3 x4 x5 x6 x7 x8 x9)
            ∗ owns (c : Thread nD τ) arg14 fullShare (attn0 (embRow c fh (tb j0) hchk) x0 x2 x3)
            ∗ (∃ d, owns (c : Thread nD τ) scrM fullShare d) ∗ semVal ((c : Thread nD τ), SemLoc.dma 13) 0
            ∗ hbPt c embM fh ∗ (∃ W', owes (c : Thread nD τ) 0 W')) -∗ K ⟨⟩))
      ⊢ wp frame (wpE (defs₀ (F := F)) Variants.none c none) Set.univ
          (cc0__small_step_kernel i arg1 harg1 embM (Memref.isWhole_whole _) arg3 harg3 arg4 harg4 arg5 harg5 arg6 harg6 arg7 harg7 arg8 harg8 arg9 harg9 arg10 harg10 arg11 harg11 arg12 harg12 arg13 harg13 arg14 harg14
            scrM (Memref.isWhole_whole _) cc0_scratch1) K := by
  simp only [cc0__small_step_kernel_eq_skeleton]; unfold cc0__small_step_kernel_skel
  simp only [k0_part1_eq_skeleton]; unfold k0_part1_skel
  unfold owns
  iintro ⟨⟨%g1, %hg1, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%ds0, %fs0, -, HS0⟩, Hq0, Hh0, HW, Hk⟩
  -- the table's buffer is the one whose read is `tb`
  obtain rfl := harg1.eq_unread hg1
  subst hf0; subst hf1; subst hf2; subst hf3; subst hf4; subst hf5; subst hf6; subst hf7; subst hf8; subst hf9
  -- the word the body reads from the table is `tb j0`, so the side condition it assumes of that word is `hchk`
  have hword : arg1.view.readAt (Elt F) (Rect.unit (s := S1) ![0] S1.size inb_S1_S1_0).toLoadRect (harg1.unread tb)
      (Shape.Idx.first (numel1_S1.symm ▸ Nat.one_pos)) = tb j0 := by
    rw [View.readAt_eq_ld, harg1.read_unread, View.ld_unit_zero (S := S1) offs0]
    congr 1
  have hw : k0_chk1 (arg1.view.readAt (Elt F) (Rect.unit (s := S1) ![0] S1.size inb_S1_S1_0).toLoadRect (harg1.unread tb)
      (Shape.Idx.first (numel1_S1.symm ▸ Nat.one_pos))) := by rw [hword]; exact hchk
  sl_exec (disch := first | sl_exact hw)
  sl_step
  iapply Hk
  -- the table and the ten inputs were only read
  isplitl [HT]
  · iexists _; isplitr; · ipureintro; exact harg1.read_unread _
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- the gates' buffer: one store through the whole-shape rectangle covers it, so it reads as the stored payload; each
  -- input block read through its whole-shape rectangle is the buffer's contents, and the row loaded from the scratch
  -- is the fetched row (`scratch_row`)
  isplitl [H13]
  · iexists _; isplitr
    swap; · iexact H13
    ipureintro
    rw [View.read_writes_eq_canon _ _ _ (cover_gates _), View.canon_unit_zero offs00]
    unfold gates0
    simp only [View.readAt_eq_ld,
      View.ld_unit_zero (S := S1x1024) offs00,
      View.ld_unit_zero (S := S12x1024) offs00,
      View.ld_unit_zero (S := S12x2048) offs00,
      View.ld_unit_zero (S := S1x12) offs00,
      View.ld_unit_zero (S := S1024x2048) offs00,
      View.ld_unit_zero (S := S2048x1024) offs00,
      View.ld_unit_zero (S := S1x2048) offs00]
    rw [← scratch_row c fh _ hw (tb j0) hchk hword scrM.view]
    rfl
  -- the attention weights' buffer, likewise
  isplitl [H14]
  · iexists _; isplitr
    swap; · iexact H14
    ipureintro
    rw [View.read_writes_eq_canon _ _ _ (cover_attn _), View.canon_unit_zero offs00]
    unfold attn0
    simp only [View.readAt_eq_ld,
      View.ld_unit_zero (S := S1x1024) offs00,
      View.ld_unit_zero (S := S12x1024) offs00,
      View.ld_unit_zero (S := S12x2048) offs00,
      View.ld_unit_zero (S := S1x12) offs00,
      View.ld_unit_zero (S := S1024x2048) offs00,
      View.ld_unit_zero (S := S2048x1024) offs00,
      View.ld_unit_zero (S := S1x2048) offs00]
    rw [← scratch_row c fh _ hw (tb j0) hchk hword scrM.view]
    rfl
  -- the scratch at what the copy left, the semaphore back at zero, the table in HBM untouched, the wait recorded
  isplitl [HS0]
  · iexists _, _; isplitr; swap; · iexact HS0
    ipureintro; rfl
  isplitl [Hq0]; · iexact Hq0
  isplitl [Hh0]; · iexact Hh0
  iexists _; iexact HW

end Cert.Kernel.Hand

end
-- ==== Proof.K.Body1.lean ====
/-
  The vocabulary-projection kernel's body on whole staging buffers: it loads the hidden row, the weight tile and the
  bias tile, multiplies the row into the tile's rows (contracting the hidden axis), adds the bias, and stores the
  4096 lanes whole. The inputs' buffers come back as they were; the output's buffer ends at the body's one payload
  of the three loaded blocks.
-/
import proofs.«424451_j23149873725851_3_alg».proof.Proof.Gen.Kernel.Launch
import proofs.«424451_j23149873725851_3_alg».proof.Proof.Gen.Kernel.Skeleton
import proofs.«424451_j23149873725851_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The rank-2 offsets `![0, 0]` are the zero offsets. -/
theorem zero2 : (![0, 0] : Fin 2 → Nat) = fun _ => 0 := funext fun a => by fin_cases a <;> rfl

/-- The output's whole-shape rectangle at zero offsets, as the body's store names it. -/
abbrev rOut1 : Rect S1x4096 := Rect.unit (s := S1x4096) ![0, 0] S1x4096.size inb_S1x4096_S1x4096_0_0

/-- One store through it covers the buffer. -/
theorem cover_out1 (p0 : Vec F S1x4096 .f32) (y : S1x4096.Idx) :
    ∃ pc ∈ ([⟨rOut1, p0⟩] : List (View.Piece (Elt F) S1x4096 .f32)), y ∈ pc.1.set :=
  ⟨⟨rOut1, p0⟩, List.mem_singleton_self _, View.mem_set_unit_zero (S := S1x4096) zero2 inb_S1x4096_S1x4096_0_0 y⟩

/-- The body of the vocabulary projection: from the three input buffers at `x0` (hidden row), `x1` (weight tile),
    `x2` (bias tile) and the output buffer at anything, it runs to its return with the inputs unchanged and the
    output buffer holding `k1_pay1 x0 x1 x2`, lane `l` of which is the product of the row with the tile's row `l`
    plus the bias lane `l`. -/
theorem sound_kernel1 (c : Dev nD) (E : Set ℕ) (i : grid1.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__vocab_proj_kernel i arg1 harg1 arg2 harg2 arg3 harg3 arg4 harg4) K := by
  simp only [cc1__vocab_proj_kernel_eq_skeleton]; unfold cc1__vocab_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs' buffers were only read
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output's buffer: one store through the whole-shape rectangle at zero offsets covers it, so it reads as the
  -- stored payload; each loaded block, read through its own whole-shape rectangle, is the buffer's contents
  iexists _; isplitr
  swap; · iexact H3
  ipureintro
  rw [View.read_writes_eq_canon _ _ _ (cover_out1 _), View.canon_unit_zero zero2]
  simp only [View.readAt_eq_ld, View.ld_unit_zero (S := S1x1024) zero2, View.ld_unit_zero (S := S4096x1024) zero2,
    View.ld_unit_zero (S := S1x4096) zero2]

end Cert.Kernel.Hand

end
-- ==== Proof.K.Dat0.lean ====
/-
  Region 0 (the small-step kernel over two grid points), at any float instance: its exact proof data and body obligation.
  Every input window keeps one block for both points except the two weight halves and the two bias halves, whose block
  index is the point; after the body an input's staging buffer still holds its block, the gates window holds the point's
  half of the raw gates and the attention window the attention weights, both functions of the input blocks and of the
  embedding row the body copied from the table left in HBM at the prefetched token id. The invariant between points:
  the scratch row and the other scoped buffers at something, the copy's semaphore at zero, the embedding table whole at
  its entry contents, and the prefetched table of one word held whole.
-/
import proofs.«424451_j23149873725851_3_alg».proof.Proof.K.Body0
import Idealize.ShloMosaic.Lib.Pipeline.RegionsLoop
import Idealize.ShloMosaic.Lib.Pipeline.FrameSuffix

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

/-- The prefetched table's one word: the token id the host clamped. -/
abbrev tblWord : BitVec 32 := a.1 0 j0

variable (hchk : k0_chk1 (tblWord a))

/-! ## The windows' blocks -/

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ (cfg0 a) c) (hA : dat.A 7 = V c (Pipeline.arrRef spec0 7))
    (hafter : ∀ t, dat.after 7 t = iblk0 V a c 7 t) (t : Fin (cfg0 a).N) (d) : dat.before 7 t d = iblk0 V a c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ (cfg0 a) c) (hA : dat.A 8 = V c (Pipeline.arrRef spec0 8))
    (hafter : ∀ t, dat.after 8 t = iblk0 V a c 8 t) (t : Fin (cfg0 a).N) (d) : dat.before 8 t d = iblk0 V a c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ (cfg0 a) c) (hA : dat.A 9 = V c (Pipeline.arrRef spec0 9))
    (hafter : ∀ t, dat.after 9 t = iblk0 V a c 9 t) (t : Fin (cfg0 a).N) (d) : dat.before 9 t d = iblk0 V a c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's own cell, and the operand it copies from -/

/-- The copy's semaphore: the kernel's one own cell. -/
abbrev osem0 : Fin 1 → SemLoc sig := fun j => (![SemLoc.dma 13] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0) := by
  rw [Pipeline.ownSems0_eq_of_list c osem0 [0] (by decide) (by decide)]; rfl
/-- The operand left in HBM that the body copies a row of: the embedding table. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt (F := F) c embM (V c main_arg4)) := by
  rw [BI.bigSep_eq_bigSepL_of_eq [main_arg4] (by decide) (by decide)]; rfl

/-- The invariant between points: the copying kernel's (scoped rest, generator register, own cell at zero, the embedding
    table at its entry contents) and the prefetched table held whole. -/
def Φ0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

/-! ## The proof data -/

/-- The embedding row the body copies at every point: the table's row at the prefetched word. -/
abbrev erow (c : Dev nD) : Vec F S1x1024 .f32 := embRow (F := F) c (V c main_arg4) (tblWord a) hchk

def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => iblk0 V a c 7 t
    | ⟨8, _⟩ => iblk0 V a c 8 t
    | ⟨9, _⟩ => iblk0 V a c 9 t
    | ⟨10, _⟩ => gates0 (F := F) (erow V a hchk c) (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t)
    | ⟨11, _⟩ => attn0 (F := F) (erow V a hchk c) (iblk0 V a c 0 t) (iblk0 V a c 2 t) (iblk0 V a c 3 t)
  Φ _ := Φ0 V a c
  q _ := fullShare
  owed _ := 0

theorem A_eq0 (c : Dev nD) (w : Fin (cfg0 a).W) : (dat0 V a hchk c).A w = V c (Pipeline.arrRef spec0 w) := by
  dsimp only [dat0]

theorem after0_0 (c : Dev nD) (t : Fin (cfg0 a).N) : (dat0 V a hchk c).after 0 t = iblk0 V a c 0 t := by dsimp only [dat0]; rfl
theorem after0_1 (c : Dev nD) (t : Fin (cfg0 a).N) : (dat0 V a hchk c).after 1 t = iblk0 V a c 1 t := by dsimp only [dat0]; rfl
theorem after0_2 (c : Dev nD) (t : Fin (cfg0 a).N) : (dat0 V a hchk c).after 2 t = iblk0 V a c 2 t := by dsimp only [dat0]; rfl
theorem after0_3 (c : Dev nD) (t : Fin (cfg0 a).N) : (dat0 V a hchk c).after 3 t = iblk0 V a c 3 t := by dsimp only [dat0]; rfl
theorem after0_4 (c : Dev nD) (t : Fin (cfg0 a).N) : (dat0 V a hchk c).after 4 t = iblk0 V a c 4 t := by dsimp only [dat0]; rfl
theorem after0_5 (c : Dev nD) (t : Fin (cfg0 a).N) : (dat0 V a hchk c).after 5 t = iblk0 V a c 5 t := by dsimp only [dat0]; rfl
theorem after0_6 (c : Dev nD) (t : Fin (cfg0 a).N) : (dat0 V a hchk c).after 6 t = iblk0 V a c 6 t := by dsimp only [dat0]; rfl
theorem after0_7 (c : Dev nD) (t : Fin (cfg0 a).N) : (dat0 V a hchk c).after 7 t = iblk0 V a c 7 t := by dsimp only [dat0]; rfl
theorem after0_8 (c : Dev nD) (t : Fin (cfg0 a).N) : (dat0 V a hchk c).after 8 t = iblk0 V a c 8 t := by dsimp only [dat0]; rfl
theorem after0_9 (c : Dev nD) (t : Fin (cfg0 a).N) : (dat0 V a hchk c).after 9 t = iblk0 V a c 9 t := by dsimp only [dat0]; rfl
theorem after0_10 (c : Dev nD) (t : Fin (cfg0 a).N) : (dat0 V a hchk c).after 10 t = gates0 (F := F) (erow V a hchk c) (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t) := by dsimp only [dat0]; rfl
theorem after0_11 (c : Dev nD) (t : Fin (cfg0 a).N) : (dat0 V a hchk c).after 11 t = attn0 (F := F) (erow V a hchk c) (iblk0 V a c 0 t) (iblk0 V a c 2 t) (iblk0 V a c 3 t) := by dsimp only [dat0]; rfl

theorem before0_0 (c : Dev nD) (t : Fin (cfg0 a).N) (d) : (dat0 V a hchk c).before 0 t d = iblk0 V a c 0 t :=
  before0_0_of V a (dat0 V a hchk c) (A_eq0 V a hchk c 0) (after0_0 V a hchk c) t d
theorem before0_1 (c : Dev nD) (t : Fin (cfg0 a).N) (d) : (dat0 V a hchk c).before 1 t d = iblk0 V a c 1 t :=
  before0_1_of V a (dat0 V a hchk c) (A_eq0 V a hchk c 1) (after0_1 V a hchk c) t d
theorem before0_2 (c : Dev nD) (t : Fin (cfg0 a).N) (d) : (dat0 V a hchk c).before 2 t d = iblk0 V a c 2 t :=
  before0_2_of V a (dat0 V a hchk c) (A_eq0 V a hchk c 2) (after0_2 V a hchk c) t d
theorem before0_3 (c : Dev nD) (t : Fin (cfg0 a).N) (d) : (dat0 V a hchk c).before 3 t d = iblk0 V a c 3 t :=
  before0_3_of V a (dat0 V a hchk c) (A_eq0 V a hchk c 3) (after0_3 V a hchk c) t d
theorem before0_4 (c : Dev nD) (t : Fin (cfg0 a).N) (d) : (dat0 V a hchk c).before 4 t d = iblk0 V a c 4 t :=
  before0_4_of V a (dat0 V a hchk c) (A_eq0 V a hchk c 4) (after0_4 V a hchk c) t d
theorem before0_5 (c : Dev nD) (t : Fin (cfg0 a).N) (d) : (dat0 V a hchk c).before 5 t d = iblk0 V a c 5 t :=
  before0_5_of V a (dat0 V a hchk c) (A_eq0 V a hchk c 5) (after0_5 V a hchk c) t d
theorem before0_6 (c : Dev nD) (t : Fin (cfg0 a).N) (d) : (dat0 V a hchk c).before 6 t d = iblk0 V a c 6 t :=
  before0_6_of V a (dat0 V a hchk c) (A_eq0 V a hchk c 6) (after0_6 V a hchk c) t d
theorem before0_7 (c : Dev nD) (t : Fin (cfg0 a).N) (d) : (dat0 V a hchk c).before 7 t d = iblk0 V a c 7 t :=
  before0_7_of V a (dat0 V a hchk c) (A_eq0 V a hchk c 7) (after0_7 V a hchk c) t d
theorem before0_8 (c : Dev nD) (t : Fin (cfg0 a).N) (d) : (dat0 V a hchk c).before 8 t d = iblk0 V a c 8 t :=
  before0_8_of V a (dat0 V a hchk c) (A_eq0 V a hchk c 8) (after0_8 V a hchk c) t d
theorem before0_9 (c : Dev nD) (t : Fin (cfg0 a).N) (d) : (dat0 V a hchk c).before 9 t d = iblk0 V a c 9 t :=
  before0_9_of V a (dat0 V a hchk c) (A_eq0 V a hchk c 9) (after0_9 V a hchk c) t d

/-! ## The body obligation -/

/-- Window `w`'s current staging memref at point `t`. -/
abbrev st0 (w : Fin (cfg0 a).W) (t : Fin (cfg0 a).N) := ((cfg0 a).win w).stage ((cfg0 a).slots t w)

def bodyPre0 (c : Dev nD) (t : Fin (cfg0 a).N) : sProp 𝕄 :=
  iprop((dat0 V a hchk c).Φ t.castSucc ∗ (dat0 V a hchk c).owesAt () t.castSucc
    ∗ (∃ d, owns (c : Thread nD τ) (st0 a 0 t) fullShare ((dat0 V a hchk c).before 0 t d))
    ∗ (∃ d, owns (c : Thread nD τ) (st0 a 1 t) fullShare ((dat0 V a hchk c).before 1 t d))
    ∗ (∃ d, owns (c : Thread nD τ) (st0 a 2 t) fullShare ((dat0 V a hchk c).before 2 t d))
    ∗ (∃ d, owns (c : Thread nD τ) (st0 a 3 t) fullShare ((dat0 V a hchk c).before 3 t d))
    ∗ (∃ d, owns (c : Thread nD τ) (st0 a 4 t) fullShare ((dat0 V a hchk c).before 4 t d))
    ∗ (∃ d, owns (c : Thread nD τ) (st0 a 5 t) fullShare ((dat0 V a hchk c).before 5 t d))
    ∗ (∃ d, owns (c : Thread nD τ) (st0 a 6 t) fullShare ((dat0 V a hchk c).before 6 t d))
    ∗ (∃ d, owns (c : Thread nD τ) (st0 a 7 t) fullShare ((dat0 V a hchk c).before 7 t d))
    ∗ (∃ d, owns (c : Thread nD τ) (st0 a 8 t) fullShare ((dat0 V a hchk c).before 8 t d))
    ∗ (∃ d, owns (c : Thread nD τ) (st0 a 9 t) fullShare ((dat0 V a hchk c).before 9 t d))
    ∗ (∃ d, owns (c : Thread nD τ) (st0 a 10 t) fullShare ((dat0 V a hchk c).before 10 t d))
    ∗ (∃ d, owns (c : Thread nD τ) (st0 a 11 t) fullShare ((dat0 V a hchk c).before 11 t d)))

def bodyPost0 (c : Dev nD) (t : Fin (cfg0 a).N) : sProp 𝕄 :=
  iprop((dat0 V a hchk c).Φ t.succ ∗ (dat0 V a hchk c).owesAt () t.succ
    ∗ owns (c : Thread nD τ) (st0 a 0 t) fullShare ((dat0 V a hchk c).after 0 t)
    ∗ owns (c : Thread nD τ) (st0 a 1 t) fullShare ((dat0 V a hchk c).after 1 t)
    ∗ owns (c : Thread nD τ) (st0 a 2 t) fullShare ((dat0 V a hchk c).after 2 t)
    ∗ owns (c : Thread nD τ) (st0 a 3 t) fullShare ((dat0 V a hchk c).after 3 t)
    ∗ owns (c : Thread nD τ) (st0 a 4 t) fullShare ((dat0 V a hchk c).after 4 t)
    ∗ owns (c : Thread nD τ) (st0 a 5 t) fullShare ((dat0 V a hchk c).after 5 t)
    ∗ owns (c : Thread nD τ) (st0 a 6 t) fullShare ((dat0 V a hchk c).after 6 t)
    ∗ owns (c : Thread nD τ) (st0 a 7 t) fullShare ((dat0 V a hchk c).after 7 t)
    ∗ owns (c : Thread nD τ) (st0 a 8 t) fullShare ((dat0 V a hchk c).after 8 t)
    ∗ owns (c : Thread nD τ) (st0 a 9 t) fullShare ((dat0 V a hchk c).after 9 t)
    ∗ owns (c : Thread nD τ) (st0 a 10 t) fullShare ((dat0 V a hchk c).after 10 t)
    ∗ owns (c : Thread nD τ) (st0 a 11 t) fullShare ((dat0 V a hchk c).after 11 t))

/-- The invariant, conjunct by conjunct: the scoped buffers the pipeline does not stage (the thirteen staging buffers of
    the other shapes are the pipeline's; what is left is the scratch row), the generator register, the copy's cell at
    zero, the embedding table, the prefetched table. -/
theorem Φ0_eq (c : Dev nD) :
    (Φ0 V a c : sProp 𝕄) = iprop((Pipeline.scopedRest (Ix := Unit) (Name := ℕ) (U := Pipeline.UD sig nD τ) (Lvl := ℕ) (Val := Elt F) spec0 c
        ∗ (∃ r, prngReg c r) ∗ semVal ((c : Thread nD τ), SemLoc.dma 13) 0 ∗ hbPt (F := F) c embM (V c main_arg4))
      ∗ Pipeline.prefHeld (Ix := Unit) (Name := ℕ) (U := Pipeline.UD sig nD τ) (Lvl := ℕ) pre0 c (fun _ => fullShare) a.1) := by
  unfold Φ0; rw [Pipeline.ΦD_eq, ownSems00_eq, hbmPts0_eq]

/-- The prefetched table held whole is its one-word memref owned at its contents. -/
theorem prefHeld0_eq (c : Dev nD) :
    (Pipeline.prefHeld (Ix := Unit) (Name := ℕ) (U := Pipeline.UD sig nD τ) (Lvl := ℕ) pre0 c (fun _ => fullShare) a.1 : sProp 𝕄)
      = owns (c : Thread nD τ) tblM fullShare (a.1 0) := by
  unfold Pipeline.prefHeld
  rw [BI.bigSep_eq_bigSepL_of_eq [(0 : Fin 1)] (by decide) (by decide)]
  exact (owns_whole (c : Thread nD τ) main_v1 fullShare (a.1 0)).symm

/-- The scratch row's buffer at some contents is its whole memref owned at some contents. -/
theorem scratch_owns_eq (c : Dev nD) :
    (iprop(∃ f : Buf (Elt F) ((c : Thread nD τ).loc cc0_scratch0), ((c : Thread nD τ).loc cc0_scratch0) ↦{fullShare} f) : sProp 𝕄)
      = iprop(∃ d, owns (c : Thread nD τ) scrM fullShare d) := by
  simp only [scrM, owns_whole]; try rfl

/-- The body at any point: the inputs' memrefs hold their blocks, the table's word is in range, so the body's run
    applies; the invariant hands the body its scratch, its cell at zero, the embedding table and the prefetched table,
    and takes them back as they were; the core's `owes` comes back with this point's wait recorded. -/
theorem sound_body0 (c : Dev nD) (t : Fin (cfg0 a).N) :
    bodyPre0 V a hchk c t ⊢ wp frame (wpE (defs₀ (F := F)) Variants.none c none) Set.univ
      (defs₀ (F := F) .tc (cfg0 a).body ((cfg0 a).bodyArgs t ((cfg0 a).slots t))) (fun _ => bodyPost0 V a hchk c t) := by
  unfold bodyPre0 bodyPost0
  simp only [before0_0, before0_1, before0_2, before0_3, before0_4, before0_5, before0_6, before0_7, before0_8, before0_9]
  rw [show (dat0 V a hchk c).Φ t.succ = (dat0 V a hchk c).Φ t.castSucc from rfl,
    after0_0, after0_1, after0_2, after0_3, after0_4, after0_5, after0_6, after0_7, after0_8, after0_9, after0_10, after0_11]
  rw [show (dat0 V a hchk c).Φ t.castSucc = Φ0 V a c from rfl, Φ0_eq, scopedRest0_eq]
  unfold Dat.owesAt Pipeline.owesWithin
  rw [show (dat0 V a hchk c).owed t.castSucc = 0 from rfl, show (dat0 V a hchk c).owed t.succ = 0 from rfl]
  rw [prefHeld0_eq, scratch_owns_eq]
  iintro ⟨⟨⟨⟨HS0, HR1, HR2, HR3, HR4, HR5, HR6, HR7⟩, Hg, Hq0, Hh0⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c _ _ _ _ _ _ _ _ _ _ _ _ _ _ _ _ _ _ _ _ _ _ _ _ _ _ _ (a.1 0) hchk
    (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t) (V c main_arg4) W _)
  -- in: the table, the ten input blocks, the two outputs' buffers at anything, the scratch, the cell at zero, the
  -- embedding table, the core's owes
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [Hq0]; · iexact Hq0
  isplitl [Hh0]; · iexact Hh0
  isplitl [HW]; · iexact HW
  -- back: the invariant as it was, this point's wait recorded within the next point's bound (everything), every window's
  -- buffer at what the proof data say the body leaves
  iintro ⟨HT, H0, H1, H2, H3, H4, H5, H6, H7, H8, H9, H10, H11, HS0, Hq0, Hh0, ⟨%W', HW'⟩⟩
  isplitl [HS0 HR1 HR2 HR3 HR4 HR5 HR6 HR7 Hg Hq0 Hh0 HT]
  · isplitl [HS0 HR1 HR2 HR3 HR4 HR5 HR6 HR7 Hg Hq0 Hh0]
    · isplitl [HS0 HR1 HR2 HR3 HR4 HR5 HR6 HR7]
      · isplitl [HS0]; · iexact HS0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      isplitl [Hg]; · iexact Hg
      isplitl [Hq0]; · iexact Hq0
      iexact Hh0
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 V a hchk c) (defs₀ (F := F)) Variants.none () Set.univ := fun t => by
  rw [bigSep_W0, bigSep_W0]
  exact sound_body0 V a hchk c t

end Cert.Kernel.Hand

end
-- ==== Proof.K.RFrame.lean ====
/-
  The frame of the printed program at any float instance: every weakly fair execution of @main terminates, nothing
  faults, and every argument array ends as launched. No output's contents are named past the first kernel: the first
  kernel's two outputs are functions of its input blocks and of the embedding row at the clamped token id, so the hidden
  row the host makes of them, which the second kernel reads, is a named function of the launch memory; of the second
  kernel's output (whose last tile overhangs the vocabulary's end) only SOME contents are claimed, and the host stretch
  after it runs from whatever those are.
-/
import proofs.«424451_j23149873725851_3_alg».proof.Proof.Gen.Kernel.Regions
import proofs.«424451_j23149873725851_3_alg».proof.Proof.Gen.Kernel.Skeleton
import proofs.«424451_j23149873725851_3_alg».proof.Proof.Gen.Kernel.Points
import proofs.«424451_j23149873725851_3_alg».proof.Proof.K.Body0
import proofs.«424451_j23149873725851_3_alg».proof.Proof.K.Body1
import proofs.«424451_j23149873725851_3_alg».proof.Proof.K.Dat0
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

namespace RFrame

/-! ## What the arrays may hold after the write-backs, as one choice of contents -/

/-- The arrays after the write-backs below a point, each at some contents it may then hold, are the arrays at one choice
    of such contents for all windows at once. -/
theorem arraysAt_elim {cfg : Cfg sig Λ₀} {c : Dev nD} (rd : RDat τ (Elt F) Unit ℕ (Pipeline.UD sig nD τ) ℕ cfg c) (n : Nat) :
    (rd.arraysAt n : sProp 𝕄) ⊢ iprop(∃ G : (w : Fin cfg.W) → Buf (Elt F) ((cfg.win w).arr.view.loc (c : Thread nD τ)),
      ⌜∀ w, rd.ArrAt w n (G w)⌝ ∗ rd.arrays G) := by
  unfold RDat.arraysAt RDat.arrays
  iintro H
  ihave H' := (bigSep_exists_pi (M := 𝕄) Finset.univ (fun (w : Fin cfg.W) (G : Buf (Elt F) ((cfg.win w).arr.view.loc (c : Thread nD τ))) =>
    iprop(⌜rd.ArrAt w n G⌝ ∗ (cfg.win w).arr.view.loc (c : Thread nD τ) ↦[(cfg.win w).arr.view.set]{rd.share w} G))) $$ H
  icases H' with ⟨%G, H⟩
  ihave H'' := (bigSep_pure_sep (M := 𝕄) Finset.univ (fun w : Fin cfg.W => rd.ArrAt w n (G w))
    (fun w => (cfg.win w).arr.view.loc (c : Thread nD τ) ↦[(cfg.win w).arr.view.set]{rd.share w} G w)) $$ H
  icases H'' with ⟨%hG, H⟩
  iexists G
  isplitr
  · ipureintro; exact fun w => hG w (Finset.mem_univ w)
  iexact H

/-! ## Region 1 (the vocabulary projection over thirteen tiles): relational data that names no contents -/

section Region1

variable (V : (c : Dev nD) → (b : Ref sig .tc) → Buf (Elt F) ((c : Thread nD τ).loc b))

/-- The proof data of pipeline 1 on core `c`: the arrays as the region finds them; of what the body leaves in any
    window's buffer nothing is said; the invariant is the scoped rest and the generator register, untouched; nothing
    owed; full shares. -/
def rdat1 (c : Dev nD) : RDat τ (Elt F) Unit ℕ (Pipeline.UD sig nD τ) ℕ cfg1 c where
  A w := V c (Pipeline.arrRef spec1 w)
  after _ _ _ _ := True
  Φ _ := Pipeline.ΦA spec1 c
  q _ := fullShare
  owed _ := 0

/-- The body at any point, on whatever the four current buffers hold: the three inputs come back as they were and the
    output's buffer at something. -/
theorem sound_body1 (c : Dev nD) (t : Fin cfg1.N) (Y : (w : Fin cfg1.W) → (cfg1.win w).block.Idx → Elt F (cfg1.win w).elt) :
    iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) (fun _ =>
          iprop((rdat1 V c).Φ t.succ ∗ (rdat1 V c).owesAt () t.succ
            ∗ (∃ X, ⌜(rdat1 V c).after 0 t (Y 0) X⌝ ∗ owns (c : Thread nD τ) (st1_0 t) fullShare X)
            ∗ (∃ X, ⌜(rdat1 V c).after 1 t (Y 1) X⌝ ∗ owns (c : Thread nD τ) (st1_1 t) fullShare X)
            ∗ (∃ X, ⌜(rdat1 V c).after 2 t (Y 2) X⌝ ∗ owns (c : Thread nD τ) (st1_2 t) fullShare X)
            ∗ (∃ X, ⌜(rdat1 V c).after 3 t (Y 3) X⌝ ∗ owns (c : Thread nD τ) (st1_3 t) fullShare X))) := by
  rw [show (rdat1 V c).Φ t.succ = (rdat1 V c).Φ t.castSucc from rfl,
    show (rdat1 V c).owesAt () t.succ = (rdat1 V c).owesAt () t.castSucc from rfl]
  unfold bodyAt1
  iintro ⟨HΦ, Ho, H0, H1, H2, H3⟩
  iapply (sound_kernel1 c Set.univ (grid1.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  iexists _; isplitr
  swap; · iexact H3
  ipureintro; trivial

/-- The body obligation of relational data, at every point. -/
theorem body_obligation1 (c : Dev nD) : (rdat1 V c).BodyObligation (defs₀ (F := F)) Variants.none () Set.univ := fun t Y _ => by
  rw [bigSep_W1, bigSep_W1]
  exact sound_body1 V c t Y

end Region1

/-! ## The run: tables, valuations between the items, the proof data family -/

section Run

variable (m : (ℓ : Loc nD τ sig) → Buf (Elt F) ℓ)
variable (a : (pcfg0 (F := F)).Adm) (hchk : k0_chk1 (tblWord a))

/-- The prefetched tables' admissible contents: region 0's one table at `a`; region 1 has none. -/
abbrev adm : (p : Fin 2) → (pcfgs (F := F) p).Adm
  | ⟨0, _⟩ => a
  | ⟨1, _⟩ => cfg1.toPCfg_adm

/-- The unscoped buffers when region 0 is entered, read at the TensorCore's references. -/
abbrev VR3 : (c : Dev nD) → (b : Ref sig .tc) → Buf (Elt F) ((c : Thread nD τ).loc b) := fun c b => V3 m c b

/-- What region 0 leaves in its two output arrays (any item's slot of the unknowns holds the same): each array at what
    the exact data's write-backs fold to, read off the valuation with region 0's arrays so replaced. -/
def outs0 : Outs (F := F) := fun _ r c =>
  Pipeline.withArrays spec0 c (V3 m c) (fun w => (dat0 (VR3 m) a hchk c).arrAt w (cfg0 a).N) (Proc.devRef .tc r)

/-- The unscoped buffers when region 1 is entered. -/
abbrev VR5 : (c : Dev nD) → (b : Ref sig .tc) → Buf (Elt F) ((c : Thread nD τ).loc b) := fun c b => V5 m (outs0 m a hchk) c b

/-- Every pipeline's proof data: region 0's exact data read relationally, region 1's that names nothing. -/
def rdats : (p : Fin 2) → (c : Dev nD) → RDat τ (Elt F) Unit ℕ (Pipeline.UD sig nD τ) ℕ (Pipeline.pin (pcfgs (F := F)) (adm a) p) c
  | ⟨0, _⟩ => fun c => (dat0 (VR3 m) a hchk c).toR
  | ⟨1, _⟩ => fun c => rdat1 (VR5 m a hchk) c

/-- The unknowns with region 1's output on core `c` at `o`, region 0's as named. -/
def outsWith (c : Dev nD) (o : Buf (Elt F) ((c : Thread nD τ).loc main_v38)) : Outs (F := F) := fun J =>
  if J = 6 then Function.update (outs0 m a hchk 6) main_v38 (Function.update (outs0 m a hchk 6 main_v38) c o) else outs0 m a hchk J

theorem outsWith_4 (c : Dev nD) (o : Buf (Elt F) ((c : Thread nD τ).loc main_v38)) : outsWith m a hchk c o 4 = outs0 m a hchk 4 :=
  if_neg (by decide)
theorem outsWith_6 (c : Dev nD) (o : Buf (Elt F) ((c : Thread nD τ).loc main_v38)) : outsWith m a hchk c o 6 main_v38 c = o := by
  unfold outsWith; rw [if_pos rfl, Function.update_self, Function.update_self]

theorem V5_with (c : Dev nD) (o : Buf (Elt F) ((c : Thread nD τ).loc main_v38)) :
    V5 m (outsWith m a hchk c o) c = V5 m (outs0 m a hchk) c := by
  unfold V5 V4; rw [outsWith_4]

theorem V6_with (c : Dev nD) (o : Buf (Elt F) ((c : Thread nD τ).loc main_v38)) :
    V6 m (outsWith m a hchk c o) c = Function.update (V5 m (outs0 m a hchk) c) (Proc.devRef .tc main_v38) o := by
  unfold V6; rw [V5_with, outsWith_6]

end Run

/-! ## The thread state between items, and host stretches entered from SOME contents -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- A family of host segments with ONE program: entered from some member's thread state, it is left at that member's. -/
def hostSegOfFamily {ι : Dev nD → Type}
    (Hs : (c : Dev nD) → ι c → Pipeline.HostSeg (Name := ℕ) (U := Pipeline.UD sig nD τ) (pcfgs (F := F)) defs₀ 𝒱₀ L lv)
    (prog : Prog (TpuEff nD τ sig (Elt F) (Pipeline.Sig Λ₀ (Fin 2) fun p => (pcfgs (F := F) p).Adm) .tc) PUnit)
    (hprog : ∀ c i, (Hs c i).prog = prog) :
    Pipeline.HostSeg (Name := ℕ) (U := Pipeline.UD sig nD τ) (pcfgs (F := F)) defs₀ 𝒱₀ L lv where
  prog := prog
  pre c := iprop(∃ i, (Hs c i).pre c)
  post c := iprop(∃ i, (Hs c i).post c)
  run c {β} k K := by
    iintro ⟨Hk, Hbd, ⟨%i, Hpre⟩, Hla⟩
    rw [← hprog c i]
    iapply (Hs c i).run c k K
    isplitl [Hk]
    · iintro ⟨Hbd, Hpost⟩
      iapply Hk
      isplitl [Hbd]; · iexact Hbd
      iexists i; iexact Hpost
    isplitl [Hbd]; · iexact Hbd
    isplitl [Hpre]; · iexact Hpre
    iexact Hla

section Run2

variable (m : (ℓ : Loc nD τ sig) → Buf (Elt F) ℓ)
variable (a : (pcfg0 (F := F)).Adm) (hchk : k0_chk1 (tblWord a))

theorem share1 (c : Dev nD) (w : Fin (Pipeline.pin (pcfgs (F := F)) (adm a) 1).W) : (rdats m a hchk 1 c).share w = fullShare := by
  unfold RDat.share; split <;> rfl

theorem share0 (c : Dev nD) (w : Fin (Pipeline.pin (pcfgs (F := F)) (adm a) 0).W) : (rdats m a hchk 0 c).share w = fullShare := by
  unfold RDat.share; split <;> rfl

set_option backward.isDefEq.respectTransparency.types false in
/-- EXIT, the arrays' part, of relational data: pipeline `p`'s arrays at contents `G` and the unscoped rest at `V` are the
    core's unscoped buffers at any valuation `V'` that has the arrays at `G` and agrees with `V` off them. -/
theorem unscopedBufs_of_arraysR {p : Fin 2} (hw : Pipeline.WinFacts (Pipeline.pin (pcfgs (F := F)) (adm a) p).spec)
    (harr : ∀ w, ((Pipeline.pin (pcfgs (F := F)) (adm a) p).spec w).arr.IsWhole)
    (c : Dev nD) (hshare : ∀ w, (rdats m a hchk p c).share w = fullShare)
    (V V' : (b : Ref sig .tc) → Buf (Elt F) ((c : Thread nD τ).loc b))
    (G : (w : Fin (Pipeline.pin (pcfgs (F := F)) (adm a) p).W) → Buf (Elt F) (((Pipeline.pin (pcfgs (F := F)) (adm a) p).spec w).arr.view.loc (c : Thread nD τ)))
    (hG : ∀ w, G w = V' (Pipeline.arrRef (Pipeline.pin (pcfgs (F := F)) (adm a) p).spec w))
    (hrest : ∀ b, b ∉ Finset.univ.image (Pipeline.arrRef (Pipeline.pin (pcfgs (F := F)) (adm a) p).spec) → V' b = V b) :
    iprop((rdats m a hchk p c).arrays G ∗ Pipeline.unscopedRest (Ix := Unit) (Name := ℕ) (U := Pipeline.UD sig nD τ) (Lvl := ℕ) (Pipeline.pin (pcfgs (F := F)) (adm a) p).spec c V)
      ⊢ (unscopedBufs c V' : sProp 𝕄) := by
  rw [Pipeline.unscopedBufs_split (Pipeline.pin (pcfgs (F := F)) (adm a)) p hw.arr_unscoped hw.arr_inj c V',
    Pipeline.RDat.arrays_eq (pcfgs (F := F)) (adm a) (rdats m a hchk) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## Region 1 as a segment -/

/-- An input array of region 1 is never written: after the write-backs it holds its entry contents, which the valuation
    after the region still has there (the region changes its output array only). -/
theorem hG1_in (c : Dev nD) (o : Buf (Elt F) ((c : Thread nD τ).loc main_v38)) (w : Fin cfg1.W) (hin : (cfg1.win w).isOut = false)
    (hne : Pipeline.arrRef spec1 w ≠ main_v38) (g : Buf (Elt F) ((cfg1.win w).arr.view.loc (c : Thread nD τ)))
    (hg : (rdat1 (VR5 m a hchk) c).ArrAt w cfg1.N g) :
    g = V6 m (outsWith m a hchk c o) c (Proc.devRef .tc (Pipeline.arrRef spec1 w)) := by
  have hg' : g = (rdat1 (VR5 m a hchk) c).A w := Eq.mp (congrFun ((rdat1 (VR5 m a hchk) c).ArrAt_in w hin cfg1.N) g) hg
  rw [hg', V6_with, Function.update_of_ne (StableHlo.devRef_ne_of_ne hne)]
  rfl

theorem hG1 (c : Dev nD) (G : (w : Fin cfg1.W) → Buf (Elt F) ((cfg1.win w).arr.view.loc (c : Thread nD τ)))
    (hG : ∀ w, (rdat1 (VR5 m a hchk) c).ArrAt w cfg1.N (G w)) (w : Fin cfg1.W) :
    G w = V6 m (outsWith m a hchk c (G 3)) c (Proc.devRef .tc (Pipeline.arrRef spec1 w)) := by
  match w with
  | ⟨0, _⟩ => exact hG1_in m a hchk c (G 3) 0 rfl (by decide) _ (hG 0)
  | ⟨1, _⟩ => exact hG1_in m a hchk c (G 3) 1 rfl (by decide) _ (hG 1)
  | ⟨2, _⟩ => exact hG1_in m a hchk c (G 3) 2 rfl (by decide) _ (hG 2)
  | ⟨3, _⟩ =>
    rw [V6_with]
    exact (Function.update_self (Proc.devRef (τ := τ) .tc main_v38) (G 3) (V5 m (outs0 m a hchk) c)).symm

theorem hrest1 (c : Dev nD) (o : Buf (Elt F) ((c : Thread nD τ).loc main_v38)) (b : Ref sig .tc)
    (hb : b ∉ Finset.univ.image (Pipeline.arrRef spec1)) :
    V6 m (outsWith m a hchk c o) c (Proc.devRef .tc b) = V5 m (outs0 m a hchk) c (Proc.devRef .tc b) := by
  have hne : b ≠ main_v38 := fun e => hb (Finset.mem_image.mpr ⟨3, Finset.mem_univ _, e.symm⟩)
  rw [V6_with, Function.update_of_ne (StableHlo.devRef_ne_of_ne hne)]

set_option backward.isDefEq.respectTransparency.types false in
/-- REGION 1 over the thread state: entered from every unscoped buffer at the named contents, left with its output array
    at SOME contents and every other buffer as entered. -/
def reg1 : Pipeline.RDat.RegionSeg (pcfgs (F := F)) (adm a) (rdats m a hchk) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := body_obligation1 (VR5 m a hchk) c
  hwaits := Pipeline.RDat.hwaits_of_owed_zero _ _ _ _ L lv 1 fun _ _ => rfl
  pre c := iprop(StableHlo.held (c : Thread nD τ) (Pipeline.ucRefs τ sig) (V5 m (outs0 m a hchk) c) ∗ R c)
  post c := iprop(∃ o : Buf (Elt F) ((c : Thread nD τ).loc main_v38),
    StableHlo.held (c : Thread nD τ) (Pipeline.ucRefs τ sig) (V6 m (outsWith m a hchk c o) c) ∗ R c)
  X c := iprop(∃ r, prngReg c r)
  Y c := iprop(∃ r, prngReg c r)
  Z c := Pipeline.unscopedRest (Ix := Unit) (Name := ℕ) (U := Pipeline.UD sig nD τ) (Lvl := ℕ) spec1 c (VR5 m a hchk c)
  hentry c := by
    rw [Pipeline.ownSems0_none]
    have hsplit := Pipeline.RDat.arrays_of_unscopedBufs (p := 1) (pcfgs (F := F)) (adm a) (rdats m a hchk) (launch1 (F := F)).win (launch1 (F := F)).arr_whole c
      (share1 m a hchk c) (VR5 m a hchk c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m a hchk 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m a hchk 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_elim (rdats m a hchk 1 c) cfg1.N) $$ Ha
    icases Ha' with ⟨%G, %hG, Ha⟩
    have hjoin := unscopedBufs_of_arraysR m a hchk (p := 1) (launch1 (F := F)).win (launch1 (F := F)).arr_whole c (share1 m a hchk c)
      (VR5 m a hchk c) (fun b => V6 m (outsWith m a hchk c (G 3)) c b) G (hG1 m a hchk c G hG)
      (fun b hb => hrest1 m a hchk c (G 3) b hb)
    rw [Pipeline.unscopedBufs_held] at hjoin
    imodintro
    iexists (G 3)
    isplitl [Ha Hrest]
    · iapply hjoin; isplitl [Ha] <;> iassumption
    isplitl [HY]; · iexact HY
    unfold Pipeline.RDat.owesAt Pipeline.owesWithin
    icases HO with ⟨%W, -, HO⟩; iexists W; iexact HO

end Run2

section Run3

variable (m : (ℓ : Loc nD τ sig) → Buf (Elt F) ℓ)
variable (a : (pcfg0 (F := F)).Adm) (hchk : k0_chk1 (tblWord a))

/-! ## Region 0 as a segment -/

/-- The embedding table bypasses the pipeline and is not the prefetched table. -/
theorem H0_subP : H0 ⊆ Pipeline.restRefsP sig pre0 spec0 := by decide

/-- An input array of region 0 is never written: the write-backs fold to its entry contents, which the valuation after
    the region still has there (the region changes its two output arrays only). -/
theorem hG0_in (c : Dev nD) (w : Fin 12) (hin : ((cfg0 a).win w).isOut = false)
    (hne : Pipeline.arrRef spec0 w ∉ ([main_v9_0, main_v9_1] : List (Ref sig .tc))) :
    (dat0 (VR3 m) a hchk c).arrAt w (cfg0 a).N = V4 m (outs0 m a hchk) c (Proc.devRef .tc (Pipeline.arrRef spec0 w)) :=
  ((dat0 (VR3 m) a hchk c).arrAt_in w hin _).trans ((A_eq0 (VR3 m) a hchk c w).trans (V4_of m _ c _ hne).symm)

theorem hG0 (c : Dev nD) (w : Fin 12) :
    (dat0 (VR3 m) a hchk c).arrAt w (cfg0 a).N = V4 m (outs0 m a hchk) c (Proc.devRef .tc (Pipeline.arrRef spec0 w)) := by
  match w with
  | ⟨0, _⟩ => exact hG0_in m a hchk c 0 rfl (by decide)
  | ⟨1, _⟩ => exact hG0_in m a hchk c 1 rfl (by decide)
  | ⟨2, _⟩ => exact hG0_in m a hchk c 2 rfl (by decide)
  | ⟨3, _⟩ => exact hG0_in m a hchk c 3 rfl (by decide)
  | ⟨4, _⟩ => exact hG0_in m a hchk c 4 rfl (by decide)
  | ⟨5, _⟩ => exact hG0_in m a hchk c 5 rfl (by decide)
  | ⟨6, _⟩ => exact hG0_in m a hchk c 6 rfl (by decide)
  | ⟨7, _⟩ => exact hG0_in m a hchk c 7 rfl (by decide)
  | ⟨8, _⟩ => exact hG0_in m a hchk c 8 rfl (by decide)
  | ⟨9, _⟩ => exact hG0_in m a hchk c 9 rfl (by decide)
  | ⟨10, _⟩ =>
    show _ = Function.update (Function.update (V3 m c) (Proc.devRef .tc main_v9_0) (outs0 m a hchk 4 main_v9_0 c)) (Proc.devRef .tc main_v9_1) (outs0 m a hchk 4 main_v9_1 c) (Proc.devRef .tc main_v9_0)
    rw [Function.update_of_ne (StableHlo.devRef_ne_of_ne (by decide)), Function.update_self]
    exact (Pipeline.withArrays_arr spec0 (launch0 (F := F)).win.arr_inj c (V3 m c) (fun w => (dat0 (VR3 m) a hchk c).arrAt w (cfg0 a).N) 10).symm
  | ⟨11, _⟩ =>
    show _ = Function.update (Function.update (V3 m c) (Proc.devRef .tc main_v9_0) (outs0 m a hchk 4 main_v9_0 c)) (Proc.devRef .tc main_v9_1) (outs0 m a hchk 4 main_v9_1 c) (Proc.devRef .tc main_v9_1)
    rw [Function.update_self]
    exact (Pipeline.withArrays_arr spec0 (launch0 (F := F)).win.arr_inj c (V3 m c) (fun w => (dat0 (VR3 m) a hchk c).arrAt w (cfg0 a).N) 11).symm

theorem hrest0 (c : Dev nD) (b : Ref sig .tc) (hb : b ∉ Finset.univ.image (Pipeline.arrRef spec0)) :
    V4 m (outs0 m a hchk) c (Proc.devRef .tc b) = V3 m c (Proc.devRef .tc b) := by
  refine V4_of m _ c b fun hmem => ?_
  rcases List.mem_cons.mp hmem with e | hmem
  · exact hb (Finset.mem_image.mpr ⟨10, Finset.mem_univ _, e.symm⟩)
  · rcases List.mem_cons.mp hmem with e | hmem
    · exact hb (Finset.mem_image.mpr ⟨11, Finset.mem_univ _, e.symm⟩)
    · exact absurd hmem List.not_mem_nil

set_option backward.isDefEq.respectTransparency.types false in
/-- REGION 0 over the thread state: entered from every unscoped buffer at the contents the host stretches before it leave,
    the prefetched table among them at `a` (`htb`); left with its two output arrays at what the exact data's write-backs
    fold to and every other buffer as entered. The table goes into the invariant whole and comes back out; the
    embedding table likewise, beside the copy's semaphore at zero. -/
def reg0 (htb : ∀ c : Dev nD, (fun k => VR3 m c (pre0.ref k)) = a.1) :
    Pipeline.RDat.RegionSeg (pcfgs (F := F)) (adm a) (rdats m a hchk) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (VR3 m) a hchk c).toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs0 m a hchk) c) ∗ R c)
  X c := iprop((∃ r, prngReg c r) ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} VR3 m c b))
  Y c := iprop((∃ r, prngReg c r) ∗ (bigSep H0 fun b => ((c : Thread nD τ).loc b) ↦{fullShare} VR3 m c b)
    ∗ Pipeline.prefHeld (Ix := Unit) (Name := ℕ) (U := Pipeline.UD sig nD τ) (Lvl := ℕ) pre0 c (fun _ => fullShare) a.1)
  Z c := bigSep (Pipeline.restRefsP sig pre0 spec0 \ H0) fun b => ((c : Thread nD τ).loc b) ↦{fullShare} VR3 m c b
  hentry c := by
    have hsplit := Pipeline.RDat.arrays_of_unscopedBufs (p := 0) (pcfgs (F := F)) (adm a) (rdats m a hchk) (launch0 (F := F)).win (launch0 (F := F)).arr_whole c
      (share0 m a hchk c) (VR3 m c) fun _ => rfl
    rw [Pipeline.unscopedBufs_held] at hsplit
    have hP := Pipeline.unscopedRest_split (Ix := Unit) (Name := ℕ) (U := Pipeline.UD sig nD τ) (Lvl := ℕ) (preFacts0) c (VR3 m c)
    have hH := Pipeline.unscopedRestP_sdiff pre0 spec0 H0 H0_subP c (VR3 m c)
    iintro ⟨⟨Hub, Hp, HO⟩, Hos, -⟩
    ihave H := hsplit $$ Hub
    icases H with ⟨Ha, Hrest⟩
    ihave H' := (Entails.of_eq hP) $$ Hrest
    icases H' with ⟨Htb, HrestP⟩
    ihave H'' := (Entails.of_eq hH) $$ HrestP
    icases H'' with ⟨HH, HR⟩
    imodintro
    isplitl [Ha]; · iexact Ha
    isplitl [Htb]; · rw [htb c]; iexact Htb
    isplitl [HO]
    · unfold Pipeline.RDat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (rdats m a hchk 0 c).Φ 0 = Φ0 (VR3 m) a c from rfl]; unfold Φ0; rw [Pipeline.ΦD_eq]
    iintro ⟨⟨Hp, Ho, HH⟩, Htb, Hr⟩
    isplitl [Hp Ho HH Hr]
    · isplitl [Hr]; · iexact Hr
      isplitl [Hp]; · iexact Hp
      isplitl [Ho]; · iexact Ho
      iexact HH
    iexact Htb
  hout c := by
    rw [show (rdats m a hchk 0 c).Φ (Fin.last _) = Φ0 (VR3 m) a c from rfl]; unfold Φ0; rw [Pipeline.ΦD_eq]
    iintro ⟨⟨Hr, Hp, Ho, HH⟩, Htb⟩
    isplitl [Hp HH Htb]
    · isplitl [Hp]; · iexact Hp
      isplitl [HH]; · iexact HH
      iexact Htb
    isplitl [Ho]; · iexact Ho
    iexact Hr
  hexit c := by
    have hP := Pipeline.unscopedRest_split (Ix := Unit) (Name := ℕ) (U := Pipeline.UD sig nD τ) (Lvl := ℕ) (preFacts0) c (VR3 m c)
    have hH := Pipeline.unscopedRestP_sdiff pre0 spec0 H0 H0_subP c (VR3 m c)
    iintro ⟨Ha, HO, ⟨HY, HH, Htb⟩, HR⟩
    ihave Ha' := (arraysAt_elim (rdats m a hchk 0 c) (cfg0 a).N) $$ Ha
    icases Ha' with ⟨%G, %hG, Ha⟩
    have hjoin := unscopedBufs_of_arraysR m a hchk (p := 0) (launch0 (F := F)).win (launch0 (F := F)).arr_whole c (share0 m a hchk c)
      (VR3 m c) (fun b => V4 m (outs0 m a hchk) c b) G
      (fun w => ((dat0 (VR3 m) a hchk c).toR_arrAt w _ _ (hG w)).trans (hG0 m a hchk c w))
      (fun b hb => hrest0 m a hchk c b hb)
    rw [Pipeline.unscopedBufs_held] at hjoin
    ihave HrestP := (Entails.of_eq hH.symm) $$ [HH HR]
    · isplitl [HH]; · iexact HH
      iexact HR
    ihave Hrest := (Entails.of_eq hP.symm) $$ [Htb HrestP]
    · isplitl [Htb]; · rw [htb c]; iexact Htb
      iexact HrestP
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Run3

section Run4

variable (m : (ℓ : Loc nD τ sig) → Buf (Elt F) ℓ) (ρ : Dev nD → PrngReg)
variable (a : (pcfg0 (F := F)).Adm) (hchk : k0_chk1 (tblWord a))
variable (htb : ∀ c : Dev nD, (fun k => VR3 m c (pre0.ref k)) = a.1)

/-! ## @main as segments, and the launch -/

/-- The two host stretches after region 1, each entered from SOME contents of region 1's output array. -/
def seg6R : Pipeline.HostSeg (Name := ℕ) (U := Pipeline.UD sig nD τ) (pcfgs (F := F)) defs₀ 𝒱₀ L lv :=
  hostSegOfFamily (ι := fun c => Buf (Elt F) ((c : Thread nD τ).loc main_v38))
    (fun c o => seg6 m (outsWith m a hchk c o) 𝒱₀ L lv E) (StableHlo.seq hostOps2) (fun _ _ => rfl)
def seg7R : Pipeline.HostSeg (Name := ℕ) (U := Pipeline.UD sig nD τ) (pcfgs (F := F)) defs₀ 𝒱₀ L lv :=
  hostSegOfFamily (ι := fun c => Buf (Elt F) ((c : Thread nD τ).loc main_v38))
    (fun c o => seg7 m (outsWith m a hchk c o) 𝒱₀ L lv E) (StableHlo.seq hostOps2_1) (fun _ _ => rfl)

/-- @main's eight items in order. -/
abbrev segsR : List (Pipeline.RDat.Seg (pcfgs (F := F)) (adm a) (rdats m a hchk) () defs₀ 𝒱₀ L lv) :=
  [ .host (seg0 m 𝒱₀ L lv E), .host (seg1 m 𝒱₀ L lv E), .host (seg2 m 𝒱₀ L lv E), .region (reg0 m a hchk htb),
    .host (seg4 m (outs0 m a hchk) 𝒱₀ L lv E), .region (reg1 m a hchk), .host (seg6R m a hchk), .host (seg7R m a hchk) ]

/-- @main is the run of its items. -/
theorem main_runR (c : Dev nD) : main (F := F) c = Pipeline.RDat.Seg.run (segsR m a hchk htb) :=
  (main_chain c).trans (by chain_rfl)

/-- Each pipeline is entered once. -/
theorem pipes_nodupR : (Pipeline.RDat.Seg.pipes (segsR m a hchk htb)).Nodup := by
  simp only [segsR, Pipeline.RDat.Seg.pipes_host, Pipeline.RDat.Seg.pipes_region, Pipeline.RDat.Seg.pipes_nil]; decide

/-- The thread state at launch and at the return. -/
abbrev T0 (c : Dev nD) : sProp 𝕄 := iprop(StableHlo.held (c : Thread nD τ) (Pipeline.ucRefs τ sig) (V0 m c) ∗ R c)
abbrev Tn (c : Dev nD) : sProp 𝕄 := iprop(∃ o : Buf (Elt F) ((c : Thread nD τ).loc main_v38),
  StableHlo.held (c : Thread nD τ) (Pipeline.ucRefs τ sig) (V8 m (outsWith m a hchk c o) c) ∗ ∃ r, prngReg c r)

theorem lastStep (c : Dev nD) : (seg7R m a hchk).post c ⊢ iprop(Tn m a hchk c ∗ ∃ W, owes (c : Thread nD τ) (0 : CellTallies nD τ sig Unit) W) := by
  show iprop(∃ o : Buf (Elt F) ((c : Thread nD τ).loc main_v38),
      StableHlo.held (c : Thread nD τ) (Pipeline.ucRefs τ sig) (V8 m (outsWith m a hchk c o) c) ∗ R c) ⊢ _
  iintro ⟨%o, Hh, Hp, HO⟩
  isplitl [Hh Hp]
  · iexists o; isplitl [Hh]; · iexact Hh
    iexact Hp
  iexact HO

/-- Each item is entered from what the one before it left. -/
theorem chainsR (c : Dev nD) : Pipeline.RDat.Seg.ChainsAt c (T0 m) (segsR m a hchk htb)
    (fun c => iprop(Tn m a hchk c ∗ ∃ W, owes (c : Thread nD τ) (0 : CellTallies nD τ sig Unit) W)) :=
  ⟨.rfl, .rfl, .rfl, .rfl, .rfl, .rfl, .rfl, .rfl, lastStep m a hchk c⟩

end Run4

section Run5

variable (m : (ℓ : Loc nD τ sig) → Buf (Elt F) ℓ) (ρ : Dev nD → PrngReg)
variable (a : (pcfg0 (F := F)).Adm) (hchk : k0_chk1 (tblWord a))
variable (htb : ∀ c : Dev nD, (fun k => VR3 m c (pre0.ref k)) = a.1)

/-- What is read of a final memory on core `c`: every argument array as launched. -/
abbrev QYr (c : Dev nD) (s : MemSt nD τ sig (Elt F)) : Prop :=
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)

/-- The launch element yields the pipeline library's at every pipeline's staging cells. -/
theorem launchR :
    (ownU ((initOf (Pipeline.cells (Pipeline.pin (pcfgs (F := F)) (adm a)) (cellOf_inj (adm a))) (Pipeline.launchToks (Pipeline.pin (pcfgs (F := F)) (adm a)) (cellOf_inj (adm a))), (1 : Counters)) : Pipeline.UD sig nD τ) : sProp 𝕄)
      ⊢ |={Set.univ}=> iprop(BI.own ((embL : Emb (URounds (GSem nD τ sig) Unit) 𝕄) (initOf (Pipeline.cells (Pipeline.pin (pcfgs (F := F)) (adm a)) (cellOf_inj (adm a))) (Pipeline.launchToks (Pipeline.pin (pcfgs (F := F)) (adm a)) (cellOf_inj (adm a)))))
        ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- The first thread state, made on every core from what the launch deals. -/
theorem initR : iprop((bigSep Finset.univ fun c : Dev nD => iprop(unscopedBufs c (fun b => m ((c.tc : Thread nD τ).loc b)) ∗ unscopedSems0 c
      ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (T0 m) : sProp 𝕄) := by
  refine Pipeline.initEach L lv fun c => ?_
  rw [show unscopedBufs c (fun b => m ((c : Thread nD τ).loc b)) = StableHlo.held (c : Thread nD τ) (Pipeline.ucRefs τ sig) (V0 m c)
    from Pipeline.unscopedBufs_held c (V0 m c)]
  iintro ⟨⟨Hh, -, HO, -, Hp, -⟩, -⟩
  imodintro
  isplitl [Hh]; · iexact Hh
  isplitl [Hp]; · iexists _; iexact Hp
  iexists ∅; iexact HO

/-- The last thread state read against a final state: each argument's buffer off the last valuation, whatever region 1
    left in its output. -/
theorem finR (c : Dev nD) (s' : Phys nD τ sig (Elt F)) :
    iprop(Tn m a hchk c ∗ SI s') ⊢ (|={Set.univ}=> iprop(⌜QYr m c s'.mem⌝ ∗ SI s') : sProp 𝕄) := by
  unfold Tn StableHlo.held
  iintro ⟨⟨%o, Hh, -⟩, HSI⟩
  ihave Hr := (pointsTo_read_all (Pipeline.ucRefs τ sig) (fun b => ((c : Thread nD τ).1, b)) (V8 m (outsWith m a hchk c o) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V8_main_arg0 m (outsWith m a hchk c o) c),
        (h (Proc.devRef .tc main_arg1) (Finset.mem_filter.mpr ⟨StableHlo.devRef_mem_tcRefs main_arg1, by decide⟩)).trans (V8_main_arg1 m (outsWith m a hchk c o) c),
        (h (Proc.devRef .tc main_arg2) (Finset.mem_filter.mpr ⟨StableHlo.devRef_mem_tcRefs main_arg2, by decide⟩)).trans (V8_main_arg2 m (outsWith m a hchk c o) c),
        (h (Proc.devRef .tc main_arg3) (Finset.mem_filter.mpr ⟨StableHlo.devRef_mem_tcRefs main_arg3, by decide⟩)).trans (V8_main_arg3 m (outsWith m a hchk c o) c),
        (h (Proc.devRef .tc main_arg4) (Finset.mem_filter.mpr ⟨StableHlo.devRef_mem_tcRefs main_arg4, by decide⟩)).trans (V8_main_arg4 m (outsWith m a hchk c o) c),
        (h (Proc.devRef .tc main_arg5) (Finset.mem_filter.mpr ⟨StableHlo.devRef_mem_tcRefs main_arg5, by decide⟩)).trans (V8_main_arg5 m (outsWith m a hchk c o) c),
        (h (Proc.devRef .tc main_arg6) (Finset.mem_filter.mpr ⟨StableHlo.devRef_mem_tcRefs main_arg6, by decide⟩)).trans (V8_main_arg6 m (outsWith m a hchk c o) c),
        (h (Proc.devRef .tc main_arg7) (Finset.mem_filter.mpr ⟨StableHlo.devRef_mem_tcRefs main_arg7, by decide⟩)).trans (V8_main_arg7 m (outsWith m a hchk c o) c),
        (h (Proc.devRef .tc main_arg8) (Finset.mem_filter.mpr ⟨StableHlo.devRef_mem_tcRefs main_arg8, by decide⟩)).trans (V8_main_arg8 m (outsWith m a hchk c o) c),
        (h (Proc.devRef .tc main_arg9) (Finset.mem_filter.mpr ⟨StableHlo.devRef_mem_tcRefs main_arg9, by decide⟩)).trans (V8_main_arg9 m (outsWith m a hchk c o) c),
        (h (Proc.devRef .tc main_arg10) (Finset.mem_filter.mpr ⟨StableHlo.devRef_mem_tcRefs main_arg10, by decide⟩)).trans (V8_main_arg10 m (outsWith m a hchk c o) c),
        (h (Proc.devRef .tc main_arg11) (Finset.mem_filter.mpr ⟨StableHlo.devRef_mem_tcRefs main_arg11, by decide⟩)).trans (V8_main_arg11 m (outsWith m a hchk c o) c),
        (h (Proc.devRef .tc main_arg12) (Finset.mem_filter.mpr ⟨StableHlo.devRef_mem_tcRefs main_arg12, by decide⟩)).trans (V8_main_arg12 m (outsWith m a hchk c o) c),
        (h (Proc.devRef .tc main_arg13) (Finset.mem_filter.mpr ⟨StableHlo.devRef_mem_tcRefs main_arg13, by decide⟩)).trans (V8_main_arg13 m (outsWith m a hchk c o) c),
        (h (Proc.devRef .tc main_arg14) (Finset.mem_filter.mpr ⟨StableHlo.devRef_mem_tcRefs main_arg14, by decide⟩)).trans (V8_main_arg14 m (outsWith m a hchk c o) c)⟩
  · iexact HSI

include a hchk htb in
set_option backward.isDefEq.respectTransparency.types false in
/-- The frame at any admissible contents `a` of region 0's table that are what the host stretches before it leave in the
    table's buffer (`htb`) and whose one word is a row of the embedding table (`hchk`). -/
theorem frame_core : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.RDat.θ_run_regions_kit_dev (pcfgs (F := F)) (adm a) (rdats m a hchk) () (cellOf_inj (adm a)) embL defs₀ 𝒱₀ L lv m ρ main
    (fun _ => segsR m a hchk htb)
    (fun c Q => by rw [main_runR m a hchk htb c])
    (fun _ => pipes_nodupR m a hchk htb)
    (O₀ := 0) (hL := fun _ _ => rfl) (G := fun _ => iprop(emp))
    (u₀ := (initOf (Pipeline.cells (Pipeline.pin (pcfgs (F := F)) (adm a)) (cellOf_inj (adm a))) (Pipeline.launchToks (Pipeline.pin (pcfgs (F := F)) (adm a)) (cellOf_inj (adm a))), 1))
    (hu₀ := launchR a)
    (T₀ := T0 m) (Tₙ := Tn m a hchk)
    (hch := fun c => chainsR m a hchk htb c)
    (hinit := initR m ρ) (QY := QYr m)
    (hfin := fun c s' => finR m a hchk c s') (hQ := fun _ h => h)

end Run5

/-- The table's one word is a row of the embedding table, for any admissible contents that are what the host stretches
    leave in the table's buffer. -/
theorem chk_of (m : (ℓ : Loc nD τ sig) → Buf (Elt F) ℓ) (a : (pcfg0 (F := F)).Adm)
    (htb : ∀ c : Dev nD, (fun k => VR3 m c (pre0.ref k)) = a.1)
    (hidx : ∀ c : Dev nD, k0_chk1 ((Gen.V3 m c main_v1) j0)) : k0_chk1 (tblWord a) := by
  have h := hidx 0
  have e : (a.1 0 : S1.Idx → Elt F .i32) = VR3 m 0 (pre0.ref 0) := (congrFun (htb 0) 0).symm
  show k0_chk1 ((a.1 0 : S1.Idx → Elt F .i32) j0)
  rw [e]
  exact h

end RFrame

/-- THE FRAME of the printed program at any float instance: from any memory with zero counters whose clamped token id is a
    row of the embedding table, every weakly fair execution of @main terminates, nothing faulting, and every final memory
    holds each argument array as launched. -/
theorem frame_rel (m : (ℓ : Loc nD τ sig) → Buf (Elt F) ℓ) (ρ : Dev nD → PrngReg)
    (hidx : ∀ c : Dev nD, k0_chk1 ((Gen.V3 m c main_v1) j0)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have htb : ∀ c : Dev nD, (fun k => RFrame.VR3 m c (pre0.ref k))
      = (⟨fun k => RFrame.VR3 m 0 (pre0.ref k), trivial⟩ : (pcfg0 (F := F)).Adm).1 := fun c => by rw [Subsingleton.elim c 0]
  exact RFrame.frame_core m ρ ⟨fun k => RFrame.VR3 m 0 (pre0.ref k), trivial⟩ (RFrame.chk_of m _ htb hidx) htb

end Cert.Kernel.Hand

end
-- ==== Proof.K.HostVals.lean ====
/-
  What the host stretches of the program compute, buffer by buffer. Between its two kernel regions the program runs
  plain tensor operations: before the first region it reshapes the hidden row, the cell row and the bias vectors and
  clamps the token id to the rows of the embedding table; between the regions it splits the raw gates into four
  quarters i, f, g, o and forms c' = σ(f) · c + σ(i) · tanh g and h' = σ(o) · tanh c', with σ x = 1 / (1 + exp (−x));
  after the second region it takes the log-softmax of the logits and gives the new hidden and cell rows a leading
  unit axis. Each buffer's contents after a stretch are stated as one explicit term over the contents before it.
-/
import proofs.«424451_j23149873725851_3_alg».proof.Proof.Gen.Kernel.Regions
import proofs.«424451_j23149873725851_3_alg».proof.Proof.K.Body0
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (outs : Gen.Outs (F := F)) (c : Dev nD)

/-! ## Before region 0: the operands the host stretches prepare -/

/-- No host stretch before region 0 writes an argument: the regions' argument operands hold their launch contents. -/
theorem V3_arg3 : Gen.V3 m c main_arg3 = m ((c : Thread nD τ).loc main_arg3) :=
  (Gen.V3_of m c main_arg3 (by decide)).trans <| (Gen.V2_of m c main_arg3 (by decide)).trans <| (Gen.V1_of m c main_arg3 (by decide)).trans rfl
theorem V3_arg4 : Gen.V3 m c main_arg4 = m ((c : Thread nD τ).loc main_arg4) :=
  (Gen.V3_of m c main_arg4 (by decide)).trans <| (Gen.V2_of m c main_arg4 (by decide)).trans <| (Gen.V1_of m c main_arg4 (by decide)).trans rfl
theorem V3_arg5 : Gen.V3 m c main_arg5 = m ((c : Thread nD τ).loc main_arg5) :=
  (Gen.V3_of m c main_arg5 (by decide)).trans <| (Gen.V2_of m c main_arg5 (by decide)).trans <| (Gen.V1_of m c main_arg5 (by decide)).trans rfl
theorem V3_arg7 : Gen.V3 m c main_arg7 = m ((c : Thread nD τ).loc main_arg7) :=
  (Gen.V3_of m c main_arg7 (by decide)).trans <| (Gen.V2_of m c main_arg7 (by decide)).trans <| (Gen.V1_of m c main_arg7 (by decide)).trans rfl
theorem V3_arg9 : Gen.V3 m c main_arg9 = m ((c : Thread nD τ).loc main_arg9) :=
  (Gen.V3_of m c main_arg9 (by decide)).trans <| (Gen.V2_of m c main_arg9 (by decide)).trans <| (Gen.V1_of m c main_arg9 (by decide)).trans rfl
theorem V3_arg10 : Gen.V3 m c main_arg10 = m ((c : Thread nD τ).loc main_arg10) :=
  (Gen.V3_of m c main_arg10 (by decide)).trans <| (Gen.V2_of m c main_arg10 (by decide)).trans <| (Gen.V1_of m c main_arg10 (by decide)).trans rfl
theorem V3_arg13 : Gen.V3 m c main_arg13 = m ((c : Thread nD τ).loc main_arg13) :=
  (Gen.V3_of m c main_arg13 (by decide)).trans <| (Gen.V2_of m c main_arg13 (by decide)).trans <| (Gen.V1_of m c main_arg13 (by decide)).trans rfl

/-- The reshapes: the hidden and cell rows without their leading unit axis, the bias vectors as one-row matrices. -/
theorem V3_v2 : (Gen.V3 m c main_v2 : Vec F S1x1024 .f32) = shapeCast S1x1024 (m ((c : Thread nD τ).loc main_arg1) : Vec F S1x1x1024 .f32) shapeCasts_S1x1x1024_S1x1024 := by
  show StableHlo.after hostOps0_2 (Gen.V2 m c) (Proc.devRef .tc main_v2) = _
  after_results
  rfl
theorem V3_v3 : (Gen.V3 m c main_v3 : Vec F S1x1024 .f32) = shapeCast S1x1024 (m ((c : Thread nD τ).loc main_arg2) : Vec F S1x1x1024 .f32) shapeCasts_S1x1x1024_S1x1024 := by
  show StableHlo.after hostOps0_2 (Gen.V2 m c) (Proc.devRef .tc main_v3) = _
  after_results
  rfl
theorem V3_v4 : (Gen.V3 m c main_v4 : Vec F S1x12 .f32) = shapeCast S1x12 (m ((c : Thread nD τ).loc main_arg6) : Vec F S12 .f32) shapeCasts_S12_S1x12 := by
  show StableHlo.after hostOps0_2 (Gen.V2 m c) (Proc.devRef .tc main_v4) = _
  after_results
  rfl
theorem V3_v5 : (Gen.V3 m c main_v5 : Vec F S1x1024 .f32) = shapeCast S1x1024 (m ((c : Thread nD τ).loc main_arg8) : Vec F S1024 .f32) shapeCasts_S1024_S1x1024 := by
  show StableHlo.after hostOps0_2 (Gen.V2 m c) (Proc.devRef .tc main_v5) = _
  after_results
  rfl
theorem V3_v6 : (Gen.V3 m c main_v6 : Vec F S1x4096 .f32) = shapeCast S1x4096 (m ((c : Thread nD τ).loc main_arg11) : Vec F S4096 .f32) shapeCasts_S4096_S1x4096 := by
  show StableHlo.after hostOps0_2 (Gen.V2 m c) (Proc.devRef .tc main_v6) = _
  after_results
  rfl
theorem V3_v7 : (Gen.V3 m c main_v7 : Vec F S1x4096 .f32) = shapeCast S1x4096 (m ((c : Thread nD τ).loc main_arg12) : Vec F S4096 .f32) shapeCasts_S4096_S1x4096 := by
  show StableHlo.after hostOps0_2 (Gen.V2 m c) (Proc.devRef .tc main_v7) = _
  after_results
  rfl
theorem V3_v8 : (Gen.V3 m c main_v8 : Vec F S1x50257 .f32) = shapeCast S1x50257 (m ((c : Thread nD τ).loc main_arg14) : Vec F S50257 .f32) shapeCasts_S50257_S1x50257 := by
  show StableHlo.after hostOps0_2 (Gen.V2 m c) (Proc.devRef .tc main_v8) = _
  after_results
  rfl

/-! ## The table: the token id clamped to the embedding table's rows -/

/-- The one index of the token array. -/
abbrev i00 : S1x1.Idx := ix2 (0 : Fin 1) (0 : Fin 1)

/-- The prefetched table as the program computes it from the token array: min(50256, max(0, id)), signed. -/
def tokTable (a0 : S1x1.Idx → Elt F .i32) : S1.Idx → Elt F .i32 :=
  minsi (broadcastInDim S1 ![] bcast_S_S1 (constantI S_ 32 50256#32))
    (maxsi (broadcastInDim S1 ![] bcast_S_S1 (constantI S_ 32 0#32)) (shapeCast S1 a0 shapeCasts_S1x1_S1))

theorem V3_v1 : (Gen.V3 m c main_v1 : S1.Idx → Elt F .i32) = tokTable (F := F) (m ((c : Thread nD τ).loc main_arg0)) := by
  show StableHlo.after hostOps0_2 (Gen.V2 m c) (Proc.devRef .tc main_v1) = _
  after_results
  rfl

/-- The table's word is the signed clamp of the token word. -/
theorem tokTable_apply (a0 : S1x1.Idx → Elt F .i32) : tokTable (F := F) a0 j0 = IntOp.minsi 50256#32 (IntOp.maxsi 0#32 (a0 i00)) := by
  have e : shapeCast S1 a0 shapeCasts_S1x1_S1 j0 = a0 i00 :=
    shapeCast_apply a0 shapeCasts_S1x1_S1 j0 i00 (by rw [Shape.rowMajor_val_two, Shape.rowMajor_val_one]; rfl)
  unfold tokTable minsi maxsi
  rw [e]
  rfl

/-- The signed clamp to [0, 50256] lands in [0, 50256]. -/
theorem clamp_le (x : BitVec 32) : (IntOp.minsi 50256#32 (IntOp.maxsi 0#32 x)).toNat ≤ 50256 := by
  have h0 : (0#32 : BitVec 32).toInt = 0 := by decide
  have hh : (50256#32 : BitVec 32).toInt = 50256 := by decide
  have hx := x.isLt
  unfold IntOp.minsi IntOp.maxsi
  simp only [BitVec.slt, decide_eq_true_eq, h0, hh]
  split_ifs with h1 h2 h2
  all_goals try (show (50256 : Nat) ≤ 50256; omega)
  all_goals try (show (0 : Nat) ≤ 50256; omega)
  all_goals (rw [BitVec.toInt_eq_toNat_cond] at h1 h2; split_ifs at h1 h2 <;> omega)

/-- In range the signed clamp is the identity. -/
theorem clamp_id (x : BitVec 32) (h : 0 ≤ x.toInt ∧ x.toInt < 50257) : IntOp.minsi 50256#32 (IntOp.maxsi 0#32 x) = x := by
  have h0 : (0#32 : BitVec 32).toInt = 0 := by decide
  have hh : (50256#32 : BitVec 32).toInt = 50256 := by decide
  have e1 : IntOp.maxsi 0#32 x = x := by
    unfold IntOp.maxsi
    simp only [BitVec.slt, decide_eq_true_eq, h0]
    exact if_neg (by omega)
  rw [e1]
  unfold IntOp.minsi
  simp only [BitVec.slt, decide_eq_true_eq, hh]
  exact if_neg (by omega)

theorem V3_v1_inb : k0_chk1 ((Gen.V3 m c main_v1 : S1.Idx → Elt F .i32) j0) := by
  rw [V3_v1, tokTable_apply]
  have h := clamp_le ((m ((c : Thread nD τ).loc main_arg0) : S1x1.Idx → Elt F .i32) i00)
  intro a
  fin_cases a
  · show (IntOp.minsi 50256#32 (IntOp.maxsi 0#32 _)).toNat + 1 ≤ 50257
    omega
  · show 0 + 1024 ≤ 1024
    omega

theorem V3_v1_of_inrange (h : 0 ≤ ((m ((c : Thread nD τ).loc main_arg0) : S1x1.Idx → Elt F .i32) i00).toInt
      ∧ ((m ((c : Thread nD τ).loc main_arg0) : S1x1.Idx → Elt F .i32) i00).toInt < 50257) :
    (Gen.V3 m c main_v1 : S1.Idx → Elt F .i32) j0 = (m ((c : Thread nD τ).loc main_arg0) : S1x1.Idx → Elt F .i32) i00 := by
  rw [V3_v1, tokTable_apply]
  exact clamp_id _ h

/-! ## Between the regions: the gates' nonlinear combine -/

/-- The logistic function as the program spells it: 1 / (1 + exp (−x)). -/
def sigm (x : Vec F S1x1024 .f32) : Vec F S1x1024 .f32 :=
  Host.divf (F := F) (broadcastInDim S1x1024 ![] bcast_S_S1x1024 (constant (F := F) S_ .f32 0x3F800000#32))
    (addf (broadcastInDim S1x1024 ![] bcast_S_S1x1024 (constant (F := F) S_ .f32 0x3F800000#32)) (Host.exp (F := F) (Host.negf (F := F) x)))

/-- The new cell row: σ(f) · c + σ(i) · tanh g, the quarters i, f, g of the raw gates at columns 0, 1024, 2048. -/
def lstmC (gates : Vec F S1x4096 .f32) (c0 : Vec F S1x1024 .f32) : Vec F S1x1024 .f32 :=
  addf (mulf (sigm (extractStridedSlice S1x1024 ![0, 1024] gates slices_S1x4096_S1x1024_0_1024)) c0)
    (mulf (sigm (extractStridedSlice S1x1024 ![0, 0] gates slices_S1x4096_S1x1024_0_0))
      (Host.tanh (F := F) (extractStridedSlice S1x1024 ![0, 2048] gates slices_S1x4096_S1x1024_0_2048)))

/-- The new hidden row: σ(o) · tanh c', the quarter o at column 3072. -/
def lstmH (gates : Vec F S1x4096 .f32) (c0 : Vec F S1x1024 .f32) : Vec F S1x1024 .f32 :=
  mulf (sigm (extractStridedSlice S1x1024 ![0, 3072] gates slices_S1x4096_S1x1024_0_3072)) (Host.tanh (F := F) (lstmC gates c0))

/-- The stretch between the regions, from any contents `W`: the new hidden row and the new cell row. -/
theorem after1_v37 (W : Valuation τ sig (Elt F)) :
    (StableHlo.after hostOps1 W (Proc.devRef .tc main_v37) : Vec F S1x1024 .f32)
      = lstmH (F := F) (W (Proc.devRef .tc main_v9_0)) (W (Proc.devRef .tc main_v3)) := by
  after_results_simp
  rfl
theorem after1_v35 (W : Valuation τ sig (Elt F)) :
    (StableHlo.after hostOps1 W (Proc.devRef .tc main_v35) : Vec F S1x1024 .f32)
      = lstmC (F := F) (W (Proc.devRef .tc main_v9_0)) (W (Proc.devRef .tc main_v3)) := by
  after_results_simp
  rfl

/-- What region 0 leaves in its two output arrays, and that it changes nothing else. -/
theorem V4_v9_0 : Gen.V4 m outs c main_v9_0 = outs 4 main_v9_0 c := by
  show Function.update (Function.update (Gen.V3 m c) (Proc.devRef .tc main_v9_0) (outs 4 main_v9_0 c)) (Proc.devRef .tc main_v9_1) (outs 4 main_v9_1 c) (Proc.devRef .tc main_v9_0) = _
  rw [Function.update_of_ne (StableHlo.devRef_ne_of_ne (by decide)), Function.update_self]
theorem V4_v9_1 : Gen.V4 m outs c main_v9_1 = outs 4 main_v9_1 c := by
  show Function.update (Function.update (Gen.V3 m c) (Proc.devRef .tc main_v9_0) (outs 4 main_v9_0 c)) (Proc.devRef .tc main_v9_1) (outs 4 main_v9_1 c) (Proc.devRef .tc main_v9_1) = _
  rw [Function.update_self]

/-- The cell row the combine reads: the cell argument without its leading unit axis. -/
abbrev c0Row : Vec F S1x1024 .f32 := shapeCast S1x1024 (m ((c : Thread nD τ).loc main_arg2) : Vec F S1x1x1024 .f32) shapeCasts_S1x1x1024_S1x1024

theorem V5_v37 : (Gen.V5 m outs c main_v37 : Vec F S1x1024 .f32) = lstmH (F := F) (outs 4 main_v9_0 c) (c0Row m c) :=
  (after1_v37 (Gen.V4 m outs c)).trans
    (congrArg₂ (lstmH (F := F)) (V4_v9_0 m outs c) ((Gen.V4_of m outs c main_v3 (by decide)).trans (V3_v3 m c)))
theorem V5_v35 : (Gen.V5 m outs c main_v35 : Vec F S1x1024 .f32) = lstmC (F := F) (outs 4 main_v9_0 c) (c0Row m c) :=
  (after1_v35 (Gen.V4 m outs c)).trans
    (congrArg₂ (lstmC (F := F)) (V4_v9_0 m outs c) ((Gen.V4_of m outs c main_v3 (by decide)).trans (V3_v3 m c)))
theorem V5_arg13 : Gen.V5 m outs c main_arg13 = m ((c : Thread nD τ).loc main_arg13) :=
  (Gen.V5_of m outs c main_arg13 (by decide)).trans <| (Gen.V4_of m outs c main_arg13 (by decide)).trans (V3_arg13 m c)
theorem V5_v8 : (Gen.V5 m outs c main_v8 : Vec F S1x50257 .f32) = shapeCast S1x50257 (m ((c : Thread nD τ).loc main_arg14) : Vec F S50257 .f32) shapeCasts_S50257_S1x50257 :=
  (Gen.V5_of m outs c main_v8 (by decide)).trans <| (Gen.V4_of m outs c main_v8 (by decide)).trans (V3_v8 m c)
theorem V5_v9_1 : Gen.V5 m outs c main_v9_1 = outs 4 main_v9_1 c :=
  (Gen.V5_of m outs c main_v9_1 (by decide)).trans (V4_v9_1 m outs c)

/-! ## At the end: the four results -/

/-- The logits less their row maximum (the maximum taken from −∞, as the program spells it). -/
def lsShift (x : Vec F S1x50257 .f32) : Vec F S1x50257 .f32 :=
  subf x (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x50257_S1_d1 h_S_))))

/-- The log-softmax of a row of logits: the shifted logits less the logarithm of the sum of their exponentials. -/
def logSoftmax (x : Vec F S1x50257 .f32) : Vec F S1x50257 .f32 :=
  subf (lsShift x) (broadcastInDim S1x50257 ![0, 1] bcast_S1x1_S1x50257_0_1 (Host.log (F := F) (broadcastInDim S1x1 ![0] bcast_S1_S1x1_0
    (Host.reduceAdd (Host.exp (F := F) (lsShift x)) (constant (F := F) S_ .f32 0x00000000#32) reducesTo_S1x50257_S1_d1 h_S_))))

/-- The two transports of a value along a typed reference's type equation cancel. -/
theorem ofBuf_toBuf {T : BufTy} (x : TRef sig T) (v : T.Contents (Elt F)) : x.ofBuf (x.toBuf v) = v := by
  unfold TRef.ofBuf TRef.toBuf
  rw [cast_cast, cast_eq]

/-- The log-softmax stretch, from any contents `W`. -/
theorem after2_v39 (W : Valuation τ sig (Elt F)) :
    (StableHlo.after hostOps2 W (Proc.devRef .tc main_v39) : Vec F S1x50257 .f32) = logSoftmax (F := F) (W (Proc.devRef .tc main_v38)) := by
  after_results_simp
  simp only [ofBuf_toBuf]
  rfl

theorem V6_v38 : Gen.V6 m outs c main_v38 = outs 6 main_v38 c := by
  show Function.update (Gen.V5 m outs c) (Proc.devRef .tc main_v38) (outs 6 main_v38 c) (Proc.devRef .tc main_v38) = _
  rw [Function.update_self]

/-- Add a leading unit axis to a row. -/
abbrev lead1 (x : Vec F S1x1024 .f32) : Vec F S1x1x1024 .f32 := broadcastInDim S1x1x1024 ![1, 2] bcast_S1x1024_S1x1x1024_1_2 x

theorem V8_v39 : (Gen.V8 m outs c main_v39 : Vec F S1x50257 .f32) = logSoftmax (F := F) (outs 6 main_v38 c) :=
  (Gen.V8_of m outs c main_v39 (by decide)).trans <|
    (after2_v39 (Gen.V6 m outs c)).trans (congrArg (logSoftmax (F := F)) (V6_v38 m outs c))

theorem V7_v37 : (Gen.V7 m outs c main_v37 : Vec F S1x1024 .f32) = lstmH (F := F) (outs 4 main_v9_0 c) (c0Row m c) :=
  (Gen.V7_of m outs c main_v37 (by decide)).trans <| (Gen.V6_of m outs c main_v37 (by decide)).trans (V5_v37 m outs c)
theorem V7_v35 : (Gen.V7 m outs c main_v35 : Vec F S1x1024 .f32) = lstmC (F := F) (outs 4 main_v9_0 c) (c0Row m c) :=
  (Gen.V7_of m outs c main_v35 (by decide)).trans <| (Gen.V6_of m outs c main_v35 (by decide)).trans (V5_v35 m outs c)

theorem after21_v40 (W : Valuation τ sig (Elt F)) :
    (StableHlo.after hostOps2_1 W (Proc.devRef .tc main_v40) : Vec F S1x1x1024 .f32) = lead1 (F := F) (W (Proc.devRef .tc main_v37)) := by
  after_results
theorem after21_v41 (W : Valuation τ sig (Elt F)) :
    (StableHlo.after hostOps2_1 W (Proc.devRef .tc main_v41) : Vec F S1x1x1024 .f32) = lead1 (F := F) (W (Proc.devRef .tc main_v35)) := by
  after_results

theorem V8_v40 : (Gen.V8 m outs c main_v40 : Vec F S1x1x1024 .f32) = lead1 (lstmH (F := F) (outs 4 main_v9_0 c) (c0Row m c)) :=
  (after21_v40 (Gen.V7 m outs c)).trans (congrArg (lead1 (F := F)) (V7_v37 m outs c))
theorem V8_v41 : (Gen.V8 m outs c main_v41 : Vec F S1x1x1024 .f32) = lead1 (lstmC (F := F) (outs 4 main_v9_0 c) (c0Row m c)) :=
  (after21_v41 (Gen.V7 m outs c)).trans (congrArg (lead1 (F := F)) (V7_v35 m outs c))
theorem V8_v9_1 : Gen.V8 m outs c main_v9_1 = outs 4 main_v9_1 c :=
  (Gen.V8_of m outs c main_v9_1 (by decide)).trans <| (Gen.V7_of m outs c main_v9_1 (by decide)).trans <|
    (Gen.V6_of m outs c main_v9_1 (by decide)).trans (V5_v9_1 m outs c)

end Cert.Kernel.Hand
end
-- ==== Proof.KI.Body0.lean ====
/-
  The small-step kernel's body on whole staging buffers. It reads the token id from the prefetched table in scalar
  memory, copies that row of the embedding table from the array left in HBM into its scratch buffer (its own copy on
  its own semaphore, waited for at once), and from the row e and the input blocks computes the attention weights
  softmax([e, h] · attn_Wᵀ + attn_b), the combined input relu([e, weights · enc] · comb_Wᵀ + comb_b), and this
  point's half of the raw gates (x · W_ihᵀ + b_ih) + (h · W_hhᵀ + b_hh), storing the gates half and the weights
  whole into the two output buffers.
-/
import proofs.«424451_j23149873725851_3_alg».proof.Proof.Gen.KernelIdeal.Launch
import proofs.«424451_j23149873725851_3_alg».proof.Proof.Gen.KernelIdeal.Skeleton
import proofs.«424451_j23149873725851_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The embedding table, left in HBM, as a whole memref; the scratch row the body copies into; the table of one word. -/
abbrev embM : Memref sig .tc .hbm S50257x1024 .f32 := Memref.whole main_arg4
abbrev scrM : Memref sig .tc .vmem S1x1024 .f32 := Memref.whole cc0_scratch0
abbrev tblM : Memref sig .tc .smem S1 .i32 := Memref.whole main_v1
/-- Memref `M`'s buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The index of the table's one word. -/
abbrev j0 : S1.Idx := fun a => ⟨0, by fin_cases a; decide⟩
/-- The embedding row the body's copy lands in the scratch: row `v0.toNat` of the table `fh`, read through the
    one-row slice the body takes of the array. -/
def embRow (c : Dev nD) (fh : HbBuf (F := F) c embM) (v0 : BitVec 32) (h : k0_chk1 v0) : Vec F S1x1024 .f32 :=
  (embM.slice (Rect.unit (s := S50257x1024) (k0_off1 v0) S1x1024.size (k0_off1_inb v0 h)) (fun _ => rfl)).view.read (Elt F) fh
/-- The attention weights the body stores, from the embedding row `e`, the hidden row, attn_W and attn_b. -/
def attn0 (e : Vec F S1x1024 .f32) (x0 : Vec F S1x1024 .f32) (x2 : Vec F S12x2048 .f32) (x3 : Vec F S1x12 .f32) : Vec F S1x12 .f32 :=
  k0_pay3 e x0 x2 x3
/-- The half of the raw gates the body stores, from the embedding row and the ten input blocks. -/
def gates0 (e : Vec F S1x1024 .f32) (x0 : Vec F S1x1024 .f32) (x1 : Vec F S12x1024 .f32) (x2 : Vec F S12x2048 .f32) (x3 : Vec F S1x12 .f32) (x4 : Vec F S1024x2048 .f32) (x5 : Vec F S1x1024 .f32) (x6 : Vec F S2048x1024 .f32) (x7 : Vec F S2048x1024 .f32) (x8 : Vec F S1x2048 .f32) (x9 : Vec F S1x2048 .f32) : Vec F S1x2048 .f32 :=
  k0_pay1 (k0_pay2 x0) (k0_pay4 e x0 x2 x3 x1 x4 x5) (k0_pay5 (F := F)) x6 x8 x7 x9

/-- The rank-1 offsets `![0]` and the rank-2 offsets `![0, 0]` are the zero offsets. -/
theorem offs0 : (![0] : Fin 1 → Nat) = fun _ => 0 := funext fun a => by fin_cases a; rfl
theorem offs00 : (![0, 0] : Fin 2 → Nat) = fun _ => 0 := funext fun a => by fin_cases a <;> rfl

/-- A load through the whole-shape rectangle at zero offsets (however the zeros are spelt), of a buffer ONE write
    through the whole rectangle filled, reads what was written. -/
theorem readCov_whole_of_zero {κ : Kind} {sp : Space} {S : Shape} {e : EltTy} (v : View sig κ sp S e)
    {off : Fin S.rank → Nat} (h : off = fun _ => 0) (inb : ∀ a, off a + S.size a ≤ S.size a) (w : S.Idx → Elt F e) :
    v.readCov [(⟨Rect.whole S, w⟩ : View.Piece (Elt F) S e)] (Rect.unit off S.size inb).toLoadRect = w := by
  subst h; exact View.readCov_unit_zero v rfl _ w

/-- What the body loads from its scratch after its copy has landed: the copy wrote the scratch whole with the one-row
    slice of the table at the word `w` the body read; where that word is `v0`, the loaded row is `embRow … v0`. -/
theorem scratch_row (c : Dev nD) (fh : HbBuf (F := F) c embM) (w : BitVec 32) (hw : k0_chk1 w) (v0 : BitVec 32)
    (h0 : k0_chk1 v0) (e : w = v0) (v : View sig .tc .vmem S1x1024 .f32) :
    v.readCov [(⟨Rect.whole S1x1024, ReadAs.same.apply
        ((embM.slice (Rect.unit (s := S50257x1024) (k0_off1 w) S1x1024.size (k0_off1_inb w hw)) (fun _ => rfl)).view.read (Elt F) fh)⟩ :
          View.Piece (Elt F) S1x1024 .f32)]
      (Rect.unit (s := S1x1024) ![0, 0] S1x1024.size inb_S1x1024_S1x1024_0_0).toLoadRect = embRow c fh v0 h0 := by
  subst e
  rw [readCov_whole_of_zero _ offs00, ReadAs.apply_same]; rfl

/-- The two outputs' whole-shape rectangles at zero offsets, as the body's stores name them; one store through
    either covers its buffer. -/
abbrev rGates : Rect S1x2048 := Rect.unit (s := S1x2048) ![0, 0] S1x2048.size inb_S1x2048_S1x2048_0_0
abbrev rAttn : Rect S1x12 := Rect.unit (s := S1x12) ![0, 0] S1x12.size inb_S1x12_S1x12_0_0
theorem cover_gates (p0 : Vec F S1x2048 .f32) (y : S1x2048.Idx) :
    ∃ pc ∈ ([⟨rGates, p0⟩] : List (View.Piece (Elt F) S1x2048 .f32)), y ∈ pc.1.set :=
  ⟨⟨rGates, p0⟩, List.mem_singleton_self _, View.mem_set_unit_zero (S := S1x2048) offs00 inb_S1x2048_S1x2048_0_0 y⟩
theorem cover_attn (p0 : Vec F S1x12 .f32) (y : S1x12.Idx) :
    ∃ pc ∈ ([⟨rAttn, p0⟩] : List (View.Piece (Elt F) S1x12 .f32)), y ∈ pc.1.set :=
  ⟨⟨rAttn, p0⟩, List.mem_singleton_self _, View.mem_set_unit_zero (S := S1x12) offs00 inb_S1x12_S1x12_0_0 y⟩

/-- The body, from the table's word in range (`hchk`: the one fact the body assumes), the ten input buffers at their
    contents, the two output buffers and the scratch at anything, the copy's semaphore at zero, the embedding table
    held whole at `fh` and the core's `owes`: it runs to its return with the table, the inputs, the embedding table and
    the semaphore as they were, the scratch at something, and the outputs at `gates0` and `attn0` of the row the
    copy fetched. -/
theorem sound_kernel0 (c : Dev nD) (i : grid0.Coords)
    (arg1 : Memref sig .tc .smem S1 .i32) (harg1 : arg1.IsWhole)
    (arg3 : Memref sig .tc .vmem S1x1024 .f32) (harg3 : arg3.IsWhole)
    (arg4 : Memref sig .tc .vmem S12x1024 .f32) (harg4 : arg4.IsWhole)
    (arg5 : Memref sig .tc .vmem S12x2048 .f32) (harg5 : arg5.IsWhole)
    (arg6 : Memref sig .tc .vmem S1x12 .f32) (harg6 : arg6.IsWhole)
    (arg7 : Memref sig .tc .vmem S1024x2048 .f32) (harg7 : arg7.IsWhole)
    (arg8 : Memref sig .tc .vmem S1x1024 .f32) (harg8 : arg8.IsWhole)
    (arg9 : Memref sig .tc .vmem S2048x1024 .f32) (harg9 : arg9.IsWhole)
    (arg10 : Memref sig .tc .vmem S2048x1024 .f32) (harg10 : arg10.IsWhole)
    (arg11 : Memref sig .tc .vmem S1x2048 .f32) (harg11 : arg11.IsWhole)
    (arg12 : Memref sig .tc .vmem S1x2048 .f32) (harg12 : arg12.IsWhole)
    (arg13 : Memref sig .tc .vmem S1x2048 .f32) (harg13 : arg13.IsWhole)
    (arg14 : Memref sig .tc .vmem S1x12 .f32) (harg14 : arg14.IsWhole)
    (tb : S1.Idx → Elt F .i32) (hchk : k0_chk1 (tb j0))
    (x0 : Vec F S1x1024 .f32) (x1 : Vec F S12x1024 .f32) (x2 : Vec F S12x2048 .f32) (x3 : Vec F S1x12 .f32) (x4 : Vec F S1024x2048 .f32) (x5 : Vec F S1x1024 .f32) (x6 : Vec F S2048x1024 .f32) (x7 : Vec F S2048x1024 .f32) (x8 : Vec F S1x2048 .f32) (x9 : Vec F S1x2048 .f32)
    (fh : HbBuf (F := F) c embM) (W : Waits sig Unit) (K : PUnit → sProp 𝕄) :
    iprop(owns (c : Thread nD τ) arg1 fullShare tb ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
        ∗ (∃ d, owns (c : Thread nD τ) arg13 fullShare d) ∗ (∃ d, owns (c : Thread nD τ) arg14 fullShare d)
        ∗ (∃ d, owns (c : Thread nD τ) scrM fullShare d) ∗ semVal ((c : Thread nD τ), SemLoc.dma 13) 0
        ∗ hbPt c embM fh ∗ owes (c : Thread nD τ) 0 W
        ∗ (iprop(owns (c : Thread nD τ) arg1 fullShare tb ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (gates0 (embRow c fh (tb j0) hchk) x0 x1 x2 x3 x4 x5 x6 x7 x8 x9)
            ∗ owns (c : Thread nD τ) arg14 fullShare (attn0 (embRow c fh (tb j0) hchk) x0 x2 x3)
            ∗ (∃ d, owns (c : Thread nD τ) scrM fullShare d) ∗ semVal ((c : Thread nD τ), SemLoc.dma 13) 0
            ∗ hbPt c embM fh ∗ (∃ W', owes (c : Thread nD τ) 0 W')) -∗ K ⟨⟩))
      ⊢ wp frame (wpE (defs₀ (F := F)) Variants.none c none) Set.univ
          (cc0__small_step_kernel i arg1 harg1 embM (Memref.isWhole_whole _) arg3 harg3 arg4 harg4 arg5 harg5 arg6 harg6 arg7 harg7 arg8 harg8 arg9 harg9 arg10 harg10 arg11 harg11 arg12 harg12 arg13 harg13 arg14 harg14
            scrM (Memref.isWhole_whole _) cc0_scratch1) K := by
  simp only [cc0__small_step_kernel_eq_skeleton]; unfold cc0__small_step_kernel_skel
  simp only [k0_part1_eq_skeleton]; unfold k0_part1_skel
  unfold owns
  iintro ⟨⟨%g1, %hg1, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%ds0, %fs0, -, HS0⟩, Hq0, Hh0, HW, Hk⟩
  -- the table's buffer is the one whose read is `tb`
  obtain rfl := harg1.eq_unread hg1
  subst hf0; subst hf1; subst hf2; subst hf3; subst hf4; subst hf5; subst hf6; subst hf7; subst hf8; subst hf9
  -- the word the body reads from the table is `tb j0`, so the side condition it assumes of that word is `hchk`
  have hword : arg1.view.readAt (Elt F) (Rect.unit (s := S1) ![0] S1.size inb_S1_S1_0).toLoadRect (harg1.unread tb)
      (Shape.Idx.first (numel1_S1.symm ▸ Nat.one_pos)) = tb j0 := by
    rw [View.readAt_eq_ld, harg1.read_unread, View.ld_unit_zero (S := S1) offs0]
    congr 1
  have hw : k0_chk1 (arg1.view.readAt (Elt F) (Rect.unit (s := S1) ![0] S1.size inb_S1_S1_0).toLoadRect (harg1.unread tb)
      (Shape.Idx.first (numel1_S1.symm ▸ Nat.one_pos))) := by rw [hword]; exact hchk
  sl_exec (disch := first | sl_exact hw)
  sl_step
  iapply Hk
  -- the table and the ten inputs were only read
  isplitl [HT]
  · iexists _; isplitr; · ipureintro; exact harg1.read_unread _
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  -- the gates' buffer: one store through the whole-shape rectangle covers it, so it reads as the stored payload; each
  -- input block read through its whole-shape rectangle is the buffer's contents, and the row loaded from the scratch
  -- is the fetched row (`scratch_row`)
  isplitl [H13]
  · iexists _; isplitr
    swap; · iexact H13
    ipureintro
    rw [View.read_writes_eq_canon _ _ _ (cover_gates _), View.canon_unit_zero offs00]
    unfold gates0
    simp only [View.readAt_eq_ld,
      View.ld_unit_zero (S := S1x1024) offs00,
      View.ld_unit_zero (S := S12x1024) offs00,
      View.ld_unit_zero (S := S12x2048) offs00,
      View.ld_unit_zero (S := S1x12) offs00,
      View.ld_unit_zero (S := S1024x2048) offs00,
      View.ld_unit_zero (S := S2048x1024) offs00,
      View.ld_unit_zero (S := S1x2048) offs00]
    rw [← scratch_row c fh _ hw (tb j0) hchk hword scrM.view]
    rfl
  -- the attention weights' buffer, likewise
  isplitl [H14]
  · iexists _; isplitr
    swap; · iexact H14
    ipureintro
    rw [View.read_writes_eq_canon _ _ _ (cover_attn _), View.canon_unit_zero offs00]
    unfold attn0
    simp only [View.readAt_eq_ld,
      View.ld_unit_zero (S := S1x1024) offs00,
      View.ld_unit_zero (S := S12x1024) offs00,
      View.ld_unit_zero (S := S12x2048) offs00,
      View.ld_unit_zero (S := S1x12) offs00,
      View.ld_unit_zero (S := S1024x2048) offs00,
      View.ld_unit_zero (S := S2048x1024) offs00,
      View.ld_unit_zero (S := S1x2048) offs00]
    rw [← scratch_row c fh _ hw (tb j0) hchk hword scrM.view]
    rfl
  -- the scratch at what the copy left, the semaphore back at zero, the table in HBM untouched, the wait recorded
  isplitl [HS0]
  · iexists _, _; isplitr; swap; · iexact HS0
    ipureintro; rfl
  isplitl [Hq0]; · iexact Hq0
  isplitl [Hh0]; · iexact Hh0
  iexists _; iexact HW

end Cert.KernelIdeal.Hand

end
-- ==== Proof.KI.Dat0.lean ====
/-
  Region 0 (the small-step kernel over two grid points), at any float instance: its exact proof data and body obligation.
  Every input window keeps one block for both points except the two weight halves and the two bias halves, whose block
  index is the point; after the body an input's staging buffer still holds its block, the gates window holds the point's
  half of the raw gates and the attention window the attention weights, both functions of the input blocks and of the
  embedding row the body copied from the table left in HBM at the prefetched token id. The invariant between points:
  the scratch row and the other scoped buffers at something, the copy's semaphore at zero, the embedding table whole at
  its entry contents, and the prefetched table of one word held whole.
-/
import proofs.«424451_j23149873725851_3_alg».proof.Proof.KI.Body0
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

/-- The prefetched table's one word: the token id the host clamped. -/
abbrev tblWord : BitVec 32 := a.1 0 j0

variable (hchk : k0_chk1 (tblWord a))

/-! ## The windows' blocks -/

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ (cfg0 a) c) (hA : dat.A 7 = V c (Pipeline.arrRef spec0 7))
    (hafter : ∀ t, dat.after 7 t = iblk0 V a c 7 t) (t : Fin (cfg0 a).N) (d) : dat.before 7 t d = iblk0 V a c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ (cfg0 a) c) (hA : dat.A 8 = V c (Pipeline.arrRef spec0 8))
    (hafter : ∀ t, dat.after 8 t = iblk0 V a c 8 t) (t : Fin (cfg0 a).N) (d) : dat.before 8 t d = iblk0 V a c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ (cfg0 a) c) (hA : dat.A 9 = V c (Pipeline.arrRef spec0 9))
    (hafter : ∀ t, dat.after 9 t = iblk0 V a c 9 t) (t : Fin (cfg0 a).N) (d) : dat.before 9 t d = iblk0 V a c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's own cell, and the operand it copies from -/

/-- The copy's semaphore: the kernel's one own cell. -/
abbrev osem0 : Fin 1 → SemLoc sig := fun j => (![SemLoc.dma 13] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0) := by
  rw [Pipeline.ownSems0_eq_of_list c osem0 [0] (by decide) (by decide)]; rfl
/-- The operand left in HBM that the body copies a row of: the embedding table. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt (F := F) c embM (V c main_arg4)) := by
  rw [BI.bigSep_eq_bigSepL_of_eq [main_arg4] (by decide) (by decide)]; rfl

/-- The invariant between points: the copying kernel's (scoped rest, generator register, own cell at zero, the embedding
    table at its entry contents) and the prefetched table held whole. -/
def Φ0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

/-! ## The proof data -/

/-- The embedding row the body copies at every point: the table's row at the prefetched word. -/
abbrev erow (c : Dev nD) : Vec F S1x1024 .f32 := embRow (F := F) c (V c main_arg4) (tblWord a) hchk

def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => iblk0 V a c 7 t
    | ⟨8, _⟩ => iblk0 V a c 8 t
    | ⟨9, _⟩ => iblk0 V a c 9 t
    | ⟨10, _⟩ => gates0 (F := F) (erow V a hchk c) (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t)
    | ⟨11, _⟩ => attn0 (F := F) (erow V a hchk c) (iblk0 V a c 0 t) (iblk0 V a c 2 t) (iblk0 V a c 3 t)
  Φ _ := Φ0 V a c
  q _ := fullShare
  owed _ := 0

theorem A_eq0 (c : Dev nD) (w : Fin (cfg0 a).W) : (dat0 V a hchk c).A w = V c (Pipeline.arrRef spec0 w) := by
  dsimp only [dat0]

theorem after0_0 (c : Dev nD) (t : Fin (cfg0 a).N) : (dat0 V a hchk c).after 0 t = iblk0 V a c 0 t := by dsimp only [dat0]; rfl
theorem after0_1 (c : Dev nD) (t : Fin (cfg0 a).N) : (dat0 V a hchk c).after 1 t = iblk0 V a c 1 t := by dsimp only [dat0]; rfl
theorem after0_2 (c : Dev nD) (t : Fin (cfg0 a).N) : (dat0 V a hchk c).after 2 t = iblk0 V a c 2 t := by dsimp only [dat0]; rfl
theorem after0_3 (c : Dev nD) (t : Fin (cfg0 a).N) : (dat0 V a hchk c).after 3 t = iblk0 V a c 3 t := by dsimp only [dat0]; rfl
theorem after0_4 (c : Dev nD) (t : Fin (cfg0 a).N) : (dat0 V a hchk c).after 4 t = iblk0 V a c 4 t := by dsimp only [dat0]; rfl
theorem after0_5 (c : Dev nD) (t : Fin (cfg0 a).N) : (dat0 V a hchk c).after 5 t = iblk0 V a c 5 t := by dsimp only [dat0]; rfl
theorem after0_6 (c : Dev nD) (t : Fin (cfg0 a).N) : (dat0 V a hchk c).after 6 t = iblk0 V a c 6 t := by dsimp only [dat0]; rfl
theorem after0_7 (c : Dev nD) (t : Fin (cfg0 a).N) : (dat0 V a hchk c).after 7 t = iblk0 V a c 7 t := by dsimp only [dat0]; rfl
theorem after0_8 (c : Dev nD) (t : Fin (cfg0 a).N) : (dat0 V a hchk c).after 8 t = iblk0 V a c 8 t := by dsimp only [dat0]; rfl
theorem after0_9 (c : Dev nD) (t : Fin (cfg0 a).N) : (dat0 V a hchk c).after 9 t = iblk0 V a c 9 t := by dsimp only [dat0]; rfl
theorem after0_10 (c : Dev nD) (t : Fin (cfg0 a).N) : (dat0 V a hchk c).after 10 t = gates0 (F := F) (erow V a hchk c) (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t) := by dsimp only [dat0]; rfl
theorem after0_11 (c : Dev nD) (t : Fin (cfg0 a).N) : (dat0 V a hchk c).after 11 t = attn0 (F := F) (erow V a hchk c) (iblk0 V a c 0 t) (iblk0 V a c 2 t) (iblk0 V a c 3 t) := by dsimp only [dat0]; rfl

theorem before0_0 (c : Dev nD) (t : Fin (cfg0 a).N) (d) : (dat0 V a hchk c).before 0 t d = iblk0 V a c 0 t :=
  before0_0_of V a (dat0 V a hchk c) (A_eq0 V a hchk c 0) (after0_0 V a hchk c) t d
theorem before0_1 (c : Dev nD) (t : Fin (cfg0 a).N) (d) : (dat0 V a hchk c).before 1 t d = iblk0 V a c 1 t :=
  before0_1_of V a (dat0 V a hchk c) (A_eq0 V a hchk c 1) (after0_1 V a hchk c) t d
theorem before0_2 (c : Dev nD) (t : Fin (cfg0 a).N) (d) : (dat0 V a hchk c).before 2 t d = iblk0 V a c 2 t :=
  before0_2_of V a (dat0 V a hchk c) (A_eq0 V a hchk c 2) (after0_2 V a hchk c) t d
theorem before0_3 (c : Dev nD) (t : Fin (cfg0 a).N) (d) : (dat0 V a hchk c).before 3 t d = iblk0 V a c 3 t :=
  before0_3_of V a (dat0 V a hchk c) (A_eq0 V a hchk c 3) (after0_3 V a hchk c) t d
theorem before0_4 (c : Dev nD) (t : Fin (cfg0 a).N) (d) : (dat0 V a hchk c).before 4 t d = iblk0 V a c 4 t :=
  before0_4_of V a (dat0 V a hchk c) (A_eq0 V a hchk c 4) (after0_4 V a hchk c) t d
theorem before0_5 (c : Dev nD) (t : Fin (cfg0 a).N) (d) : (dat0 V a hchk c).before 5 t d = iblk0 V a c 5 t :=
  before0_5_of V a (dat0 V a hchk c) (A_eq0 V a hchk c 5) (after0_5 V a hchk c) t d
theorem before0_6 (c : Dev nD) (t : Fin (cfg0 a).N) (d) : (dat0 V a hchk c).before 6 t d = iblk0 V a c 6 t :=
  before0_6_of V a (dat0 V a hchk c) (A_eq0 V a hchk c 6) (after0_6 V a hchk c) t d
theorem before0_7 (c : Dev nD) (t : Fin (cfg0 a).N) (d) : (dat0 V a hchk c).before 7 t d = iblk0 V a c 7 t :=
  before0_7_of V a (dat0 V a hchk c) (A_eq0 V a hchk c 7) (after0_7 V a hchk c) t d
theorem before0_8 (c : Dev nD) (t : Fin (cfg0 a).N) (d) : (dat0 V a hchk c).before 8 t d = iblk0 V a c 8 t :=
  before0_8_of V a (dat0 V a hchk c) (A_eq0 V a hchk c 8) (after0_8 V a hchk c) t d
theorem before0_9 (c : Dev nD) (t : Fin (cfg0 a).N) (d) : (dat0 V a hchk c).before 9 t d = iblk0 V a c 9 t :=
  before0_9_of V a (dat0 V a hchk c) (A_eq0 V a hchk c 9) (after0_9 V a hchk c) t d

/-! ## The body obligation -/

/-- Window `w`'s current staging memref at point `t`. -/
abbrev st0 (w : Fin (cfg0 a).W) (t : Fin (cfg0 a).N) := ((cfg0 a).win w).stage ((cfg0 a).slots t w)

def bodyPre0 (c : Dev nD) (t : Fin (cfg0 a).N) : sProp 𝕄 :=
  iprop((dat0 V a hchk c).Φ t.castSucc ∗ (dat0 V a hchk c).owesAt () t.castSucc
    ∗ (∃ d, owns (c : Thread nD τ) (st0 a 0 t) fullShare ((dat0 V a hchk c).before 0 t d))
    ∗ (∃ d, owns (c : Thread nD τ) (st0 a 1 t) fullShare ((dat0 V a hchk c).before 1 t d))
    ∗ (∃ d, owns (c : Thread nD τ) (st0 a 2 t) fullShare ((dat0 V a hchk c).before 2 t d))
    ∗ (∃ d, owns (c : Thread nD τ) (st0 a 3 t) fullShare ((dat0 V a hchk c).before 3 t d))
    ∗ (∃ d, owns (c : Thread nD τ) (st0 a 4 t) fullShare ((dat0 V a hchk c).before 4 t d))
    ∗ (∃ d, owns (c : Thread nD τ) (st0 a 5 t) fullShare ((dat0 V a hchk c).before 5 t d))
    ∗ (∃ d, owns (c : Thread nD τ) (st0 a 6 t) fullShare ((dat0 V a hchk c).before 6 t d))
    ∗ (∃ d, owns (c : Thread nD τ) (st0 a 7 t) fullShare ((dat0 V a hchk c).before 7 t d))
    ∗ (∃ d, owns (c : Thread nD τ) (st0 a 8 t) fullShare ((dat0 V a hchk c).before 8 t d))
    ∗ (∃ d, owns (c : Thread nD τ) (st0 a 9 t) fullShare ((dat0 V a hchk c).before 9 t d))
    ∗ (∃ d, owns (c : Thread nD τ) (st0 a 10 t) fullShare ((dat0 V a hchk c).before 10 t d))
    ∗ (∃ d, owns (c : Thread nD τ) (st0 a 11 t) fullShare ((dat0 V a hchk c).before 11 t d)))

def bodyPost0 (c : Dev nD) (t : Fin (cfg0 a).N) : sProp 𝕄 :=
  iprop((dat0 V a hchk c).Φ t.succ ∗ (dat0 V a hchk c).owesAt () t.succ
    ∗ owns (c : Thread nD τ) (st0 a 0 t) fullShare ((dat0 V a hchk c).after 0 t)
    ∗ owns (c : Thread nD τ) (st0 a 1 t) fullShare ((dat0 V a hchk c).after 1 t)
    ∗ owns (c : Thread nD τ) (st0 a 2 t) fullShare ((dat0 V a hchk c).after 2 t)
    ∗ owns (c : Thread nD τ) (st0 a 3 t) fullShare ((dat0 V a hchk c).after 3 t)
    ∗ owns (c : Thread nD τ) (st0 a 4 t) fullShare ((dat0 V a hchk c).after 4 t)
    ∗ owns (c : Thread nD τ) (st0 a 5 t) fullShare ((dat0 V a hchk c).after 5 t)
    ∗ owns (c : Thread nD τ) (st0 a 6 t) fullShare ((dat0 V a hchk c).after 6 t)
    ∗ owns (c : Thread nD τ) (st0 a 7 t) fullShare ((dat0 V a hchk c).after 7 t)
    ∗ owns (c : Thread nD τ) (st0 a 8 t) fullShare ((dat0 V a hchk c).after 8 t)
    ∗ owns (c : Thread nD τ) (st0 a 9 t) fullShare ((dat0 V a hchk c).after 9 t)
    ∗ owns (c : Thread nD τ) (st0 a 10 t) fullShare ((dat0 V a hchk c).after 10 t)
    ∗ owns (c : Thread nD τ) (st0 a 11 t) fullShare ((dat0 V a hchk c).after 11 t))

/-- The invariant, conjunct by conjunct: the scoped buffers the pipeline does not stage (the thirteen staging buffers of
    the other shapes are the pipeline's; what is left is the scratch row), the generator register, the copy's cell at
    zero, the embedding table, the prefetched table. -/
theorem Φ0_eq (c : Dev nD) :
    (Φ0 V a c : sProp 𝕄) = iprop((Pipeline.scopedRest (Ix := Unit) (Name := ℕ) (U := Pipeline.UD sig nD τ) (Lvl := ℕ) (Val := Elt F) spec0 c
        ∗ (∃ r, prngReg c r) ∗ semVal ((c : Thread nD τ), SemLoc.dma 13) 0 ∗ hbPt (F := F) c embM (V c main_arg4))
      ∗ Pipeline.prefHeld (Ix := Unit) (Name := ℕ) (U := Pipeline.UD sig nD τ) (Lvl := ℕ) pre0 c (fun _ => fullShare) a.1) := by
  unfold Φ0; rw [Pipeline.ΦD_eq, ownSems00_eq, hbmPts0_eq]

/-- The prefetched table held whole is its one-word memref owned at its contents. -/
theorem prefHeld0_eq (c : Dev nD) :
    (Pipeline.prefHeld (Ix := Unit) (Name := ℕ) (U := Pipeline.UD sig nD τ) (Lvl := ℕ) pre0 c (fun _ => fullShare) a.1 : sProp 𝕄)
      = owns (c : Thread nD τ) tblM fullShare (a.1 0) := by
  unfold Pipeline.prefHeld
  rw [BI.bigSep_eq_bigSepL_of_eq [(0 : Fin 1)] (by decide) (by decide)]
  exact (owns_whole (c : Thread nD τ) main_v1 fullShare (a.1 0)).symm

/-- The scratch row's buffer at some contents is its whole memref owned at some contents. -/
theorem scratch_owns_eq (c : Dev nD) :
    (iprop(∃ f : Buf (Elt F) ((c : Thread nD τ).loc cc0_scratch0), ((c : Thread nD τ).loc cc0_scratch0) ↦{fullShare} f) : sProp 𝕄)
      = iprop(∃ d, owns (c : Thread nD τ) scrM fullShare d) := by
  simp only [scrM, owns_whole]; try rfl

/-- The body at any point: the inputs' memrefs hold their blocks, the table's word is in range, so the body's run
    applies; the invariant hands the body its scratch, its cell at zero, the embedding table and the prefetched table,
    and takes them back as they were; the core's `owes` comes back with this point's wait recorded. -/
theorem sound_body0 (c : Dev nD) (t : Fin (cfg0 a).N) :
    bodyPre0 V a hchk c t ⊢ wp frame (wpE (defs₀ (F := F)) Variants.none c none) Set.univ
      (defs₀ (F := F) .tc (cfg0 a).body ((cfg0 a).bodyArgs t ((cfg0 a).slots t))) (fun _ => bodyPost0 V a hchk c t) := by
  unfold bodyPre0 bodyPost0
  simp only [before0_0, before0_1, before0_2, before0_3, before0_4, before0_5, before0_6, before0_7, before0_8, before0_9]
  rw [show (dat0 V a hchk c).Φ t.succ = (dat0 V a hchk c).Φ t.castSucc from rfl,
    after0_0, after0_1, after0_2, after0_3, after0_4, after0_5, after0_6, after0_7, after0_8, after0_9, after0_10, after0_11]
  rw [show (dat0 V a hchk c).Φ t.castSucc = Φ0 V a c from rfl, Φ0_eq, scopedRest0_eq]
  unfold Dat.owesAt Pipeline.owesWithin
  rw [show (dat0 V a hchk c).owed t.castSucc = 0 from rfl, show (dat0 V a hchk c).owed t.succ = 0 from rfl]
  rw [prefHeld0_eq, scratch_owns_eq]
  iintro ⟨⟨⟨⟨HS0, HR1, HR2, HR3, HR4, HR5, HR6, HR7⟩, Hg, Hq0, Hh0⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c _ _ _ _ _ _ _ _ _ _ _ _ _ _ _ _ _ _ _ _ _ _ _ _ _ _ _ (a.1 0) hchk
    (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) (iblk0 V a c 9 t) (V c main_arg4) W _)
  -- in: the table, the ten input blocks, the two outputs' buffers at anything, the scratch, the cell at zero, the
  -- embedding table, the core's owes
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [Hq0]; · iexact Hq0
  isplitl [Hh0]; · iexact Hh0
  isplitl [HW]; · iexact HW
  -- back: the invariant as it was, this point's wait recorded within the next point's bound (everything), every window's
  -- buffer at what the proof data say the body leaves
  iintro ⟨HT, H0, H1, H2, H3, H4, H5, H6, H7, H8, H9, H10, H11, HS0, Hq0, Hh0, ⟨%W', HW'⟩⟩
  isplitl [HS0 HR1 HR2 HR3 HR4 HR5 HR6 HR7 Hg Hq0 Hh0 HT]
  · isplitl [HS0 HR1 HR2 HR3 HR4 HR5 HR6 HR7 Hg Hq0 Hh0]
    · isplitl [HS0 HR1 HR2 HR3 HR4 HR5 HR6 HR7]
      · isplitl [HS0]; · iexact HS0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      isplitl [Hg]; · iexact Hg
      isplitl [Hq0]; · iexact Hq0
      iexact Hh0
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 V a hchk c) (defs₀ (F := F)) Variants.none () Set.univ := fun t => by
  rw [bigSep_W0, bigSep_W0]
  exact sound_body0 V a hchk c t

end Cert.KernelIdeal.Hand

end
-- ==== Proof.KI.Body1.lean ====
/-
  The vocabulary-projection kernel's body on whole staging buffers: it loads the hidden row, the weight tile and the
  bias tile, multiplies the row into the tile's rows (contracting the hidden axis), adds the bias, and stores the
  4096 lanes whole. The inputs' buffers come back as they were; the output's buffer ends at the body's one payload
  of the three loaded blocks.
-/
import proofs.«424451_j23149873725851_3_alg».proof.Proof.Gen.KernelIdeal.Launch
import proofs.«424451_j23149873725851_3_alg».proof.Proof.Gen.KernelIdeal.Skeleton
import proofs.«424451_j23149873725851_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The rank-2 offsets `![0, 0]` are the zero offsets. -/
theorem zero2 : (![0, 0] : Fin 2 → Nat) = fun _ => 0 := funext fun a => by fin_cases a <;> rfl

/-- The output's whole-shape rectangle at zero offsets, as the body's store names it. -/
abbrev rOut1 : Rect S1x4096 := Rect.unit (s := S1x4096) ![0, 0] S1x4096.size inb_S1x4096_S1x4096_0_0

/-- One store through it covers the buffer. -/
theorem cover_out1 (p0 : Vec F S1x4096 .f32) (y : S1x4096.Idx) :
    ∃ pc ∈ ([⟨rOut1, p0⟩] : List (View.Piece (Elt F) S1x4096 .f32)), y ∈ pc.1.set :=
  ⟨⟨rOut1, p0⟩, List.mem_singleton_self _, View.mem_set_unit_zero (S := S1x4096) zero2 inb_S1x4096_S1x4096_0_0 y⟩

/-- The body of the vocabulary projection: from the three input buffers at `x0` (hidden row), `x1` (weight tile),
    `x2` (bias tile) and the output buffer at anything, it runs to its return with the inputs unchanged and the
    output buffer holding `k1_pay1 x0 x1 x2`, lane `l` of which is the product of the row with the tile's row `l`
    plus the bias lane `l`. -/
theorem sound_kernel1 (c : Dev nD) (E : Set ℕ) (i : grid1.Coords)
    (arg1 : Memref sig .tc .vmem S1x1024 .f32) (harg1 : arg1.IsWhole)
    (arg2 : Memref sig .tc .vmem S4096x1024 .f32) (harg2 : arg2.IsWhole)
    (arg3 : Memref sig .tc .vmem S1x4096 .f32) (harg3 : arg3.IsWhole)
    (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__vocab_proj_kernel i arg1 harg1 arg2 harg2 arg3 harg3 arg4 harg4) K := by
  simp only [cc1__vocab_proj_kernel_eq_skeleton]; unfold cc1__vocab_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  -- the three inputs' buffers were only read
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the output's buffer: one store through the whole-shape rectangle at zero offsets covers it, so it reads as the
  -- stored payload; each loaded block, read through its own whole-shape rectangle, is the buffer's contents
  iexists _; isplitr
  swap; · iexact H3
  ipureintro
  rw [View.read_writes_eq_canon _ _ _ (cover_out1 _), View.canon_unit_zero zero2]
  simp only [View.readAt_eq_ld, View.ld_unit_zero (S := S1x1024) zero2, View.ld_unit_zero (S := S4096x1024) zero2,
    View.ld_unit_zero (S := S1x4096) zero2]

end Cert.KernelIdeal.Hand

end
-- ==== Proof.KI.Pay1.lean ====
/-
  The vocabulary projection's payload read at a lane, at the ideal values: lane `l` of the product of the hidden row
  with the weight tile's rows (contracting the hidden axis) plus the bias is the sum over the hidden axis of the row's
  entries times row `l` of the tile, plus lane `l` of the bias. It reads row `l` of the tile and lane `l` of the
  bias and nothing else of either.
-/
import proofs.«424451_j23149873725851_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! ## The matrix product's operand indices: the row axis follows the result, the hidden axis the contraction -/

/-- The left operand's row is the result's row, -/
theorem lhs_proj_0 (i : S1x4096.Idx) (q : dot_S1x1024_S4096x1024_S1x4096_1_1_0_0_n_n.contr.Idx) :
    (dot_S1x1024_S4096x1024_S1x4096_1_1_0_0_n_n.lhsIdx i q 0).val = (i 0).val := by
  unfold DotDims.lhsIdx
  rw [dif_neg (show ¬(0 : Fin S1x1024.rank) ∈ dot_S1x1024_S4096x1024_S1x4096_1_1_0_0_n_n.lhsBatch by decide), dif_pos (show (0 : Fin S1x1024.rank) ∈ dot_S1x1024_S4096x1024_S1x4096_1_1_0_0_n_n.lhsNonContracting by decide)]
  rfl
/-- its column the contraction's position; -/
theorem lhs_proj_1 (i : S1x4096.Idx) (q : dot_S1x1024_S4096x1024_S1x4096_1_1_0_0_n_n.contr.Idx) :
    (dot_S1x1024_S4096x1024_S1x4096_1_1_0_0_n_n.lhsIdx i q 1).val = (q ⟨0, by decide⟩).val :=
  dot_S1x1024_S4096x1024_S1x4096_1_1_0_0_n_n.lhsIdx_val_of_single rfl i q
/-- the right operand's row is the result's lane, -/
theorem rhs_proj_0 (i : S1x4096.Idx) (q : dot_S1x1024_S4096x1024_S1x4096_1_1_0_0_n_n.contr.Idx) :
    (dot_S1x1024_S4096x1024_S1x4096_1_1_0_0_n_n.rhsIdx i q 0).val = (i 1).val := by
  unfold DotDims.rhsIdx
  rw [dif_neg (show ¬(0 : Fin S4096x1024.rank) ∈ dot_S1x1024_S4096x1024_S1x4096_1_1_0_0_n_n.rhsBatch by decide), dif_pos (show (0 : Fin S4096x1024.rank) ∈ dot_S1x1024_S4096x1024_S1x4096_1_1_0_0_n_n.rhsNonContracting by decide)]
  rfl
/-- its column the contraction's position. -/
theorem rhs_proj_1 (i : S1x4096.Idx) (q : dot_S1x1024_S4096x1024_S1x4096_1_1_0_0_n_n.contr.Idx) :
    (dot_S1x1024_S4096x1024_S1x4096_1_1_0_0_n_n.rhsIdx i q 1).val = (q ⟨0, by decide⟩).val :=
  dot_S1x1024_S4096x1024_S1x4096_1_1_0_0_n_n.rhsIdx_val_of_single rfl i q

/-! ## The payload at a lane -/

/-- Lane `l` of the payload: the hidden row against row `l` of the tile, summed over the hidden axis, plus lane `l`
    of the bias. -/
theorem k1_pay1_apply (x0 : Vec Ideal S1x1024 .f32) (x1 : Vec Ideal S4096x1024 .f32) (x2 : Vec Ideal S1x4096 .f32)
    (p : Fin 1) (l : Fin 4096) :
    k1_pay1 (F := Ideal) x0 x1 x2 (ix2 p l) = (∑ k : Fin 1024, x0 (ix2 p k) * x1 (ix2 l k)) + x2 (ix2 p l) := by
  unfold k1_pay1
  rw [shapeCast_self, shapeCast_self, addf_apply]
  simp only [matmul]
  rw [Ideal.matmul_constant_zero_apply,
    ← Equiv.sum_comp (contrEquiv1 dot_S1x1024_S4096x1024_S1x4096_1_1_0_0_n_n 1024 rfl rfl).symm]
  congr 1
  refine Finset.sum_congr rfl fun k _ => ?_
  have hk := contrEquiv1_symm_val dot_S1x1024_S4096x1024_S1x4096_1_1_0_0_n_n 1024 rfl rfl k
  have el : dot_S1x1024_S4096x1024_S1x4096_1_1_0_0_n_n.lhsIdx (ix2 p l) ((contrEquiv1 dot_S1x1024_S4096x1024_S1x4096_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S1x1024_S4096x1024_S1x4096_1_1_0_0_n_n.rhsIdx (ix2 p l) ((contrEquiv1 dot_S1x1024_S4096x1024_S1x4096_1_1_0_0_n_n 1024 rfl rfl).symm k) = ix2 l k := funext fun a => Fin.ext (by
    match a with
    | ⟨0, _⟩ => exact rhs_proj_0 _ _
    | ⟨1, _⟩ => exact (rhs_proj_1 _ _).trans hk)
  rw [el, er]

end Cert.KernelIdeal.Hand

end
-- ==== Proof.KI.Dat1.lean ====
/-
  The vocabulary projection's pipeline (thirteen points, one tile of 4096 vocabulary rows each, the last cut at the
  vocabulary's end) at the ideal values: its proof data and its body's obligation.

  After the body at point `t` the hidden row's buffer holds the row; the weight tile's and the bias tile's hold their
  blocks, filled out past the array's end with the zero word (a word the proof picks; nothing reads it); the output's
  holds the body's payload of those three. Lane `l` of the payload is the hidden row against row `l` of the tile,
  summed over the hidden axis, plus lane `l` of the bias: it reads row `l` of the tile and lane `l` of the bias only,
  so a lane inside the array does not see what fills the tiles out. Hence the obligation — which states each cut
  window's buffer on the part inside the array — holds whatever the fetches left past the array's end, and what each
  point writes back is the block of ONE whole row: at lane `j` the hidden row times row `j` of the weights plus the
  bias at `j`.
-/
import proofs.«424451_j23149873725851_3_alg».proof.Proof.Gen.KernelIdeal.Launch
import proofs.«424451_j23149873725851_3_alg».proof.Proof.Gen.KernelIdeal.Skeleton
import proofs.«424451_j23149873725851_3_alg».proof.Proof.Gen.KernelIdeal.Points
import proofs.«424451_j23149873725851_3_alg».proof.Proof.KI.Body1
import proofs.«424451_j23149873725851_3_alg».proof.Proof.KI.Pay1
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

variable (V : (c : Dev nD) → (b : Ref sig .tc) → Buf (Elt Ideal) ((c : Thread nD τ).loc b))

/-! ## The windows' blocks -/

/-- Window `w`'s block at point `t` — its part inside the array — read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The weight tile at point `t`: its block, past the array's end the zero word. -/
def wtile1 (c : Dev nD) (t : Fin cfg1.N) : Vec Ideal S4096x1024 .f32 :=
  win1_1.fill (grid1.coords t) (fun _ => Scalar.ofBits (F := Ideal) .f32 0#32) (iblk1 V c 1 t)
/-- The bias tile at point `t`, likewise. -/
def btile1 (c : Dev nD) (t : Fin cfg1.N) : Vec Ideal S1x4096 .f32 :=
  win1_2.fill (grid1.coords t) (fun _ => Scalar.ofBits (F := Ideal) .f32 0#32) (iblk1 V c 2 t)

/-! ## The proof data -/

/-- The proof data of the pipeline on core `c`: the arrays as the region finds them; after the body at point `t` the
    hidden row's buffer at the row, the two tiles' at their blocks filled out with the zero word, the output's at the
    payload of the three; the invariant the scoped rest and the generator register, untouched; nothing owed; full
    shares. -/
def dat1 (c : Dev nD) : Dat τ (Elt Ideal) Unit ℕ (Pipeline.UD sig nD τ) ℕ cfg1 c where
  A w := V c (Pipeline.arrRef spec1 w)
  after w t := match w with
    | ⟨0, _⟩ => iblk1 V c 0 t
    | ⟨1, _⟩ => wtile1 V c t
    | ⟨2, _⟩ => btile1 V c t
    | ⟨3, _⟩ => k1_pay1 (F := Ideal) (iblk1 V c 0 t) (wtile1 V c t) (btile1 V c t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = wtile1 V c t := by dsimp only [dat1]
theorem after1_2 (c : Dev nD) (t : Fin cfg1.N) : (dat1 V c).after 2 t = btile1 V c t := by dsimp only [dat1]
theorem after1_3 (c : Dev nD) (t : Fin cfg1.N) :
    (dat1 V c).after 3 t = k1_pay1 (F := Ideal) (iblk1 V c 0 t) (wtile1 V c t) (btile1 V c t) := by dsimp only [dat1]

/-! ## What the body finds -/

/-- The hidden row's buffer holds the row at every point, fetched there (the first) or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The weight tile's buffer, fetched at every point, holds the block on the part inside the array, `d` elsewhere; -/
theorem before1_1 (c : Dev nD) (t : Fin cfg1.N) (d) :
    (dat1 V c).before 1 t d = win1_1.fill (grid1.coords t) d (iblk1 V c 1 t) := by
  rw [(dat1 V c).before_fetched 1 t (fetch1_1 t) d]; unfold Dat.fetched Dat.blockOf iblk1; rw [A_eq1]; try rfl
/-- the bias tile's likewise; -/
theorem before1_2 (c : Dev nD) (t : Fin cfg1.N) (d) :
    (dat1 V c).before 2 t d = win1_2.fill (grid1.coords t) d (iblk1 V c 2 t) := by
  rw [(dat1 V c).before_fetched 2 t (fetch1_2 t) d]; unfold Dat.fetched Dat.blockOf iblk1; rw [A_eq1]; try rfl
/-- the output's, written back at every point, holds anything. -/
theorem before1_3 (c : Dev nD) (t : Fin cfg1.N) (d) : (dat1 V c).before 3 t d = d := by
  refine (dat1 V c).before_out_reset 3 rfl t ?_ d
  by_cases h : t.val = 0
  · exact .inl h
  · exact .inr ⟨h, flush1_3 _⟩

/-! ## The cut windows move together -/

/-- Decided over the thirteen points. The hidden row's window is the whole row at every point. The weight tile's block
    index is the point on the row axis and zero on the hidden axis, which is never cut; the bias tile's and the
    output's is zero on the row axis, never cut, and the point on the lane axis. The three cut axes — the weight
    tile's rows, the bias tile's lanes, the output's lanes — are cut alike. -/
theorem blocks1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_1.xsize (grid1.coords t) (1 : Fin 2) = 1024
    ∧ win1_2.xsize (grid1.coords t) (0 : Fin 2) = 1
    ∧ win1_3.xsize (grid1.coords t) (0 : Fin 2) = 1
    ∧ win1_1.xsize (grid1.coords t) (0 : Fin 2) = win1_3.xsize (grid1.coords t) (1 : Fin 2)
    ∧ win1_2.xsize (grid1.coords t) (1 : Fin 2) = win1_3.xsize (grid1.coords t) (1 : Fin 2) :=
  (by decide +kernel : ∀ t : Fin grid1.N, _)

/-- Row `l` of the weight tile, for a lane `l` of the output inside the array, is inside the array: the fetch moves it. -/
theorem wmoved (t : Fin cfg1.N) (l : Fin 4096) (k : Fin 1024) (hl : l.val < win1_3.xsize (grid1.coords t) (1 : Fin 2)) :
    win1_1.moved (grid1.coords t) (ix2 l k) = true := by
  obtain ⟨-, -, -, -, -, -, -, -, x11, -, -, x10, -⟩ := blocks1 t
  refine (win1_1.moved_iff _ _).mpr fun (a : Fin 2) => ?_
  match a with
  | ⟨0, _⟩ => show l.val < win1_1.xsize (grid1.coords t) (0 : Fin 2); rw [x10]; exact hl
  | ⟨1, _⟩ => show k.val < win1_1.xsize (grid1.coords t) (1 : Fin 2); rw [x11]; exact k.isLt
/-- Lane `l` of the bias tile likewise. -/
theorem bmoved (t : Fin cfg1.N) (p : Fin 1) (l : Fin 4096) (hl : l.val < win1_3.xsize (grid1.coords t) (1 : Fin 2)) :
    win1_2.moved (grid1.coords t) (ix2 p l) = true := by
  obtain ⟨-, -, -, -, -, -, -, -, -, x20, -, -, x21⟩ := blocks1 t
  refine (win1_2.moved_iff _ _).mpr fun (a : Fin 2) => ?_
  match a with
  | ⟨0, _⟩ => show p.val < win1_2.xsize (grid1.coords t) (0 : Fin 2); rw [x20]; exact p.isLt
  | ⟨1, _⟩ => show l.val < win1_2.xsize (grid1.coords t) (1 : Fin 2); rw [x21]; exact hl

/-- So there the filled-out tile does not depend on what fills it out, -/
theorem wfill_indep (t : Fin cfg1.N) (d d' : Vec Ideal S4096x1024 .f32) (g : (win1_1.xblock (grid1.coords t)).Idx → Ideal .f32)
    (l : Fin 4096) (k : Fin 1024) (hl : l.val < win1_3.xsize (grid1.coords t) (1 : Fin 2)) :
    win1_1.fill (grid1.coords t) d g (ix2 l k) = win1_1.fill (grid1.coords t) d' g (ix2 l k) := by
  unfold Window.fill; rw [dif_pos (wmoved t l k hl), dif_pos (wmoved t l k hl)]
theorem bfill_indep (t : Fin cfg1.N) (d d' : Vec Ideal S1x4096 .f32) (g : (win1_2.xblock (grid1.coords t)).Idx → Ideal .f32)
    (p : Fin 1) (l : Fin 4096) (hl : l.val < win1_3.xsize (grid1.coords t) (1 : Fin 2)) :
    win1_2.fill (grid1.coords t) d g (ix2 p l) = win1_2.fill (grid1.coords t) d' g (ix2 p l) := by
  unfold Window.fill; rw [dif_pos (bmoved t p l hl), dif_pos (bmoved t p l hl)]

/-- A lane of the output's block inside the array, by its coordinates. -/
theorem lane_coords (t : Fin cfg1.N) (j : (win1_3.xblock (grid1.coords t)).Idx) :
    ∃ (p : Fin 1) (l : Fin 4096), win1_3.xinj (grid1.coords t) j = ix2 p l ∧ l.val = (j 1).val
      ∧ l.val < win1_3.xsize (grid1.coords t) (1 : Fin 2) :=
  ⟨_, _, eq_ix2 (n0 := 1) (n1 := 4096) (win1_3.xinj (grid1.coords t) j), rfl, (j 1).isLt⟩

/-- and the payload's lanes inside the array do not see it: the payload of tiles filled out with anything agrees there
    with the payload of the tiles filled out with the zero word. -/
theorem cut_pay1_indep (c : Dev nD) (t : Fin cfg1.N) (x0 : Vec Ideal S1x1024 .f32) (d1 : Vec Ideal S4096x1024 .f32) (d2 : Vec Ideal S1x4096 .f32) :
    win1_3.cut (grid1.coords t) (k1_pay1 (F := Ideal) x0 (win1_1.fill (grid1.coords t) d1 (iblk1 V c 1 t)) (win1_2.fill (grid1.coords t) d2 (iblk1 V c 2 t)))
      = win1_3.cut (grid1.coords t) (k1_pay1 (F := Ideal) x0 (wtile1 V c t) (btile1 V c t)) := by
  funext j
  obtain ⟨p, l, hpl, -, hl⟩ := lane_coords t j
  show k1_pay1 (F := Ideal) x0 _ _ (win1_3.xinj (grid1.coords t) j) = k1_pay1 (F := Ideal) x0 _ _ (win1_3.xinj (grid1.coords t) j)
  rw [hpl, k1_pay1_apply, k1_pay1_apply]
  unfold wtile1 btile1
  rw [bfill_indep t d2 _ _ p l hl]
  congr 1
  exact Finset.sum_congr rfl fun k _ => by rw [wfill_indep t d1 _ _ l k hl]

/-! ## The body's obligation -/

/-- The library's body obligation at every point: the hidden row's buffer arrives holding the row, the tiles' holding
    their blocks filled out with anything, the output's holding anything; the body leaves the first three as found
    and the output's at the payload of them — which on the part inside the array are the proof data's contents, all
    the obligation of a cut window states. -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3)) (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after1_0]; iexact H0
  isplitl [H1]
  · iexists d1; rw [after1_1]; unfold wtile1; rw [Window.cut_fill]; iexact H1
  isplitl [H2]
  · iexists d2; rw [after1_2]; unfold btile1; rw [Window.cut_fill]; iexact H2
  · iexists k1_pay1 (F := Ideal) (iblk1 V c 0 t) (win1_1.fill (grid1.coords t) d1 (iblk1 V c 1 t)) (win1_2.fill (grid1.coords t) d2 (iblk1 V c 2 t))
    rw [after1_3, win1_3.fill_congr_cut _ (cut_pay1_indep V c t _ d1 d2)]; iexact H3

/-! ## What each point writes back -/

/-- The three arrays the projection reads, as the region finds them: the hidden row, the weights, the bias. -/
abbrev hidden1 (c : Dev nD) : Vec Ideal S1x1024 .f32 := V c main_v37
abbrev weights1 (c : Dev nD) : Vec Ideal S50257x1024 .f32 := V c main_arg13
abbrev bias1 (c : Dev nD) : Vec Ideal S1x50257 .f32 := V c main_v8

/-- The whole logits row: at lane `j` the hidden row against row `j` of the weights, summed over the hidden axis, plus
    the bias at `j`. -/
def logits1 (c : Dev nD) : Buf (Elt Ideal) ((c : Thread nD τ).loc main_v38) :=
  fun i : S1x50257.Idx =>
    (∑ k : Fin 1024, hidden1 V c (ix2 (n0 := 1) (n1 := 1024) 0 k) * weights1 V c (ix2 (n0 := 50257) (n1 := 1024) (i 1) k))
      + bias1 V c (ix2 (n0 := 1) (n1 := 50257) 0 (i 1))

/-- The hidden row's block is the row. -/
theorem row_at (c : Dev nD) (t : Fin cfg1.N) (p : Fin 1) (k : Fin 1024) :
    iblk1 V c 0 t (ix2 p k) = hidden1 V c (ix2 (n0 := 1) (n1 := 1024) 0 k) := by
  obtain ⟨e00, e01, -⟩ := blocks1 t
  unfold iblk1
  show V c main_v37 (((cfg1.win 0).blk t).view.emb (ix2 p k)) = _
  congr 1
  funext (a : Fin 2); apply Fin.ext
  match a with
  | ⟨0, _⟩ => show win1_0.index t (0 : Fin 2) * 1 + 1 * p.val = 0; have := p.isLt; omega
  | ⟨1, _⟩ => show win1_0.index t (1 : Fin 2) * 1024 + 1 * k.val = k.val; omega

/-- Row `l` of the weight tile at point `t`, for a lane inside the array, is row `4096 t + l` of the weights. -/
theorem wtile_at (c : Dev nD) (t : Fin cfg1.N) (l : Fin 4096) (k : Fin 1024) (hl : l.val < win1_3.xsize (grid1.coords t) (1 : Fin 2))
    (r : Fin 50257) (hr : r.val = t.val * 4096 + l.val) :
    wtile1 V c t (ix2 l k) = weights1 V c (ix2 (n0 := 50257) (n1 := 1024) r k) := by
  obtain ⟨-, -, e10, e11, -⟩ := blocks1 t
  unfold wtile1 Window.fill; rw [dif_pos (wmoved t l k hl)]
  unfold iblk1
  show V c main_arg13 (((cfg1.win 1).blk t).view.emb _) = _
  congr 1
  funext (a : Fin 2); apply Fin.ext
  match a with
  | ⟨0, _⟩ => show win1_1.index t (0 : Fin 2) * 4096 + 1 * l.val = r.val; omega
  | ⟨1, _⟩ => show win1_1.index t (1 : Fin 2) * 1024 + 1 * k.val = k.val; omega

/-- Lane `l` of the bias tile at point `t`, inside the array, is lane `4096 t + l` of the bias. -/
theorem btile_at (c : Dev nD) (t : Fin cfg1.N) (p : Fin 1) (l : Fin 4096) (hl : l.val < win1_3.xsize (grid1.coords t) (1 : Fin 2))
    (r : Fin 50257) (hr : r.val = t.val * 4096 + l.val) :
    btile1 V c t (ix2 p l) = bias1 V c (ix2 (n0 := 1) (n1 := 50257) 0 r) := by
  obtain ⟨-, -, -, -, e20, e21, -⟩ := blocks1 t
  unfold btile1 Window.fill; rw [dif_pos (bmoved t p l hl)]
  unfold iblk1
  show V c main_v8 (((cfg1.win 2).blk t).view.emb _) = _
  congr 1
  funext (a : Fin 2); apply Fin.ext
  match a with
  | ⟨0, _⟩ => show win1_2.index t (0 : Fin 2) * 1 + 1 * p.val = 0; have := p.isLt; omega
  | ⟨1, _⟩ => show win1_2.index t (1 : Fin 2) * 4096 + 1 * l.val = r.val; omega

/-- WHAT POINT `t` WRITES BACK is its (cut) block of the logits row. -/
theorem flushed1_3 (c : Dev nD) (t : Fin cfg1.N) :
    (dat1 V c).flushed 3 t = ((cfg1.win 3).blk t).view.read (Elt Ideal) (logits1 V c) := by
  show (cfg1.win 3).cut (grid1.coords t) ((dat1 V c).after 3 t) = _
  rw [after1_3]
  obtain ⟨-, -, -, -, -, -, e30, e31, -⟩ := blocks1 t
  funext j
  obtain ⟨p, l, hpl, hlj, hl⟩ := lane_coords t j
  show k1_pay1 (F := Ideal) _ _ _ (win1_3.xinj (grid1.coords t) j) = logits1 V c (((cfg1.win 3).blk t).view.emb j)
  have hr : ((((cfg1.win 3).blk t).view.emb j) (1 : Fin 2)).val = t.val * 4096 + l.val := by
    show win1_3.index t (1 : Fin 2) * 4096 + 1 * (j 1).val = _; omega
  rw [hpl, k1_pay1_apply]
  unfold logits1
  show _ = (∑ k : Fin 1024, hidden1 V c (ix2 (n0 := 1) (n1 := 1024) 0 k) * weights1 V c (ix2 (n0 := 50257) (n1 := 1024) ((((cfg1.win 3).blk t).view.emb j) (1 : Fin 2)) k))
      + bias1 V c (ix2 (n0 := 1) (n1 := 50257) 0 ((((cfg1.win 3).blk t).view.emb j) (1 : Fin 2)))
  rw [btile_at V c t p l hl _ hr]
  congr 1
  exact Finset.sum_congr rfl fun k _ => by rw [row_at V c t p k, wtile_at V c t l k hl _ hr]

end Cert.KernelIdeal.Hand

end
-- ==== Proof.KI.HostVals.lean ====
/-
  What the host stretches of the program compute, buffer by buffer. Between its two kernel regions the program runs
  plain tensor operations: before the first region it reshapes the hidden row, the cell row and the bias vectors and
  clamps the token id to the rows of the embedding table; between the regions it splits the raw gates into four
  quarters i, f, g, o and forms c' = σ(f) · c + σ(i) · tanh g and h' = σ(o) · tanh c', with σ x = 1 / (1 + exp (−x));
  after the second region it takes the log-softmax of the logits and gives the new hidden and cell rows a leading
  unit axis. Each buffer's contents after a stretch are stated as one explicit term over the contents before it.
-/
import proofs.«424451_j23149873725851_3_alg».proof.Proof.Gen.KernelIdeal.Regions
import proofs.«424451_j23149873725851_3_alg».proof.Proof.KI.Body0
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (outs : Gen.Outs (F := F)) (c : Dev nD)

/-! ## Before region 0: the operands the host stretches prepare -/

/-- No host stretch before region 0 writes an argument: the regions' argument operands hold their launch contents. -/
theorem V3_arg3 : Gen.V3 m c main_arg3 = m ((c : Thread nD τ).loc main_arg3) :=
  (Gen.V3_of m c main_arg3 (by decide)).trans <| (Gen.V2_of m c main_arg3 (by decide)).trans <| (Gen.V1_of m c main_arg3 (by decide)).trans rfl
theorem V3_arg4 : Gen.V3 m c main_arg4 = m ((c : Thread nD τ).loc main_arg4) :=
  (Gen.V3_of m c main_arg4 (by decide)).trans <| (Gen.V2_of m c main_arg4 (by decide)).trans <| (Gen.V1_of m c main_arg4 (by decide)).trans rfl
theorem V3_arg5 : Gen.V3 m c main_arg5 = m ((c : Thread nD τ).loc main_arg5) :=
  (Gen.V3_of m c main_arg5 (by decide)).trans <| (Gen.V2_of m c main_arg5 (by decide)).trans <| (Gen.V1_of m c main_arg5 (by decide)).trans rfl
theorem V3_arg7 : Gen.V3 m c main_arg7 = m ((c : Thread nD τ).loc main_arg7) :=
  (Gen.V3_of m c main_arg7 (by decide)).trans <| (Gen.V2_of m c main_arg7 (by decide)).trans <| (Gen.V1_of m c main_arg7 (by decide)).trans rfl
theorem V3_arg9 : Gen.V3 m c main_arg9 = m ((c : Thread nD τ).loc main_arg9) :=
  (Gen.V3_of m c main_arg9 (by decide)).trans <| (Gen.V2_of m c main_arg9 (by decide)).trans <| (Gen.V1_of m c main_arg9 (by decide)).trans rfl
theorem V3_arg10 : Gen.V3 m c main_arg10 = m ((c : Thread nD τ).loc main_arg10) :=
  (Gen.V3_of m c main_arg10 (by decide)).trans <| (Gen.V2_of m c main_arg10 (by decide)).trans <| (Gen.V1_of m c main_arg10 (by decide)).trans rfl
theorem V3_arg13 : Gen.V3 m c main_arg13 = m ((c : Thread nD τ).loc main_arg13) :=
  (Gen.V3_of m c main_arg13 (by decide)).trans <| (Gen.V2_of m c main_arg13 (by decide)).trans <| (Gen.V1_of m c main_arg13 (by decide)).trans rfl

/-- The reshapes: the hidden and cell rows without their leading unit axis, the bias vectors as one-row matrices. -/
theorem V3_v2 : (Gen.V3 m c main_v2 : Vec F S1x1024 .f32) = shapeCast S1x1024 (m ((c : Thread nD τ).loc main_arg1) : Vec F S1x1x1024 .f32) shapeCasts_S1x1x1024_S1x1024 := by
  show StableHlo.after hostOps0_2 (Gen.V2 m c) (Proc.devRef .tc main_v2) = _
  after_results
  rfl
theorem V3_v3 : (Gen.V3 m c main_v3 : Vec F S1x1024 .f32) = shapeCast S1x1024 (m ((c : Thread nD τ).loc main_arg2) : Vec F S1x1x1024 .f32) shapeCasts_S1x1x1024_S1x1024 := by
  show StableHlo.after hostOps0_2 (Gen.V2 m c) (Proc.devRef .tc main_v3) = _
  after_results
  rfl
theorem V3_v4 : (Gen.V3 m c main_v4 : Vec F S1x12 .f32) = shapeCast S1x12 (m ((c : Thread nD τ).loc main_arg6) : Vec F S12 .f32) shapeCasts_S12_S1x12 := by
  show StableHlo.after hostOps0_2 (Gen.V2 m c) (Proc.devRef .tc main_v4) = _
  after_results
  rfl
theorem V3_v5 : (Gen.V3 m c main_v5 : Vec F S1x1024 .f32) = shapeCast S1x1024 (m ((c : Thread nD τ).loc main_arg8) : Vec F S1024 .f32) shapeCasts_S1024_S1x1024 := by
  show StableHlo.after hostOps0_2 (Gen.V2 m c) (Proc.devRef .tc main_v5) = _
  after_results
  rfl
theorem V3_v6 : (Gen.V3 m c main_v6 : Vec F S1x4096 .f32) = shapeCast S1x4096 (m ((c : Thread nD τ).loc main_arg11) : Vec F S4096 .f32) shapeCasts_S4096_S1x4096 := by
  show StableHlo.after hostOps0_2 (Gen.V2 m c) (Proc.devRef .tc main_v6) = _
  after_results
  rfl
theorem V3_v7 : (Gen.V3 m c main_v7 : Vec F S1x4096 .f32) = shapeCast S1x4096 (m ((c : Thread nD τ).loc main_arg12) : Vec F S4096 .f32) shapeCasts_S4096_S1x4096 := by
  show StableHlo.after hostOps0_2 (Gen.V2 m c) (Proc.devRef .tc main_v7) = _
  after_results
  rfl
theorem V3_v8 : (Gen.V3 m c main_v8 : Vec F S1x50257 .f32) = shapeCast S1x50257 (m ((c : Thread nD τ).loc main_arg14) : Vec F S50257 .f32) shapeCasts_S50257_S1x50257 := by
  show StableHlo.after hostOps0_2 (Gen.V2 m c) (Proc.devRef .tc main_v8) = _
  after_results
  rfl

/-! ## The table: the token id clamped to the embedding table's rows -/

/-- The one index of the token array. -/
abbrev i00 : S1x1.Idx := ix2 (0 : Fin 1) (0 : Fin 1)

/-- The prefetched table as the program computes it from the token array: min(50256, max(0, id)), signed. -/
def tokTable (a0 : S1x1.Idx → Elt F .i32) : S1.Idx → Elt F .i32 :=
  minsi (broadcastInDim S1 ![] bcast_S_S1 (constantI S_ 32 50256#32))
    (maxsi (broadcastInDim S1 ![] bcast_S_S1 (constantI S_ 32 0#32)) (shapeCast S1 a0 shapeCasts_S1x1_S1))

theorem V3_v1 : (Gen.V3 m c main_v1 : S1.Idx → Elt F .i32) = tokTable (F := F) (m ((c : Thread nD τ).loc main_arg0)) := by
  show StableHlo.after hostOps0_2 (Gen.V2 m c) (Proc.devRef .tc main_v1) = _
  after_results
  rfl

/-- The table's word is the signed clamp of the token word. -/
theorem tokTable_apply (a0 : S1x1.Idx → Elt F .i32) : tokTable (F := F) a0 j0 = IntOp.minsi 50256#32 (IntOp.maxsi 0#32 (a0 i00)) := by
  have e : shapeCast S1 a0 shapeCasts_S1x1_S1 j0 = a0 i00 :=
    shapeCast_apply a0 shapeCasts_S1x1_S1 j0 i00 (by rw [Shape.rowMajor_val_two, Shape.rowMajor_val_one]; rfl)
  unfold tokTable minsi maxsi
  rw [e]
  rfl

/-- The signed clamp to [0, 50256] lands in [0, 50256]. -/
theorem clamp_le (x : BitVec 32) : (IntOp.minsi 50256#32 (IntOp.maxsi 0#32 x)).toNat ≤ 50256 := by
  have h0 : (0#32 : BitVec 32).toInt = 0 := by decide
  have hh : (50256#32 : BitVec 32).toInt = 50256 := by decide
  have hx := x.isLt
  unfold IntOp.minsi IntOp.maxsi
  simp only [BitVec.slt, decide_eq_true_eq, h0, hh]
  split_ifs with h1 h2 h2
  all_goals try (show (50256 : Nat) ≤ 50256; omega)
  all_goals try (show (0 : Nat) ≤ 50256; omega)
  all_goals (rw [BitVec.toInt_eq_toNat_cond] at h1 h2; split_ifs at h1 h2 <;> omega)

/-- In range the signed clamp is the identity. -/
theorem clamp_id (x : BitVec 32) (h : 0 ≤ x.toInt ∧ x.toInt < 50257) : IntOp.minsi 50256#32 (IntOp.maxsi 0#32 x) = x := by
  have h0 : (0#32 : BitVec 32).toInt = 0 := by decide
  have hh : (50256#32 : BitVec 32).toInt = 50256 := by decide
  have e1 : IntOp.maxsi 0#32 x = x := by
    unfold IntOp.maxsi
    simp only [BitVec.slt, decide_eq_true_eq, h0]
    exact if_neg (by omega)
  rw [e1]
  unfold IntOp.minsi
  simp only [BitVec.slt, decide_eq_true_eq, hh]
  exact if_neg (by omega)

theorem V3_v1_inb : k0_chk1 ((Gen.V3 m c main_v1 : S1.Idx → Elt F .i32) j0) := by
  rw [V3_v1, tokTable_apply]
  have h := clamp_le ((m ((c : Thread nD τ).loc main_arg0) : S1x1.Idx → Elt F .i32) i00)
  intro a
  fin_cases a
  · show (IntOp.minsi 50256#32 (IntOp.maxsi 0#32 _)).toNat + 1 ≤ 50257
    omega
  · show 0 + 1024 ≤ 1024
    omega

theorem V3_v1_of_inrange (h : 0 ≤ ((m ((c : Thread nD τ).loc main_arg0) : S1x1.Idx → Elt F .i32) i00).toInt
      ∧ ((m ((c : Thread nD τ).loc main_arg0) : S1x1.Idx → Elt F .i32) i00).toInt < 50257) :
    (Gen.V3 m c main_v1 : S1.Idx → Elt F .i32) j0 = (m ((c : Thread nD τ).loc main_arg0) : S1x1.Idx → Elt F .i32) i00 := by
  rw [V3_v1, tokTable_apply]
  exact clamp_id _ h

/-! ## Between the regions: the gates' nonlinear combine -/

/-- The logistic function as the program spells it: 1 / (1 + exp (−x)). -/
def sigm (x : Vec F S1x1024 .f32) : Vec F S1x1024 .f32 :=
  Host.divf (F := F) (broadcastInDim S1x1024 ![] bcast_S_S1x1024 (constant (F := F) S_ .f32 0x3F800000#32))
    (addf (broadcastInDim S1x1024 ![] bcast_S_S1x1024 (constant (F := F) S_ .f32 0x3F800000#32)) (Host.exp (F := F) (Host.negf (F := F) x)))

/-- The new cell row: σ(f) · c + σ(i) · tanh g, the quarters i, f, g of the raw gates at columns 0, 1024, 2048. -/
def lstmC (gates : Vec F S1x4096 .f32) (c0 : Vec F S1x1024 .f32) : Vec F S1x1024 .f32 :=
  addf (mulf (sigm (extractStridedSlice S1x1024 ![0, 1024] gates slices_S1x4096_S1x1024_0_1024)) c0)
    (mulf (sigm (extractStridedSlice S1x1024 ![0, 0] gates slices_S1x4096_S1x1024_0_0))
      (Host.tanh (F := F) (extractStridedSlice S1x1024 ![0, 2048] gates slices_S1x4096_S1x1024_0_2048)))

/-- The new hidden row: σ(o) · tanh c', the quarter o at column 3072. -/
def lstmH (gates : Vec F S1x4096 .f32) (c0 : Vec F S1x1024 .f32) : Vec F S1x1024 .f32 :=
  mulf (sigm (extractStridedSlice S1x1024 ![0, 3072] gates slices_S1x4096_S1x1024_0_3072)) (Host.tanh (F := F) (lstmC gates c0))

/-- The stretch between the regions, from any contents `W`: the new hidden row and the new cell row. -/
theorem after1_v37 (W : Valuation τ sig (Elt F)) :
    (StableHlo.after hostOps1 W (Proc.devRef .tc main_v37) : Vec F S1x1024 .f32)
      = lstmH (F := F) (W (Proc.devRef .tc main_v9_0)) (W (Proc.devRef .tc main_v3)) := by
  after_results_simp
  rfl
theorem after1_v35 (W : Valuation τ sig (Elt F)) :
    (StableHlo.after hostOps1 W (Proc.devRef .tc main_v35) : Vec F S1x1024 .f32)
      = lstmC (F := F) (W (Proc.devRef .tc main_v9_0)) (W (Proc.devRef .tc main_v3)) := by
  after_results_simp
  rfl

/-- What region 0 leaves in its two output arrays, and that it changes nothing else. -/
theorem V4_v9_0 : Gen.V4 m outs c main_v9_0 = outs 4 main_v9_0 c := by
  show Function.update (Function.update (Gen.V3 m c) (Proc.devRef .tc main_v9_0) (outs 4 main_v9_0 c)) (Proc.devRef .tc main_v9_1) (outs 4 main_v9_1 c) (Proc.devRef .tc main_v9_0) = _
  rw [Function.update_of_ne (StableHlo.devRef_ne_of_ne (by decide)), Function.update_self]
theorem V4_v9_1 : Gen.V4 m outs c main_v9_1 = outs 4 main_v9_1 c := by
  show Function.update (Function.update (Gen.V3 m c) (Proc.devRef .tc main_v9_0) (outs 4 main_v9_0 c)) (Proc.devRef .tc main_v9_1) (outs 4 main_v9_1 c) (Proc.devRef .tc main_v9_1) = _
  rw [Function.update_self]

/-- The cell row the combine reads: the cell argument without its leading unit axis. -/
abbrev c0Row : Vec F S1x1024 .f32 := shapeCast S1x1024 (m ((c : Thread nD τ).loc main_arg2) : Vec F S1x1x1024 .f32) shapeCasts_S1x1x1024_S1x1024

theorem V5_v37 : (Gen.V5 m outs c main_v37 : Vec F S1x1024 .f32) = lstmH (F := F) (outs 4 main_v9_0 c) (c0Row m c) :=
  (after1_v37 (Gen.V4 m outs c)).trans
    (congrArg₂ (lstmH (F := F)) (V4_v9_0 m outs c) ((Gen.V4_of m outs c main_v3 (by decide)).trans (V3_v3 m c)))
theorem V5_v35 : (Gen.V5 m outs c main_v35 : Vec F S1x1024 .f32) = lstmC (F := F) (outs 4 main_v9_0 c) (c0Row m c) :=
  (after1_v35 (Gen.V4 m outs c)).trans
    (congrArg₂ (lstmC (F := F)) (V4_v9_0 m outs c) ((Gen.V4_of m outs c main_v3 (by decide)).trans (V3_v3 m c)))
theorem V5_arg13 : Gen.V5 m outs c main_arg13 = m ((c : Thread nD τ).loc main_arg13) :=
  (Gen.V5_of m outs c main_arg13 (by decide)).trans <| (Gen.V4_of m outs c main_arg13 (by decide)).trans (V3_arg13 m c)
theorem V5_v8 : (Gen.V5 m outs c main_v8 : Vec F S1x50257 .f32) = shapeCast S1x50257 (m ((c : Thread nD τ).loc main_arg14) : Vec F S50257 .f32) shapeCasts_S50257_S1x50257 :=
  (Gen.V5_of m outs c main_v8 (by decide)).trans <| (Gen.V4_of m outs c main_v8 (by decide)).trans (V3_v8 m c)
theorem V5_v9_1 : Gen.V5 m outs c main_v9_1 = outs 4 main_v9_1 c :=
  (Gen.V5_of m outs c main_v9_1 (by decide)).trans (V4_v9_1 m outs c)

/-! ## At the end: the four results -/

/-- The logits less their row maximum (the maximum taken from −∞, as the program spells it). -/
def lsShift (x : Vec F S1x50257 .f32) : Vec F S1x50257 .f32 :=
  subf x (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x50257_S1_d1 h_S_))))

/-- The log-softmax of a row of logits: the shifted logits less the logarithm of the sum of their exponentials. -/
def logSoftmax (x : Vec F S1x50257 .f32) : Vec F S1x50257 .f32 :=
  subf (lsShift x) (broadcastInDim S1x50257 ![0, 1] bcast_S1x1_S1x50257_0_1 (Host.log (F := F) (broadcastInDim S1x1 ![0] bcast_S1_S1x1_0
    (Host.reduceAdd (Host.exp (F := F) (lsShift x)) (constant (F := F) S_ .f32 0x00000000#32) reducesTo_S1x50257_S1_d1 h_S_))))

/-- The two transports of a value along a typed reference's type equation cancel. -/
theorem ofBuf_toBuf {T : BufTy} (x : TRef sig T) (v : T.Contents (Elt F)) : x.ofBuf (x.toBuf v) = v := by
  unfold TRef.ofBuf TRef.toBuf
  rw [cast_cast, cast_eq]

/-- The log-softmax stretch, from any contents `W`. -/
theorem after2_v39 (W : Valuation τ sig (Elt F)) :
    (StableHlo.after hostOps2 W (Proc.devRef .tc main_v39) : Vec F S1x50257 .f32) = logSoftmax (F := F) (W (Proc.devRef .tc main_v38)) := by
  after_results_simp
  simp only [ofBuf_toBuf]
  rfl

theorem V6_v38 : Gen.V6 m outs c main_v38 = outs 6 main_v38 c := by
  show Function.update (Gen.V5 m outs c) (Proc.devRef .tc main_v38) (outs 6 main_v38 c) (Proc.devRef .tc main_v38) = _
  rw [Function.update_self]

/-- Add a leading unit axis to a row. -/
abbrev lead1 (x : Vec F S1x1024 .f32) : Vec F S1x1x1024 .f32 := broadcastInDim S1x1x1024 ![1, 2] bcast_S1x1024_S1x1x1024_1_2 x

theorem V8_v39 : (Gen.V8 m outs c main_v39 : Vec F S1x50257 .f32) = logSoftmax (F := F) (outs 6 main_v38 c) :=
  (Gen.V8_of m outs c main_v39 (by decide)).trans <|
    (after2_v39 (Gen.V6 m outs c)).trans (congrArg (logSoftmax (F := F)) (V6_v38 m outs c))

theorem V7_v37 : (Gen.V7 m outs c main_v37 : Vec F S1x1024 .f32) = lstmH (F := F) (outs 4 main_v9_0 c) (c0Row m c) :=
  (Gen.V7_of m outs c main_v37 (by decide)).trans <| (Gen.V6_of m outs c main_v37 (by decide)).trans (V5_v37 m outs c)
theorem V7_v35 : (Gen.V7 m outs c main_v35 : Vec F S1x1024 .f32) = lstmC (F := F) (outs 4 main_v9_0 c) (c0Row m c) :=
  (Gen.V7_of m outs c main_v35 (by decide)).trans <| (Gen.V6_of m outs c main_v35 (by decide)).trans (V5_v35 m outs c)

theorem after21_v40 (W : Valuation τ sig (Elt F)) :
    (StableHlo.after hostOps2_1 W (Proc.devRef .tc main_v40) : Vec F S1x1x1024 .f32) = lead1 (F := F) (W (Proc.devRef .tc main_v37)) := by
  after_results
theorem after21_v41 (W : Valuation τ sig (Elt F)) :
    (StableHlo.after hostOps2_1 W (Proc.devRef .tc main_v41) : Vec F S1x1x1024 .f32) = lead1 (F := F) (W (Proc.devRef .tc main_v35)) := by
  after_results

theorem V8_v40 : (Gen.V8 m outs c main_v40 : Vec F S1x1x1024 .f32) = lead1 (lstmH (F := F) (outs 4 main_v9_0 c) (c0Row m c)) :=
  (after21_v40 (Gen.V7 m outs c)).trans (congrArg (lead1 (F := F)) (V7_v37 m outs c))
theorem V8_v41 : (Gen.V8 m outs c main_v41 : Vec F S1x1x1024 .f32) = lead1 (lstmC (F := F) (outs 4 main_v9_0 c) (c0Row m c)) :=
  (after21_v41 (Gen.V7 m outs c)).trans (congrArg (lead1 (F := F)) (V7_v35 m outs c))
theorem V8_v9_1 : Gen.V8 m outs c main_v9_1 = outs 4 main_v9_1 c :=
  (Gen.V8_of m outs c main_v9_1 (by decide)).trans <| (Gen.V7_of m outs c main_v9_1 (by decide)).trans <|
    (Gen.V6_of m outs c main_v9_1 (by decide)).trans (V5_v9_1 m outs c)

end Cert.KernelIdeal.Hand
end
-- ==== Proof.KI.Regs.lean ====
/-
  The two kernel regions of the idealized program as segments of its run, at the exact real instance.
  Between two items every unscoped buffer of the core is held whole at that boundary's contents: the launch contents,
  then each host stretch applied, then what a region leaves in its output arrays. What region 0 leaves in the gates
  row and the attention row, and region 1 in the logits row, is what the pipeline's write-backs fold to (the proof
  data's final array contents); every other buffer passes a region unchanged. Beside the buffers ride the core's
  generator register at some state and its dues, at nothing.
-/
import proofs.«424451_j23149873725851_3_alg».proof.Proof.KI.Dat0
import proofs.«424451_j23149873725851_3_alg».proof.Proof.KI.Dat1
import proofs.«424451_j23149873725851_3_alg».proof.Proof.KI.HostVals
import proofs.«424451_j23149873725851_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

open Idealize.ShloMosaic.Pipeline (Seg HostSeg RegionSeg)

/-! ## Facts of region 0's proof data that do not read the table's contents -/

section Generic

variable (V : (c : Dev nD) → (b : Ref sig .tc) → Buf (Elt Ideal) ((c : Thread nD τ).loc b))
variable (a : (pcfg0 (F := Ideal)).Adm) (hchk : k0_chk1 (tblWord a))

/-- An input window's array is never written: after the region it holds its entry contents. -/
theorem arrAt0_in_0 (c : Dev nD) : (dat0 (F := Ideal) V a hchk c).arrAt 0 (cfg0 a).N = V c main_v2 :=
  ((dat0 (F := Ideal) V a hchk c).arrAt_in 0 rfl _).trans (A_eq0 (F := Ideal) V a hchk c 0)
theorem arrAt0_in_1 (c : Dev nD) : (dat0 (F := Ideal) V a hchk c).arrAt 1 (cfg0 a).N = V c main_arg3 :=
  ((dat0 (F := Ideal) V a hchk c).arrAt_in 1 rfl _).trans (A_eq0 (F := Ideal) V a hchk c 1)
theorem arrAt0_in_2 (c : Dev nD) : (dat0 (F := Ideal) V a hchk c).arrAt 2 (cfg0 a).N = V c main_arg5 :=
  ((dat0 (F := Ideal) V a hchk c).arrAt_in 2 rfl _).trans (A_eq0 (F := Ideal) V a hchk c 2)
theorem arrAt0_in_3 (c : Dev nD) : (dat0 (F := Ideal) V a hchk c).arrAt 3 (cfg0 a).N = V c main_v4 :=
  ((dat0 (F := Ideal) V a hchk c).arrAt_in 3 rfl _).trans (A_eq0 (F := Ideal) V a hchk c 3)
theorem arrAt0_in_4 (c : Dev nD) : (dat0 (F := Ideal) V a hchk c).arrAt 4 (cfg0 a).N = V c main_arg7 :=
  ((dat0 (F := Ideal) V a hchk c).arrAt_in 4 rfl _).trans (A_eq0 (F := Ideal) V a hchk c 4)
theorem arrAt0_in_5 (c : Dev nD) : (dat0 (F := Ideal) V a hchk c).arrAt 5 (cfg0 a).N = V c main_v5 :=
  ((dat0 (F := Ideal) V a hchk c).arrAt_in 5 rfl _).trans (A_eq0 (F := Ideal) V a hchk c 5)
theorem arrAt0_in_6 (c : Dev nD) : (dat0 (F := Ideal) V a hchk c).arrAt 6 (cfg0 a).N = V c main_arg9 :=
  ((dat0 (F := Ideal) V a hchk c).arrAt_in 6 rfl _).trans (A_eq0 (F := Ideal) V a hchk c 6)
theorem arrAt0_in_7 (c : Dev nD) : (dat0 (F := Ideal) V a hchk c).arrAt 7 (cfg0 a).N = V c main_arg10 :=
  ((dat0 (F := Ideal) V a hchk c).arrAt_in 7 rfl _).trans (A_eq0 (F := Ideal) V a hchk c 7)
theorem arrAt0_in_8 (c : Dev nD) : (dat0 (F := Ideal) V a hchk c).arrAt 8 (cfg0 a).N = V c main_v6 :=
  ((dat0 (F := Ideal) V a hchk c).arrAt_in 8 rfl _).trans (A_eq0 (F := Ideal) V a hchk c 8)
theorem arrAt0_in_9 (c : Dev nD) : (dat0 (F := Ideal) V a hchk c).arrAt 9 (cfg0 a).N = V c main_v7 :=
  ((dat0 (F := Ideal) V a hchk c).arrAt_in 9 rfl _).trans (A_eq0 (F := Ideal) V a hchk c 9)

/-- The table held whole is its buffer's points-to at the table's contents. -/
theorem tblHeld_gen (c : Dev nD) :
    (Pipeline.prefHeld (Ix := Unit) (Name := ℕ) (U := Pipeline.UD sig nD τ) (Lvl := ℕ) pre0 c (fun _ => fullShare) a.1 : sProp 𝕄)
      = iprop((((c : Thread nD τ)).loc main_v1) ↦{fullShare} a.1 0) := by
  rw [prefHeld0_eq (F := Ideal) a c]; exact owns_whole (c : Thread nD τ) main_v1 fullShare (a.1 0)

end Generic

variable (m : (ℓ : Loc nD τ sig) → Buf (Elt Ideal) ℓ)

/-! ## The prefetched table, and the buffers' contents at the regions' ends -/

/-- The one core. -/
abbrev c0 : Dev nD := 0

-- Region 0's table contents are kept a variable through every structural fact; `ha0` says they are what the host
-- stretches before region 0 leave in the table's buffer, and is used only where the table's points-to meets the buffers'.
variable (a0 : (pcfg0 (F := Ideal)).Adm)

/-- The tables' admissible contents: region 0's one table, region 1 none. -/
def adm : (p : Fin 2) → (pcfgs (F := Ideal) p).Adm
  | ⟨0, _⟩ => a0
  | ⟨1, _⟩ => cfg1.toPCfg_adm

variable (ha0 : (a0.1 0 : S1.Idx → Elt Ideal .i32) = Gen.V3 m c0 main_v1)
variable (hidx : k0_chk1 (tblWord a0))

/-- The buffers as functions of the TensorCore's references. -/
abbrev V3r : (c : Dev nD) → (b : Ref sig .tc) → Buf (Elt Ideal) ((c : Thread nD τ).loc b) := fun c b => Gen.V3 m c b

/-- Region 0's proof data at the contents it is entered from. -/
abbrev d0 (c : Dev nD) := dat0 (F := Ideal) (V3r m) (a0) hidx c

/-- After region 0: its arrays at what the write-backs leave, every other buffer as entered. -/
def W4 (c : Dev nD) : Valuation τ sig (Elt Ideal) :=
  Pipeline.withArrays spec0 c (Gen.V3 m c) fun w => (d0 m a0 hidx c).arrAt w (cfg0 (a0)).N
/-- What region 0 leaves, as the unknowns the generated boundary contents are written over. -/
def outsA : Gen.Outs (F := Ideal) := fun _ r c => W4 m a0 hidx c r
abbrev V5r : (c : Dev nD) → (b : Ref sig .tc) → Buf (Elt Ideal) ((c : Thread nD τ).loc b) := fun c b => Gen.V5 m (outsA m a0 hidx) c b
/-- Region 1's proof data at the contents it is entered from. -/
abbrev d1 (c : Dev nD) := dat1 (V5r m a0 hidx) c
/-- After region 1: its arrays at what the write-backs leave, every other buffer as entered. -/
def W6 (c : Dev nD) : Valuation τ sig (Elt Ideal) :=
  Pipeline.withArrays spec1 c (Gen.V5 m (outsA m a0 hidx) c) fun w => (d1 m a0 hidx c).arrAt w cfg1.N
/-- What the two regions leave: region 0's arrays read at boundary 4, region 1's at boundary 6. -/
def outs : Gen.Outs (F := Ideal) := fun J r c => if J = 4 then W4 m a0 hidx c r else W6 m a0 hidx c r

theorem outs_4 (r : Ref sig .tc) (c : Dev nD) : outs m a0 hidx 4 r c = W4 m a0 hidx c r := if_pos rfl
theorem outs_6 (r : Ref sig .tc) (c : Dev nD) : outs m a0 hidx 6 r c = W6 m a0 hidx c r := if_neg (by decide)
/-- The boundary contents up to region 1's entry read region 0's leavings only. -/
theorem V4_outs (c : Dev nD) : Gen.V4 m (outs m a0 hidx) c = Gen.V4 m (outsA m a0 hidx) c := rfl
theorem V5_outs (c : Dev nD) : Gen.V5 m (outs m a0 hidx) c = Gen.V5 m (outsA m a0 hidx) c := rfl

/-- Every pipeline's proof data, each at its region's entry contents. -/
def pdats : (p : Fin 2) → (c : Dev nD) → Dat τ (Elt Ideal) Unit ℕ (Pipeline.UD sig nD τ) ℕ (Pipeline.pin (pcfgs (F := Ideal)) (adm a0) p) c
  | ⟨0, _⟩ => fun c => d0 m a0 hidx c
  | ⟨1, _⟩ => fun c => d1 m a0 hidx c

abbrev 𝒱₀ : Variants := Variants.none
abbrev L : GSem nD τ sig → Finset Unit := fun _ => ∅
abbrev lv : GSem nD τ sig → Unit → ℕ := fun _ _ => 0
/-- What rides beside the buffers through every segment: the generator register at some state, the core's dues at
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## What each region leaves, read at the next boundary -/

set_option maxHeartbeats 4000000 in
/-- Region 0's arrays at the boundary after it: the two outputs at what the write-backs leave, the inputs as entered. -/
theorem hF0 (c : Dev nD) (w : Fin 12) :
    (d0 m a0 hidx c).arrAt w (cfg0 a0).N = (fun b : Ref sig .tc => Gen.V4 m (outs m a0 hidx) c b) (Pipeline.arrRef spec0 w) := by
  match w with
  | ⟨0, _⟩ =>
    show (d0 m a0 hidx c).arrAt 0 (cfg0 a0).N = Gen.V4 m (outs m a0 hidx) c main_v2
    exact (arrAt0_in_0 (V3r m) a0 hidx c).trans (Gen.V4_of m (outs m a0 hidx) c main_v2 (by decide)).symm
  | ⟨1, _⟩ =>
    show (d0 m a0 hidx c).arrAt 1 (cfg0 a0).N = Gen.V4 m (outs m a0 hidx) c main_arg3
    exact (arrAt0_in_1 (V3r m) a0 hidx c).trans (Gen.V4_of m (outs m a0 hidx) c main_arg3 (by decide)).symm
  | ⟨2, _⟩ =>
    show (d0 m a0 hidx c).arrAt 2 (cfg0 a0).N = Gen.V4 m (outs m a0 hidx) c main_arg5
    exact (arrAt0_in_2 (V3r m) a0 hidx c).trans (Gen.V4_of m (outs m a0 hidx) c main_arg5 (by decide)).symm
  | ⟨3, _⟩ =>
    show (d0 m a0 hidx c).arrAt 3 (cfg0 a0).N = Gen.V4 m (outs m a0 hidx) c main_v4
    exact (arrAt0_in_3 (V3r m) a0 hidx c).trans (Gen.V4_of m (outs m a0 hidx) c main_v4 (by decide)).symm
  | ⟨4, _⟩ =>
    show (d0 m a0 hidx c).arrAt 4 (cfg0 a0).N = Gen.V4 m (outs m a0 hidx) c main_arg7
    exact (arrAt0_in_4 (V3r m) a0 hidx c).trans (Gen.V4_of m (outs m a0 hidx) c main_arg7 (by decide)).symm
  | ⟨5, _⟩ =>
    show (d0 m a0 hidx c).arrAt 5 (cfg0 a0).N = Gen.V4 m (outs m a0 hidx) c main_v5
    exact (arrAt0_in_5 (V3r m) a0 hidx c).trans (Gen.V4_of m (outs m a0 hidx) c main_v5 (by decide)).symm
  | ⟨6, _⟩ =>
    show (d0 m a0 hidx c).arrAt 6 (cfg0 a0).N = Gen.V4 m (outs m a0 hidx) c main_arg9
    exact (arrAt0_in_6 (V3r m) a0 hidx c).trans (Gen.V4_of m (outs m a0 hidx) c main_arg9 (by decide)).symm
  | ⟨7, _⟩ =>
    show (d0 m a0 hidx c).arrAt 7 (cfg0 a0).N = Gen.V4 m (outs m a0 hidx) c main_arg10
    exact (arrAt0_in_7 (V3r m) a0 hidx c).trans (Gen.V4_of m (outs m a0 hidx) c main_arg10 (by decide)).symm
  | ⟨8, _⟩ =>
    show (d0 m a0 hidx c).arrAt 8 (cfg0 a0).N = Gen.V4 m (outs m a0 hidx) c main_v6
    exact (arrAt0_in_8 (V3r m) a0 hidx c).trans (Gen.V4_of m (outs m a0 hidx) c main_v6 (by decide)).symm
  | ⟨9, _⟩ =>
    show (d0 m a0 hidx c).arrAt 9 (cfg0 a0).N = Gen.V4 m (outs m a0 hidx) c main_v7
    exact (arrAt0_in_9 (V3r m) a0 hidx c).trans (Gen.V4_of m (outs m a0 hidx) c main_v7 (by decide)).symm
  | ⟨10, _⟩ =>
    show (d0 m a0 hidx c).arrAt 10 (cfg0 a0).N = Gen.V4 m (outs m a0 hidx) c main_v9_0
    rw [V4_v9_0 m (outs m a0 hidx) c, outs_4 m a0 hidx main_v9_0 c]
    exact (Pipeline.withArrays_arr spec0 (launch0 (F := Ideal)).win.arr_inj c (Gen.V3 m c) (fun w => (d0 m a0 hidx c).arrAt w (cfg0 a0).N) 10).symm
  | ⟨11, _⟩ =>
    show (d0 m a0 hidx c).arrAt 11 (cfg0 a0).N = Gen.V4 m (outs m a0 hidx) c main_v9_1
    rw [V4_v9_1 m (outs m a0 hidx) c, outs_4 m a0 hidx main_v9_1 c]
    exact (Pipeline.withArrays_arr spec0 (launch0 (F := Ideal)).win.arr_inj c (Gen.V3 m c) (fun w => (d0 m a0 hidx c).arrAt w (cfg0 a0).N) 11).symm
theorem hrest0 (c : Dev nD) : ∀ b : Ref sig .tc, b ∉ Finset.univ.image (Pipeline.arrRef spec0) →
    (fun b : Ref sig .tc => Gen.V4 m (outs m a0 hidx) c b) b = V3r m c b := by
  intro b hb
  have h0 : b ≠ main_v9_0 := fun e => hb (Finset.mem_image.mpr ⟨10, Finset.mem_univ _, e.symm⟩)
  have h1 : b ≠ main_v9_1 := fun e => hb (Finset.mem_image.mpr ⟨11, Finset.mem_univ _, e.symm⟩)
  exact Gen.V4_of m (outs m a0 hidx) c b (by simp [h0, h1])
/-- Region 1's arrays at the boundary after it. -/
theorem hF1 (c : Dev nD) (w : Fin cfg1.W) :
    (d1 m a0 hidx c).arrAt w cfg1.N = (fun b : Ref sig .tc => Gen.V6 m (outs m a0 hidx) c b) (Pipeline.arrRef spec1 w) := by
  match w with
  | ⟨0, _⟩ => exact ((d1 m a0 hidx c).arrAt_in 0 rfl _).trans ((A_eq1 (V5r m a0 hidx) c 0).trans (Gen.V6_of m (outs m a0 hidx) c main_v37 (by decide)).symm)
  | ⟨1, _⟩ => exact ((d1 m a0 hidx c).arrAt_in 1 rfl _).trans ((A_eq1 (V5r m a0 hidx) c 1).trans (Gen.V6_of m (outs m a0 hidx) c main_arg13 (by decide)).symm)
  | ⟨2, _⟩ => exact ((d1 m a0 hidx c).arrAt_in 2 rfl _).trans ((A_eq1 (V5r m a0 hidx) c 2).trans (Gen.V6_of m (outs m a0 hidx) c main_v8 (by decide)).symm)
  | ⟨3, _⟩ =>
    exact ((V6_v38 m (outs m a0 hidx) c).trans ((outs_6 m a0 hidx main_v38 c).trans
      (Pipeline.withArrays_arr spec1 (launch1 (F := Ideal)).win.arr_inj c _ _ 3))).symm
theorem hrest1 (c : Dev nD) : ∀ b : Ref sig .tc, b ∉ Finset.univ.image (Pipeline.arrRef spec1) →
    (fun b : Ref sig .tc => Gen.V6 m (outs m a0 hidx) c b) b = V5r m a0 hidx c b := by
  intro b hb
  have hne : b ≠ main_v38 := fun e => hb (Finset.mem_image.mpr ⟨3, Finset.mem_univ _, e.symm⟩)
  exact Gen.V6_of m (outs m a0 hidx) c b (by simpa using hne)

/-! ## The regions as segments -/

include ha0 in
/-- Region 0's table held whole is its buffer held at the boundary's contents. -/
theorem tblHeld_eq :
    (Pipeline.prefHeld (Ix := Unit) (Name := ℕ) (U := Pipeline.UD sig nD τ) (Lvl := ℕ) pre0 c0 (fun _ => fullShare) a0.1 : sProp 𝕄)
      = iprop((((c0 : Thread nD τ)).loc main_v1) ↦{fullShare} V3r m c0 main_v1) := by
  rw [tblHeld_gen a0 c0, ha0]

/-- The buffers region 0 routes itself: the embedding table (into the body's invariant and back) and the prefetched
    table's buffer (handed to the pipeline as the table). -/
def H0' : Finset (Ref sig .tc) := {main_arg4, main_v1}
theorem H0'_sub : H0' ⊆ Pipeline.restRefs sig spec0 := by decide

include ha0 in
set_option backward.isDefEq.respectTransparency.types false in
/-- REGION 0 over the thread state: entered from every unscoped buffer at the contents after the third host stretch,
    left at the contents with its two output arrays at what the write-backs leave. -/
def reg0 : RegionSeg (pcfgs (F := Ideal)) (adm a0) (pdats m a0 hidx) () defs₀ 𝒱₀ L lv 0 where
  win := (launch0 (F := Ideal)).win.to₀
  block_pos := (launch0 (F := Ideal)).block_pos
  stage_whole := (launch0 (F := Ideal)).stage_whole
  K := Fin 1
  osem := osem0
  ho := ownSemFacts0
  hbody c := (body_obligation0 (F := Ideal) (V3r m) (a0) hidx c).loose
  hwaits := Pipeline.hwaits_of_owed_zero _ _ _ _ L lv 0 fun _ _ => rfl
  pre c := iprop(StableHlo.held (c : Thread nD τ) (Pipeline.ucRefs τ sig) (Gen.V3 m c) ∗ E 0 c)
  post c := iprop(StableHlo.held (c : Thread nD τ) (Pipeline.ucRefs τ sig) (Gen.V4 m (outs m a0 hidx) c) ∗ E 1 c)
  X c := iprop((∃ r, prngReg c r) ∗ Pipeline.ownSems0 (Ix := Unit) (Name := ℕ) (U := Pipeline.UD sig nD τ) (Lvl := ℕ) (Val := Elt Ideal) (τ := τ) osem0 c
    ∗ (((c : Thread nD τ)).loc main_arg4) ↦{fullShare} V3r m c main_arg4)
  Y c := iprop((∃ r, prngReg c r) ∗ ((((c : Thread nD τ)).loc main_arg4) ↦{fullShare} V3r m c main_arg4)
    ∗ ((((c : Thread nD τ)).loc main_v1) ↦{fullShare} V3r m c main_v1))
  Z c := bigSep (Pipeline.restRefs sig spec0 \ H0') fun b => (((c : Thread nD τ)).loc b) ↦{fullShare} V3r m c b
  hentry c := by
    have hsplit := Pipeline.arrays_of_unscopedBufs (p := 0) (pcfgs (F := Ideal)) (adm a0) (pdats m a0 hidx) (launch0 (F := Ideal)).win (launch0 (F := Ideal)).arr_whole c
      ((pdats m a0 hidx 0 c).share_full fun _ => rfl) (V3r m c) fun _ => rfl
    rw [Pipeline.unscopedBufs_held] at hsplit
    have hH : (Pipeline.unscopedRest (Ix := Unit) (Name := ℕ) (U := Pipeline.UD sig nD τ) (Lvl := ℕ) spec0 c (V3r m c) : sProp 𝕄)
        = iprop((bigSep H0' fun b => (((c : Thread nD τ)).loc b) ↦{fullShare} V3r m c b) ∗ (bigSep (Pipeline.restRefs sig spec0 \ H0') fun b => (((c : Thread nD τ)).loc b) ↦{fullShare} V3r m c b)) := by
      unfold Pipeline.unscopedRest; exact BI.bigSep_sdiff_split H0'_sub
    have hH2 : (bigSep H0' (fun b => (((c : Thread nD τ)).loc b) ↦{fullShare} V3r m c b) : sProp 𝕄)
        = iprop(((((c : Thread nD τ)).loc main_arg4) ↦{fullShare} V3r m c main_arg4) ∗ ((((c : Thread nD τ)).loc main_v1) ↦{fullShare} V3r m c main_v1)) := by
      rw [BI.bigSep_eq_bigSepL_of_eq [main_arg4, main_v1] (by decide) (by decide)]; rfl
    obtain rfl : c = c0 := Subsingleton.elim _ _
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq hH2) $$ HH
    icases H'' with ⟨He, Ht⟩
    imodintro
    isplitl [Ha]; · iexact Ha
    isplitl [Ht]
    · iapply (Entails.of_eq (tblHeld_eq m a0 ha0).symm); iexact Ht
    isplitl [HO]
    · unfold Pipeline.Dat.owesAt Pipeline.owesWithin
      icases HO with ⟨%W, HO⟩; iexists W; isplitr; · ipureintro; exact fun _ _ => Or.inl trivial
      iexact HO
    isplitl [Hp Hos He]
    · isplitl [Hp]; · iexact Hp
      isplitl [Hos]; · iexact Hos
      iexact He
    iexact HR
  hin c := by
    rw [show (pdats m a0 hidx 0 c).Φ 0 = Φ0 (F := Ideal) (V3r m) (a0) c from rfl]; unfold Φ0; rw [Pipeline.ΦD_eq, hbmPts0_eq]
    iintro ⟨⟨Hp, Ho, He⟩, Ht, Hr⟩
    isplitr [Ht]
    · isplitl [Hr]; · iexact Hr
      isplitl [Hp]; · iexact Hp
      isplitl [Ho]; · iexact Ho
      iexact He
    · iexact Ht
  hout c := by
    rw [show (pdats m a0 hidx 0 c).Φ (Fin.last _) = Φ0 (F := Ideal) (V3r m) (a0) c from rfl]; unfold Φ0; rw [Pipeline.ΦD_eq, hbmPts0_eq]
    obtain rfl : c = c0 := Subsingleton.elim _ _
    iintro ⟨⟨Hr, Hp, Ho, He⟩, Ht⟩
    ihave Ht' := (Entails.of_eq (tblHeld_eq m a0 ha0)) $$ Ht
    isplitl [Hp He Ht']
    · isplitl [Hp]; · iexact Hp
      isplitl [He]; · iexact He
      iexact Ht'
    isplitl [Ho]; · iexact Ho
    iexact Hr
  hexit c := by
    have hjoin := Pipeline.unscopedBufs_of_arrays (p := 0) (pcfgs (F := Ideal)) (adm a0) (Ix := Unit) (Name := ℕ) (U := Pipeline.UD sig nD τ) (Lvl := ℕ)
      (launch0 (F := Ideal)).win (launch0 (F := Ideal)).arr_whole c (pdats m a0 hidx) ((pdats m a0 hidx 0 c).share_full fun _ => rfl)
      (V3r m c) (fun b : Ref sig .tc => Gen.V4 m (outs m a0 hidx) c b) ((pdats m a0 hidx 0 c).arrAt · (cfg0 (a0)).N) (hF0 m a0 hidx c) (hrest0 m a0 hidx c)
    rw [Pipeline.unscopedBufs_held] at hjoin
    have hH : (Pipeline.unscopedRest (Ix := Unit) (Name := ℕ) (U := Pipeline.UD sig nD τ) (Lvl := ℕ) spec0 c (V3r m c) : sProp 𝕄)
        = iprop((bigSep H0' fun b => (((c : Thread nD τ)).loc b) ↦{fullShare} V3r m c b) ∗ (bigSep (Pipeline.restRefs sig spec0 \ H0') fun b => (((c : Thread nD τ)).loc b) ↦{fullShare} V3r m c b)) := by
      unfold Pipeline.unscopedRest; exact BI.bigSep_sdiff_split H0'_sub
    have hH2 : (bigSep H0' (fun b => (((c : Thread nD τ)).loc b) ↦{fullShare} V3r m c b) : sProp 𝕄)
        = iprop(((((c : Thread nD τ)).loc main_arg4) ↦{fullShare} V3r m c main_arg4) ∗ ((((c : Thread nD τ)).loc main_v1) ↦{fullShare} V3r m c main_v1)) := by
      rw [BI.bigSep_eq_bigSepL_of_eq [main_arg4, main_v1] (by decide) (by decide)]; rfl
    iintro ⟨Ha, HO, ⟨HY, He, Ht⟩, HR⟩
    ihave HH := (Entails.of_eq hH2.symm) $$ [He Ht]
    · isplitl [He]; · iexact He
      iexact Ht
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents after the LSTM stretch, left with the logits row at
    what the thirteen write-backs leave. No semaphore of the kernel's own; the generator register into the class's
    invariant and out. -/
def reg1 : RegionSeg (pcfgs (F := Ideal)) (adm a0) (pdats m a0 hidx) () defs₀ 𝒱₀ L lv 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := body_obligation1 (V5r m a0 hidx) c
  hwaits := Pipeline.hwaits_of_owed_zero _ _ _ _ L lv 1 fun _ _ => rfl
  pre c := iprop(StableHlo.held (c : Thread nD τ) (Pipeline.ucRefs τ sig) (Gen.V5 m (outsA m a0 hidx) c) ∗ E 1 c)
  post c := iprop(StableHlo.held (c : Thread nD τ) (Pipeline.ucRefs τ sig) (Gen.V6 m (outs m a0 hidx) c) ∗ E 2 c)
  X c := iprop(∃ r, prngReg c r)
  Y c := iprop(∃ r, prngReg c r)
  Z c := Pipeline.unscopedRest (Ix := Unit) (Name := ℕ) (U := Pipeline.UD sig nD τ) (Lvl := ℕ) spec1 c (V5r m a0 hidx c)
  hentry c := by
    rw [Pipeline.ownSems0_none]
    have hsplit := Pipeline.arrays_of_unscopedBufs (p := 1) (pcfgs (F := Ideal)) (adm a0) (pdats m a0 hidx) (launch1 (F := Ideal)).win (launch1 (F := Ideal)).arr_whole c
      ((pdats m a0 hidx 1 c).share_full fun _ => rfl) (V5r m a0 hidx c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 hidx 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a0 hidx 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) (adm a0) (Ix := Unit) (Name := ℕ) (U := Pipeline.UD sig nD τ) (Lvl := ℕ)
      (launch1 (F := Ideal)).win (launch1 (F := Ideal)).arr_whole c (pdats m a0 hidx) ((pdats m a0 hidx 1 c).share_full fun _ => rfl)
      (V5r m a0 hidx c) (fun b : Ref sig .tc => Gen.V6 m (outs m a0 hidx) c b) ((pdats m a0 hidx 1 c).arrAt · cfg1.N) (hF1 m a0 hidx c) (hrest1 m a0 hidx c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Val0.lean ====
/-
  Region 0's two output arrays after its two grid points, in closed form, at any float instance.
  The six inputs whose one block is the whole array (the hidden row, the encoder outputs, attn_W, attn_b, comb_W,
  comb_b) are read through a block at block index (0, 0): such a block IS its array. The two weight matrices are
  halved along the rows and the two gate biases and the gates along the lanes, with block index the point: a block's
  coordinate in its array is index × size + the coordinate inside the block, so block row (lane) r at point t is
  array row (lane) 2048 t + r. The gates window is written back at both points, through two halves that share no
  lane, so each half of the gates array ends holding what its point computed; the attention window's block index
  never moves, so it is written back once, after the last point, whole.
-/
import proofs.«424451_j23149873725851_3_alg».proof.Proof.KI.Dat0
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)
variable (hchk : k0_chk1 (tblWord a))

/-! ## The schedule and the index maps, decided over the two grid points -/

/-- The gates window is written back at both points (its block index is the point). -/
theorem flush0_10 : ∀ t : Fin (cfg0 a).N, ((cfg0 a).win 10).flush t = true :=
  (by decide +kernel : ∀ t : Fin grid0.N, Pipeline.Window.flushOf grid0 true cc0_transform_11 t = true)
/-- The attention window's block index never moves: it is written back once, after the last point. -/
theorem flush0_11 : ∀ t : Fin (cfg0 a).N, ((cfg0 a).win 11).flush t = decide (t.val = 1) :=
  (by decide +kernel : ∀ t : Fin grid0.N, Pipeline.Window.flushOf grid0 true cc0_transform_12 t = decide (t.val = 1))
/-- The windows whose one block is the whole array: block index (0, 0) at both points. -/
theorem idx0_const : ∀ t : Fin grid0.N, cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] ∧ cc0_transform_6 (grid0.coords t) = ![0, 0] ∧ cc0_transform_12 (grid0.coords t) = ![0, 0] := by decide +kernel
/-- The halved windows: the two weight matrices move along the rows, the two biases and the gates along the lanes, with the point. -/
theorem idx0_move : ∀ t : Fin grid0.N, cc0_transform_7 (grid0.coords t) = ![t.val, 0] ∧ cc0_transform_8 (grid0.coords t) = ![t.val, 0] ∧ cc0_transform_9 (grid0.coords t) = ![0, t.val] ∧ cc0_transform_10 (grid0.coords t) = ![0, t.val] ∧ cc0_transform_11 (grid0.coords t) = ![0, t.val] := by decide +kernel

/-! ## A block read off its array -/

theorem vec00 : ∀ b : Fin 2, (![0, 0] : Fin 2 → ℕ) b = 0 := by decide

/-- Window 0's one block is its whole array: an element of the block sits in the array at its own coordinates. -/
theorem emb0_0 (t : Fin (cfg0 a).N) (x : S1x1024.Idx) : (((cfg0 a).win 0).blk t).view.emb x = x := by
  refine funext fun (ax : Fin 2) => Fin.ext ?_
  refine (Window.rect_emb_val ((cfg0 a).win 0) t x ax).trans ?_
  rw [show ((cfg0 a).win 0).index t = cc0_transform_1 (grid0.coords t) from rfl, (idx0_const t).1, vec00]
  omega
/-- So any contents of the array, read through the block, are the contents. -/
theorem rd0_0 (f : Vec F S1x1024 .f32) (t : Fin (cfg0 a).N) : (((cfg0 a).win 0).blk t).view.read (Elt F) f = f := by
  funext x
  exact congrArg f (emb0_0 a t x)
/-- Window 1's one block is its whole array: an element of the block sits in the array at its own coordinates. -/
theorem emb0_1 (t : Fin (cfg0 a).N) (x : S12x1024.Idx) : (((cfg0 a).win 1).blk t).view.emb x = x := by
  refine funext fun (ax : Fin 2) => Fin.ext ?_
  refine (Window.rect_emb_val ((cfg0 a).win 1) t x ax).trans ?_
  rw [show ((cfg0 a).win 1).index t = cc0_transform_2 (grid0.coords t) from rfl, (idx0_const t).2.1, vec00]
  omega
/-- So any contents of the array, read through the block, are the contents. -/
theorem rd0_1 (f : Vec F S12x1024 .f32) (t : Fin (cfg0 a).N) : (((cfg0 a).win 1).blk t).view.read (Elt F) f = f := by
  funext x
  exact congrArg f (emb0_1 a t x)
/-- Window 2's one block is its whole array: an element of the block sits in the array at its own coordinates. -/
theorem emb0_2 (t : Fin (cfg0 a).N) (x : S12x2048.Idx) : (((cfg0 a).win 2).blk t).view.emb x = x := by
  refine funext fun (ax : Fin 2) => Fin.ext ?_
  refine (Window.rect_emb_val ((cfg0 a).win 2) t x ax).trans ?_
  rw [show ((cfg0 a).win 2).index t = cc0_transform_3 (grid0.coords t) from rfl, (idx0_const t).2.2.1, vec00]
  omega
/-- So any contents of the array, read through the block, are the contents. -/
theorem rd0_2 (f : Vec F S12x2048 .f32) (t : Fin (cfg0 a).N) : (((cfg0 a).win 2).blk t).view.read (Elt F) f = f := by
  funext x
  exact congrArg f (emb0_2 a t x)
/-- Window 3's one block is its whole array: an element of the block sits in the array at its own coordinates. -/
theorem emb0_3 (t : Fin (cfg0 a).N) (x : S1x12.Idx) : (((cfg0 a).win 3).blk t).view.emb x = x := by
  refine funext fun (ax : Fin 2) => Fin.ext ?_
  refine (Window.rect_emb_val ((cfg0 a).win 3) t x ax).trans ?_
  rw [show ((cfg0 a).win 3).index t = cc0_transform_4 (grid0.coords t) from rfl, (idx0_const t).2.2.2.1, vec00]
  omega
/-- So any contents of the array, read through the block, are the contents. -/
theorem rd0_3 (f : Vec F S1x12 .f32) (t : Fin (cfg0 a).N) : (((cfg0 a).win 3).blk t).view.read (Elt F) f = f := by
  funext x
  exact congrArg f (emb0_3 a t x)
/-- Window 4's one block is its whole array: an element of the block sits in the array at its own coordinates. -/
theorem emb0_4 (t : Fin (cfg0 a).N) (x : S1024x2048.Idx) : (((cfg0 a).win 4).blk t).view.emb x = x := by
  refine funext fun (ax : Fin 2) => Fin.ext ?_
  refine (Window.rect_emb_val ((cfg0 a).win 4) t x ax).trans ?_
  rw [show ((cfg0 a).win 4).index t = cc0_transform_5 (grid0.coords t) from rfl, (idx0_const t).2.2.2.2.1, vec00]
  omega
/-- So any contents of the array, read through the block, are the contents. -/
theorem rd0_4 (f : Vec F S1024x2048 .f32) (t : Fin (cfg0 a).N) : (((cfg0 a).win 4).blk t).view.read (Elt F) f = f := by
  funext x
  exact congrArg f (emb0_4 a t x)
/-- Window 5's one block is its whole array: an element of the block sits in the array at its own coordinates. -/
theorem emb0_5 (t : Fin (cfg0 a).N) (x : S1x1024.Idx) : (((cfg0 a).win 5).blk t).view.emb x = x := by
  refine funext fun (ax : Fin 2) => Fin.ext ?_
  refine (Window.rect_emb_val ((cfg0 a).win 5) t x ax).trans ?_
  rw [show ((cfg0 a).win 5).index t = cc0_transform_6 (grid0.coords t) from rfl, (idx0_const t).2.2.2.2.2.1, vec00]
  omega
/-- So any contents of the array, read through the block, are the contents. -/
theorem rd0_5 (f : Vec F S1x1024 .f32) (t : Fin (cfg0 a).N) : (((cfg0 a).win 5).blk t).view.read (Elt F) f = f := by
  funext x
  exact congrArg f (emb0_5 a t x)
/-- Window 11's one block is its whole array: an element of the block sits in the array at its own coordinates. -/
theorem emb0_11 (t : Fin (cfg0 a).N) (x : S1x12.Idx) : (((cfg0 a).win 11).blk t).view.emb x = x := by
  refine funext fun (ax : Fin 2) => Fin.ext ?_
  refine (Window.rect_emb_val ((cfg0 a).win 11) t x ax).trans ?_
  rw [show ((cfg0 a).win 11).index t = cc0_transform_12 (grid0.coords t) from rfl, (idx0_const t).2.2.2.2.2.2, vec00]
  omega
/-- So any contents of the array, read through the block, are the contents. -/
theorem rd0_11 (f : Vec F S1x12 .f32) (t : Fin (cfg0 a).N) : (((cfg0 a).win 11).blk t).view.read (Elt F) f = f := by
  funext x
  exact congrArg f (emb0_11 a t x)
/-- The six whole inputs' blocks, at either point, are their arrays. -/
theorem iblk0_0 (c : Dev nD) (t : Fin (cfg0 a).N) : iblk0 V a c 0 t = V c main_v2 := rd0_0 a (V c main_v2) t
theorem iblk0_1 (c : Dev nD) (t : Fin (cfg0 a).N) : iblk0 V a c 1 t = V c main_arg3 := rd0_1 a (V c main_arg3) t
theorem iblk0_2 (c : Dev nD) (t : Fin (cfg0 a).N) : iblk0 V a c 2 t = V c main_arg5 := rd0_2 a (V c main_arg5) t
theorem iblk0_3 (c : Dev nD) (t : Fin (cfg0 a).N) : iblk0 V a c 3 t = V c main_v4 := rd0_3 a (V c main_v4) t
theorem iblk0_4 (c : Dev nD) (t : Fin (cfg0 a).N) : iblk0 V a c 4 t = V c main_arg7 := rd0_4 a (V c main_arg7) t
theorem iblk0_5 (c : Dev nD) (t : Fin (cfg0 a).N) : iblk0 V a c 5 t = V c main_v5 := rd0_5 a (V c main_v5) t

/-- The grid has two points. -/
theorem lt_N0 (t : Fin 2) : t.val < (cfg0 a).N := by rw [show (cfg0 a).N = 2 from N_0]; exact t.isLt

/-- Window 6's block at point `t` is rows `2048 t ‥ 2048 t + 2047` of its array: block row `r` is array row `2048 t + r`. -/
theorem emb0_6 (t : Fin 2) (r : Fin 2048) (k : Fin 1024) :
    (((cfg0 a).win 6).blk ⟨t.val, lt_N0 a t⟩).view.emb (ix2 r k) = ix2 ⟨2048 * t.val + r.val, by have := t.isLt; have := r.isLt; omega⟩ k := by
  refine funext fun (ax : Fin 2) => Fin.ext ?_
  refine (Window.rect_emb_val ((cfg0 a).win 6) _ (ix2 r k) ax).trans ?_
  rw [show ((cfg0 a).win 6).index ⟨t.val, lt_N0 a t⟩ = cc0_transform_7 (grid0.coords ⟨t.val, lt_N0 a t⟩) from rfl, (idx0_move _).1]
  match ax with
  | ⟨0, _⟩ => show t.val * 2048 + r.val = 2048 * t.val + r.val; omega
  | ⟨1, _⟩ => show 0 * 1024 + k.val = k.val; omega
/-- Window 7's block at point `t` is rows `2048 t ‥ 2048 t + 2047` of its array: block row `r` is array row `2048 t + r`. -/
theorem emb0_7 (t : Fin 2) (r : Fin 2048) (k : Fin 1024) :
    (((cfg0 a).win 7).blk ⟨t.val, lt_N0 a t⟩).view.emb (ix2 r k) = ix2 ⟨2048 * t.val + r.val, by have := t.isLt; have := r.isLt; omega⟩ k := by
  refine funext fun (ax : Fin 2) => Fin.ext ?_
  refine (Window.rect_emb_val ((cfg0 a).win 7) _ (ix2 r k) ax).trans ?_
  rw [show ((cfg0 a).win 7).index ⟨t.val, lt_N0 a t⟩ = cc0_transform_8 (grid0.coords ⟨t.val, lt_N0 a t⟩) from rfl, (idx0_move _).2.1]
  match ax with
  | ⟨0, _⟩ => show t.val * 2048 + r.val = 2048 * t.val + r.val; omega
  | ⟨1, _⟩ => show 0 * 1024 + k.val = k.val; omega
/-- Window 8's block at point `t` is lanes `2048 t ‥ 2048 t + 2047` of its array: block lane `l` is array lane `2048 t + l`. -/
theorem emb0_8 (t : Fin 2) (l : Fin 2048) :
    (((cfg0 a).win 8).blk ⟨t.val, lt_N0 a t⟩).view.emb (ix2 0 l) = ix2 0 ⟨2048 * t.val + l.val, by have := t.isLt; have := l.isLt; omega⟩ := by
  refine funext fun (ax : Fin 2) => Fin.ext ?_
  refine (Window.rect_emb_val ((cfg0 a).win 8) _ (ix2 0 l) ax).trans ?_
  rw [show ((cfg0 a).win 8).index ⟨t.val, lt_N0 a t⟩ = cc0_transform_9 (grid0.coords ⟨t.val, lt_N0 a t⟩) from rfl, (idx0_move _).2.2.1]
  match ax with
  | ⟨0, _⟩ => show 0 * 1 + 0 = 0; omega
  | ⟨1, _⟩ => show t.val * 2048 + l.val = 2048 * t.val + l.val; omega
/-- Window 9's block at point `t` is lanes `2048 t ‥ 2048 t + 2047` of its array: block lane `l` is array lane `2048 t + l`. -/
theorem emb0_9 (t : Fin 2) (l : Fin 2048) :
    (((cfg0 a).win 9).blk ⟨t.val, lt_N0 a t⟩).view.emb (ix2 0 l) = ix2 0 ⟨2048 * t.val + l.val, by have := t.isLt; have := l.isLt; omega⟩ := by
  refine funext fun (ax : Fin 2) => Fin.ext ?_
  refine (Window.rect_emb_val ((cfg0 a).win 9) _ (ix2 0 l) ax).trans ?_
  rw [show ((cfg0 a).win 9).index ⟨t.val, lt_N0 a t⟩ = cc0_transform_10 (grid0.coords ⟨t.val, lt_N0 a t⟩) from rfl, (idx0_move _).2.2.2.1]
  match ax with
  | ⟨0, _⟩ => show 0 * 1 + 0 = 0; omega
  | ⟨1, _⟩ => show t.val * 2048 + l.val = 2048 * t.val + l.val; omega
/-- Window 10's block at point `t` is lanes `2048 t ‥ 2048 t + 2047` of its array: block lane `l` is array lane `2048 t + l`. -/
theorem emb0_10 (t : Fin 2) (l : Fin 2048) :
    (((cfg0 a).win 10).blk ⟨t.val, lt_N0 a t⟩).view.emb (ix2 0 l) = ix2 0 ⟨2048 * t.val + l.val, by have := t.isLt; have := l.isLt; omega⟩ := by
  refine funext fun (ax : Fin 2) => Fin.ext ?_
  refine (Window.rect_emb_val ((cfg0 a).win 10) _ (ix2 0 l) ax).trans ?_
  rw [show ((cfg0 a).win 10).index ⟨t.val, lt_N0 a t⟩ = cc0_transform_11 (grid0.coords ⟨t.val, lt_N0 a t⟩) from rfl, (idx0_move _).2.2.2.2]
  match ax with
  | ⟨0, _⟩ => show 0 * 1 + 0 = 0; omega
  | ⟨1, _⟩ => show t.val * 2048 + l.val = 2048 * t.val + l.val; omega
/-- The halved inputs' blocks at point `t`, read at an element: the array's element 2048 t further along the halved axis. -/
theorem iblk0_6_apply (c : Dev nD) (t : Fin 2) (r : Fin 2048) (k : Fin 1024) :
    iblk0 V a c 6 ⟨t.val, lt_N0 a t⟩ (ix2 r k) = V c main_arg9 (ix2 ⟨2048 * t.val + r.val, by have := t.isLt; have := r.isLt; omega⟩ k) :=
  congrArg (V c main_arg9) (emb0_6 a t r k)
theorem iblk0_7_apply (c : Dev nD) (t : Fin 2) (r : Fin 2048) (k : Fin 1024) :
    iblk0 V a c 7 ⟨t.val, lt_N0 a t⟩ (ix2 r k) = V c main_arg10 (ix2 ⟨2048 * t.val + r.val, by have := t.isLt; have := r.isLt; omega⟩ k) :=
  congrArg (V c main_arg10) (emb0_7 a t r k)
theorem iblk0_8_apply (c : Dev nD) (t : Fin 2) (l : Fin 2048) :
    iblk0 V a c 8 ⟨t.val, lt_N0 a t⟩ (ix2 0 l) = V c main_v6 (ix2 0 ⟨2048 * t.val + l.val, by have := t.isLt; have := l.isLt; omega⟩) :=
  congrArg (V c main_v6) (emb0_8 a t l)
theorem iblk0_9_apply (c : Dev nD) (t : Fin 2) (l : Fin 2048) :
    iblk0 V a c 9 ⟨t.val, lt_N0 a t⟩ (ix2 0 l) = V c main_v7 (ix2 0 ⟨2048 * t.val + l.val, by have := t.isLt; have := l.isLt; omega⟩) :=
  congrArg (V c main_v7) (emb0_9 a t l)

/-! ## The two output arrays after the region -/

/-- The gates window's block index is the point: two points, two blocks. -/
theorem idx_inj10 : ∀ t t' : Fin (cfg0 a).N, ((cfg0 a).win 10).index t = ((cfg0 a).win 10).index t' → t = t' :=
  (by decide +kernel : ∀ t t' : Fin grid0.N, cc0_transform_11 (grid0.coords t) = cc0_transform_11 (grid0.coords t') → t = t')
/-- So the two halves the points write back share no lane. -/
theorem disjoint10 : ∀ t t' : Fin (cfg0 a).N, ((cfg0 a).win 10).flush t = true → ((cfg0 a).win 10).flush t' = true → t ≠ t' →
    Disjoint (((cfg0 a).win 10).blk t).view.set (((cfg0 a).win 10).blk t').view.set :=
  fun t t' _ _ hne => ((cfg0 a).win 10).disjoint_blk fun h => hne (idx_inj10 a t t' h)

/-- THE GATES ARRAY after the region: lane `2048 t + l` holds lane `l` of the half point `t` computed, from the
    embedding row, the six whole inputs and the point's halves of the two weight matrices and the two biases. -/
theorem final0_10 (c : Dev nD) (t : Fin 2) (l : Fin 2048) :
    (dat0 V a hchk c).arrAt 10 (cfg0 a).N (ix2 0 ⟨2048 * t.val + l.val, by have := t.isLt; have := l.isLt; omega⟩)
      = gates0 (F := F) (erow V a hchk c) (V c main_v2) (V c main_arg3) (V c main_arg5) (V c main_v4) (V c main_arg7) (V c main_v5)
          (iblk0 V a c 6 ⟨t.val, lt_N0 a t⟩) (iblk0 V a c 7 ⟨t.val, lt_N0 a t⟩) (iblk0 V a c 8 ⟨t.val, lt_N0 a t⟩) (iblk0 V a c 9 ⟨t.val, lt_N0 a t⟩) (ix2 0 l) := by
  rw [← emb0_10 a t l]
  refine ((dat0 V a hchk c).arrAt_emb_eq_flushed 10 (disjoint10 a) ⟨t.val, lt_N0 a t⟩ (flush0_10 a _) (ix2 0 l)).trans ?_
  show (dat0 V a hchk c).after 10 ⟨t.val, lt_N0 a t⟩ (ix2 0 l) = _
  rw [after0_10, iblk0_0, iblk0_1, iblk0_2, iblk0_3, iblk0_4, iblk0_5]

/-- THE ATTENTION ARRAY after the region: written back once, whole, after the last point — the attention weights of
    the embedding row, the hidden row, attn_W and attn_b. -/
theorem final0_11 (c : Dev nD) :
    (dat0 V a hchk c).arrAt 11 (cfg0 a).N = attn0 (F := F) (erow V a hchk c) (V c main_v2) (V c main_arg5) (V c main_v4) := by
  refine (dat0 V a hchk c).arrAt_eq_of_cover 11 _ (fun t _ => ?_) (fun i => ⟨⟨1, lt_N0 a 1⟩, ?_, ?_⟩)
  · show (dat0 V a hchk c).after 11 t = _
    rw [after0_11, iblk0_0, iblk0_2, iblk0_3, rd0_11]
  · rw [flush0_11]; rfl
  · have h := (((cfg0 a).win 11).blk ⟨1, lt_N0 a 1⟩).view.emb_mem_set i
    rw [show (((cfg0 a).win 11).blk ⟨1, lt_N0 a 1⟩).view.emb i = i from emb0_11 a _ i] at h
    exact h

end Cert.KernelIdeal.Hand

end
-- ==== Proof.KI.EmbRow.lean ====
/-
  The embedding row the body's copy fetches, read at an index.

  The row is read through a one-row slice of the whole table: the slice places its index (0, k) at
  (row offset + 0, column offset + k) of the table with unit strides, the row offset being the token word's value and
  the column offset 0; the whole table's placement is the identity; and the buffer's element type is the view's, so the
  read is the buffer's entry there.
-/
import proofs.«424451_j23149873725851_3_alg».proof.Proof.KI.Body0
import Idealize.ShloMosaic.Lib.ValueIdx

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The side condition the body assumes of the token word says the word's value is a row of the table. -/
theorem tok_lt (v0 : BitVec 32) (h : k0_chk1 v0) : v0.toNat < 50257 := Nat.lt_of_succ_le (h 0)

/-- The fetched row at column `k` is the table's entry at (the token word's value, `k`). -/
theorem embRow_apply (c : Dev nD) (fh : HbBuf (F := F) c embM) (v0 : BitVec 32) (h : k0_chk1 v0) (k : Fin 1024) :
    embRow c fh v0 h (ValueIdx.ix2 0 k) = fh (ValueIdx.ix2 ⟨v0.toNat, tok_lt v0 h⟩ k) := by
  unfold embRow
  rw [View.read_apply, cast_eq]
  refine congrArg fh ?_
  funext a
  match a with
  | ⟨0, _⟩ => exact Fin.ext (by show v0.toNat + 1 * 0 = v0.toNat; omega)
  | ⟨1, _⟩ => exact Fin.ext (by show 0 + 1 * k.val = k.val; omega)

end Cert.KernelIdeal.Hand

end
-- ==== Proof.KI.BridgeA.lean ====
/-
  The first half of the small-step body against the reference, at the exact reals: the embedding row, the attention
  weights and the combined input. With e the table's row for the token id and h the hidden row, both programs compute
  weights = softmax([e, h] · attn_Wᵀ + attn_b) and x = [e, weights · enc] · comb_Wᵀ + comb_b, then relu x. The kernel
  contracts the second axis of each weight matrix where the reference transposes the matrix and contracts its first;
  both softmaxes subtract the same row maximum and divide by the same row sum; the reference's gather of a row by a
  token id in range is that row.
-/
import proofs.«424451_j23149873725851_3_alg».proof.Proof.RefReadP
import proofs.«424451_j23149873725851_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx
open scoped BigOperators

variable {F : FTy → Type} [FloatOps F]

local notation "𝕄" => MT nD τ sig Unit (Elt F) ℕ (Pipeline.UD sig nD τ) ℕ

/-! ## The embedding row: a row take of the table

The reference takes row `id` of the table with a gather whose start index is one word: on the table's row axis the
operand index is that word read signed and clamped into the table's rows, on the column axis it is the result's
column. -/

/-- A rank-2 index with both extents one is the only one. -/
theorem idx11_eq (a b : S1x1.Idx) : a = b :=
  funext fun d => Fin.ext (by
    have a0 : (a 0).val < 1 := (a 0).isLt
    have b0 : (b 0).val < 1 := (b 0).isLt
    have a1 : (a 1).val < 1 := (a 1).isLt
    have b1 : (b 1).val < 1 := (b 1).isLt
    match d with
    | ⟨0, _⟩ => show (a 0).val = (b 0).val; omega
    | ⟨1, _⟩ => show (a 1).val = (b 1).val; omega)

/-- On the row axis the gather reads the start word, signed, clamped to the last row. -/
theorem gatherRow_axis0 (idx : IVec S1x1 32) (j : S1x1024.Idx) (i00 : S1x1.Idx) :
    (Cert.ReferenceIdeal.gather_S50257x1024_S1x1_S1x1024_1_0_n_n_0_1_11024.operandIdx j idx 0).val
      = min (idx i00).toInt.toNat 50256 := by
  show Cert.ReferenceIdeal.gather_S50257x1024_S1x1_S1x1024_1_0_n_n_0_1_11024.start j idx 0
      + Cert.ReferenceIdeal.gather_S50257x1024_S1x1_S1x1024_1_0_n_n_0_1_11024.batchCoord j 0
      + Cert.ReferenceIdeal.gather_S50257x1024_S1x1_S1x1024_1_0_n_n_0_1_11024.offCoord j 0 = _
  rw [GatherDims.batchCoord_eq_zero _ _ _ (by decide), GatherDims.offCoord_eq_zero _ _ _ (by decide)]
  simp only [Nat.add_zero]
  unfold GatherDims.start
  rw [dif_pos (show (0 : Fin Cert.ReferenceIdeal.S50257x1024.rank) ∈ Cert.ReferenceIdeal.gather_S50257x1024_S1x1_S1x1024_1_0_n_n_0_1_11024.startIndexMap by decide)]
  rw [idx11_eq (Cert.ReferenceIdeal.gather_S50257x1024_S1x1_S1x1024_1_0_n_n_0_1_11024.siIdx j _) i00]
  rfl

/-- On the column axis the gather reads the result's column. -/
theorem gatherRow_axis1 (idx : IVec S1x1 32) (j : S1x1024.Idx) :
    (Cert.ReferenceIdeal.gather_S50257x1024_S1x1_S1x1024_1_0_n_n_0_1_11024.operandIdx j idx 1).val = (j 1).val := by
  show Cert.ReferenceIdeal.gather_S50257x1024_S1x1_S1x1024_1_0_n_n_0_1_11024.start j idx 1
      + Cert.ReferenceIdeal.gather_S50257x1024_S1x1_S1x1024_1_0_n_n_0_1_11024.batchCoord j 1
      + Cert.ReferenceIdeal.gather_S50257x1024_S1x1_S1x1024_1_0_n_n_0_1_11024.offCoord j 1 = _
  rw [GatherDims.batchCoord_eq_zero _ _ _ (by decide)]
  unfold GatherDims.start
  rw [dif_neg (show ¬(1 : Fin Cert.ReferenceIdeal.S50257x1024.rank) ∈ Cert.ReferenceIdeal.gather_S50257x1024_S1x1_S1x1024_1_0_n_n_0_1_11024.startIndexMap by decide)]
  unfold GatherDims.offCoord
  rw [dif_pos (show (1 : Fin Cert.ReferenceIdeal.S50257x1024.rank) ∈ Cert.ReferenceIdeal.gather_S50257x1024_S1x1_S1x1024_1_0_n_n_0_1_11024.sKept by decide)]
  simp only [Nat.zero_add]
  rfl

/-- The row take read at column `k`: the table at the clamped start row and column `k`. -/
theorem gatherRow_apply {α : Type} (x : S50257x1024.Idx → α) (idx : IVec S1x1 32) (i00 : S1x1.Idx) (p : Fin 1) (k : Fin 1024) :
    Host.gather Cert.ReferenceIdeal.gather_S50257x1024_S1x1_S1x1024_1_0_n_n_0_1_11024 x idx (ix2 p k)
      = x (ix2 ⟨min (idx i00).toInt.toNat 50256, by omega⟩ k) := by
  unfold Host.gather
  refine congrArg x (funext fun a => Fin.ext ?_)
  match a with
  | ⟨0, _⟩ => exact gatherRow_axis0 idx (ix2 p k) i00
  | ⟨1, _⟩ => exact gatherRow_axis1 idx (ix2 p k)

/-- A 32-bit word read signed that lies in [0, 50257) is its unsigned reading. -/
theorem toNat_of_toInt_range {v : BitVec 32} (h : 0 ≤ v.toInt ∧ v.toInt < 50257) :
    v.toInt.toNat = v.toNat ∧ v.toNat < 50257 := by
  have hv : v.toNat < 4294967296 := v.isLt
  have hc := BitVec.toInt_eq_toNat_cond v
  split at hc <;> omega

theorem toNat_lt_of_toInt_range {v : BitVec 32} (h : 0 ≤ v.toInt ∧ v.toInt < 50257) : v.toNat < 50257 :=
  (toNat_of_toInt_range h).2

/-- The reference's start word: the id, 50257 added when it is negative; for an id in range, the id. -/
theorem startWord_of_range (x0 : IVec S1x1 32) (i00 : S1x1.Idx) (h : 0 ≤ (x0 i00).toInt ∧ (x0 i00).toInt < 50257)
    (i : S1x1.Idx) : Cert.ReferenceIdeal.ReadP.val_main_v6 (F := Ideal) x0 i = x0 i00 := by
  rw [Cert.ReferenceIdeal.ReadP.val_main_v6_apply, Cert.ReferenceIdeal.ReadP.val_main_v5_apply, Cert.ReferenceIdeal.ReadP.val_main_v2_apply, Cert.ReferenceIdeal.ReadP.val_main_v0_apply,
    Cert.ReferenceIdeal.ReadP.val_main_v1_apply, Cert.ReferenceIdeal.ReadP.val_main_c_apply, idx11_eq (Cert.ReferenceIdeal.ReadP.idx_main_v0 _) i00]
  have hs : IntOp.cmpi .slt (x0 i00) 0#32 = 0#1 := by
    show BitVec.ofBool ((x0 i00).slt 0#32) = 0#1
    have : (x0 i00).slt 0#32 = false := by
      rw [BitVec.slt]; simp only [BitVec.toInt_zero, decide_eq_false_iff_not, not_lt]; exact h.1
    rw [this]; rfl
  rw [hs, select_zero]

/-- THE EMBEDDING ROW: for a token id in range the reference's gathered row is the table's row `id`. -/
theorem gather_row (x0 : (⟨Cert.ReferenceIdeal.S1x1, .i32⟩ : BufTy).Contents (Elt Ideal))
    (x4 : (⟨Cert.ReferenceIdeal.S50257x1024, .f32⟩ : BufTy).Contents (Elt Ideal))
    (i00 : Cert.ReferenceIdeal.S1x1.Idx) (h : 0 ≤ (x0 i00).toInt ∧ (x0 i00).toInt < 50257) (k : Fin 1024) :
    Cert.ReferenceIdeal.ReadP.val_main_v7 (F := Ideal) x0 x4 (ix2 0 k) = x4 (ix2 ⟨(x0 i00).toNat, toNat_lt_of_toInt_range h⟩ k) := by
  unfold Cert.ReferenceIdeal.ReadP.val_main_v7
  rw [gatherRow_apply x4 _ i00 0 k]
  refine congrArg x4 (congrArg (fun r => ix2 r k) (Fin.ext ?_))
  show min (Cert.ReferenceIdeal.ReadP.val_main_v6 (F := Ideal) x0 i00).toInt.toNat 50256 = (x0 i00).toNat
  rw [startWord_of_range x0 i00 h i00, (toNat_of_toInt_range h).1]
  have := (toNat_of_toInt_range h).2
  omega

/-! ## The body's three products read at an index

Each is a contraction over one axis into a zero accumulator: the sum over that axis of the operands' products. The
attention logits and the combined input contract the second axis of both operands (the weight matrix is used
transposed); the context row contracts the weights' lane axis with the encoder outputs' row axis. -/

theorem lhs_logit_0 (i : S1x12.Idx) (q : dot_S1x2048_S12x2048_S1x12_1_1_0_0_n_n.contr.Idx) :
    (dot_S1x2048_S12x2048_S1x12_1_1_0_0_n_n.lhsIdx i q 0).val = (i 0).val := by
  unfold DotDims.lhsIdx
  rw [dif_neg (show ¬(0 : Fin S1x2048.rank) ∈ dot_S1x2048_S12x2048_S1x12_1_1_0_0_n_n.lhsBatch by decide), dif_pos (show (0 : Fin S1x2048.rank) ∈ dot_S1x2048_S12x2048_S1x12_1_1_0_0_n_n.lhsNonContracting by decide)]
  rfl
theorem lhs_logit_1 (i : S1x12.Idx) (q : dot_S1x2048_S12x2048_S1x12_1_1_0_0_n_n.contr.Idx) :
    (dot_S1x2048_S12x2048_S1x12_1_1_0_0_n_n.lhsIdx i q 1).val = (q ⟨0, by decide⟩).val :=
  dot_S1x2048_S12x2048_S1x12_1_1_0_0_n_n.lhsIdx_val_of_single rfl i q
theorem rhs_logit_0 (i : S1x12.Idx) (q : dot_S1x2048_S12x2048_S1x12_1_1_0_0_n_n.contr.Idx) :
    (dot_S1x2048_S12x2048_S1x12_1_1_0_0_n_n.rhsIdx i q 0).val = (i 1).val := by
  unfold DotDims.rhsIdx
  rw [dif_neg (show ¬(0 : Fin S12x2048.rank) ∈ dot_S1x2048_S12x2048_S1x12_1_1_0_0_n_n.rhsBatch by decide), dif_pos (show (0 : Fin S12x2048.rank) ∈ dot_S1x2048_S12x2048_S1x12_1_1_0_0_n_n.rhsNonContracting by decide)]
  rfl
theorem rhs_logit_1 (i : S1x12.Idx) (q : dot_S1x2048_S12x2048_S1x12_1_1_0_0_n_n.contr.Idx) :
    (dot_S1x2048_S12x2048_S1x12_1_1_0_0_n_n.rhsIdx i q 1).val = (q ⟨0, by decide⟩).val :=
  dot_S1x2048_S12x2048_S1x12_1_1_0_0_n_n.rhsIdx_val_of_single rfl i q

/-- The logits' product at (p, q): the sum over k of l (p, k) · r (q, k). -/
theorem matmul_logit_apply (l : FVec Ideal S1x2048 .f32) (r : FVec Ideal S12x2048 .f32) (p : Fin 1) (q : Fin 12) :
    matmul dot_S1x2048_S12x2048_S1x12_1_1_0_0_n_n none l r (constant (F := Ideal) S1x12 .f32 0x00000000#32) (ix2 p q)
      = ∑ k : Fin 2048, l (ix2 p k) * r (ix2 q k) := by
  simp only [matmul]
  rw [Ideal.matmul_constant_zero_apply, ← Equiv.sum_comp (contrEquiv1 dot_S1x2048_S12x2048_S1x12_1_1_0_0_n_n 2048 rfl rfl).symm]
  refine Finset.sum_congr rfl fun k _ => ?_
  have hk := contrEquiv1_symm_val dot_S1x2048_S12x2048_S1x12_1_1_0_0_n_n 2048 rfl rfl k
  have el : dot_S1x2048_S12x2048_S1x12_1_1_0_0_n_n.lhsIdx (ix2 p q) ((contrEquiv1 dot_S1x2048_S12x2048_S1x12_1_1_0_0_n_n 2048 rfl rfl).symm k) = ix2 p k := funext fun a => Fin.ext (by
    match a with
    | ⟨0, _⟩ => exact lhs_logit_0 _ _
    | ⟨1, _⟩ => exact (lhs_logit_1 _ _).trans hk)
  have er : dot_S1x2048_S12x2048_S1x12_1_1_0_0_n_n.rhsIdx (ix2 p q) ((contrEquiv1 dot_S1x2048_S12x2048_S1x12_1_1_0_0_n_n 2048 rfl rfl).symm k) = ix2 q k := funext fun a => Fin.ext (by
    match a with
    | ⟨0, _⟩ => exact rhs_logit_0 _ _
    | ⟨1, _⟩ => exact (rhs_logit_1 _ _).trans hk)
  rw [el, er]

theorem lhs_ctx_0 (i : S1x1024.Idx) (q : dot_S1x12_S12x1024_S1x1024_1_0_0_1_n_n.contr.Idx) :
    (dot_S1x12_S12x1024_S1x1024_1_0_0_1_n_n.lhsIdx i q 0).val = (i 0).val := by
  unfold DotDims.lhsIdx
  rw [dif_neg (show ¬(0 : Fin S1x12.rank) ∈ dot_S1x12_S12x1024_S1x1024_1_0_0_1_n_n.lhsBatch by decide), dif_pos (show (0 : Fin S1x12.rank) ∈ dot_S1x12_S12x1024_S1x1024_1_0_0_1_n_n.lhsNonContracting by decide)]
  rfl
theorem lhs_ctx_1 (i : S1x1024.Idx) (q : dot_S1x12_S12x1024_S1x1024_1_0_0_1_n_n.contr.Idx) :
    (dot_S1x12_S12x1024_S1x1024_1_0_0_1_n_n.lhsIdx i q 1).val = (q ⟨0, by decide⟩).val :=
  dot_S1x12_S12x1024_S1x1024_1_0_0_1_n_n.lhsIdx_val_of_single rfl i q
theorem rhs_ctx_0 (i : S1x1024.Idx) (q : dot_S1x12_S12x1024_S1x1024_1_0_0_1_n_n.contr.Idx) :
    (dot_S1x12_S12x1024_S1x1024_1_0_0_1_n_n.rhsIdx i q 0).val = (q ⟨0, by decide⟩).val :=
  dot_S1x12_S12x1024_S1x1024_1_0_0_1_n_n.rhsIdx_val_of_single rfl i q
theorem rhs_ctx_1 (i : S1x1024.Idx) (q : dot_S1x12_S12x1024_S1x1024_1_0_0_1_n_n.contr.Idx) :
    (dot_S1x12_S12x1024_S1x1024_1_0_0_1_n_n.rhsIdx i q 1).val = (i 1).val := by
  unfold DotDims.rhsIdx
  rw [dif_neg (show ¬(1 : Fin S12x1024.rank) ∈ dot_S1x12_S12x1024_S1x1024_1_0_0_1_n_n.rhsBatch by decide), dif_pos (show (1 : Fin S12x1024.rank) ∈ dot_S1x12_S12x1024_S1x1024_1_0_0_1_n_n.rhsNonContracting by decide)]
  rfl

/-- The context row's product at (p, q): the sum over k of l (p, k) · r (k, q). -/
theorem matmul_ctx_apply (l : FVec Ideal S1x12 .f32) (r : FVec Ideal S12x1024 .f32) (p : Fin 1) (q : Fin 1024) :
    matmul dot_S1x12_S12x1024_S1x1024_1_0_0_1_n_n none l r (constant (F := Ideal) S1x1024 .f32 0x00000000#32) (ix2 p q)
      = ∑ k : Fin 12, l (ix2 p k) * r (ix2 k q) := by
  simp only [matmul]
  rw [Ideal.matmul_constant_zero_apply, ← Equiv.sum_comp (contrEquiv1 dot_S1x12_S12x1024_S1x1024_1_0_0_1_n_n 12 rfl rfl).symm]
  refine Finset.sum_congr rfl fun k _ => ?_
  have hk := contrEquiv1_symm_val dot_S1x12_S12x1024_S1x1024_1_0_0_1_n_n 12 rfl rfl k
  have el : dot_S1x12_S12x1024_S1x1024_1_0_0_1_n_n.lhsIdx (ix2 p q) ((contrEquiv1 dot_S1x12_S12x1024_S1x1024_1_0_0_1_n_n 12 rfl rfl).symm k) = ix2 p k := funext fun a => Fin.ext (by
    match a with
    | ⟨0, _⟩ => exact lhs_ctx_0 _ _
    | ⟨1, _⟩ => exact (lhs_ctx_1 _ _).trans hk)
  have er : dot_S1x12_S12x1024_S1x1024_1_0_0_1_n_n.rhsIdx (ix2 p q) ((contrEquiv1 dot_S1x12_S12x1024_S1x1024_1_0_0_1_n_n 12 rfl rfl).symm k) = ix2 k q := funext fun a => Fin.ext (by
    match a with
    | ⟨0, _⟩ => exact (rhs_ctx_0 _ _).trans hk
    | ⟨1, _⟩ => exact rhs_ctx_1 _ _)
  rw [el, er]

theorem lhs_comb_0 (i : S1x1024.Idx) (q : dot_S1x2048_S1024x2048_S1x1024_1_1_0_0_n_n.contr.Idx) :
    (dot_S1x2048_S1024x2048_S1x1024_1_1_0_0_n_n.lhsIdx i q 0).val = (i 0).val := by
  unfold DotDims.lhsIdx
  rw [dif_neg (show ¬(0 : Fin S1x2048.rank) ∈ dot_S1x2048_S1024x2048_S1x1024_1_1_0_0_n_n.lhsBatch by decide), dif_pos (show (0 : Fin S1x2048.rank) ∈ dot_S1x2048_S1024x2048_S1x1024_1_1_0_0_n_n.lhsNonContracting by decide)]
  rfl
theorem lhs_comb_1 (i : S1x1024.Idx) (q : dot_S1x2048_S1024x2048_S1x1024_1_1_0_0_n_n.contr.Idx) :
    (dot_S1x2048_S1024x2048_S1x1024_1_1_0_0_n_n.lhsIdx i q 1).val = (q ⟨0, by decide⟩).val :=
  dot_S1x2048_S1024x2048_S1x1024_1_1_0_0_n_n.lhsIdx_val_of_single rfl i q
theorem rhs_comb_0 (i : S1x1024.Idx) (q : dot_S1x2048_S1024x2048_S1x1024_1_1_0_0_n_n.contr.Idx) :
    (dot_S1x2048_S1024x2048_S1x1024_1_1_0_0_n_n.rhsIdx i q 0).val = (i 1).val := by
  unfold DotDims.rhsIdx
  rw [dif_neg (show ¬(0 : Fin S1024x2048.rank) ∈ dot_S1x2048_S1024x2048_S1x1024_1_1_0_0_n_n.rhsBatch by decide), dif_pos (show (0 : Fin S1024x2048.rank) ∈ dot_S1x2048_S1024x2048_S1x1024_1_1_0_0_n_n.rhsNonContracting by decide)]
  rfl
theorem rhs_comb_1 (i : S1x1024.Idx) (q : dot_S1x2048_S1024x2048_S1x1024_1_1_0_0_n_n.contr.Idx) :
    (dot_S1x2048_S1024x2048_S1x1024_1_1_0_0_n_n.rhsIdx i q 1).val = (q ⟨0, by decide⟩).val :=
  dot_S1x2048_S1024x2048_S1x1024_1_1_0_0_n_n.rhsIdx_val_of_single rfl i q

/-- The combined input's product at (p, q): the sum over k of l (p, k) · r (q, k). -/
theorem matmul_comb_apply (l : FVec Ideal S1x2048 .f32) (r : FVec Ideal S1024x2048 .f32) (p : Fin 1) (q : Fin 1024) :
    matmul dot_S1x2048_S1024x2048_S1x1024_1_1_0_0_n_n none l r (constant (F := Ideal) S1x1024 .f32 0x00000000#32) (ix2 p q)
      = ∑ k : Fin 2048, l (ix2 p k) * r (ix2 q k) := by
  simp only [matmul]
  rw [Ideal.matmul_constant_zero_apply, ← Equiv.sum_comp (contrEquiv1 dot_S1x2048_S1024x2048_S1x1024_1_1_0_0_n_n 2048 rfl rfl).symm]
  refine Finset.sum_congr rfl fun k _ => ?_
  have hk := contrEquiv1_symm_val dot_S1x2048_S1024x2048_S1x1024_1_1_0_0_n_n 2048 rfl rfl k
  have el : dot_S1x2048_S1024x2048_S1x1024_1_1_0_0_n_n.lhsIdx (ix2 p q) ((contrEquiv1 dot_S1x2048_S1024x2048_S1x1024_1_1_0_0_n_n 2048 rfl rfl).symm k) = ix2 p k := funext fun a => Fin.ext (by
    match a with
    | ⟨0, _⟩ => exact lhs_comb_0 _ _
    | ⟨1, _⟩ => exact (lhs_comb_1 _ _).trans hk)
  have er : dot_S1x2048_S1024x2048_S1x1024_1_1_0_0_n_n.rhsIdx (ix2 p q) ((contrEquiv1 dot_S1x2048_S1024x2048_S1x1024_1_1_0_0_n_n 2048 rfl rfl).symm k) = ix2 q k := funext fun a => Fin.ext (by
    match a with
    | ⟨0, _⟩ => exact rhs_comb_0 _ _
    | ⟨1, _⟩ => exact (rhs_comb_1 _ _).trans hk)
  rw [el, er]

/-! ## The attention logits

Both programs join the embedding row and the hidden row along the lane axis and multiply by attn_W transposed; the
kernel's bias is the reference's bias vector as a one-row matrix. -/

/-- The kernel's logits from the embedding row, the hidden row, attn_W and the bias row, as the body spells them. -/
def logitsK (e hr : FVec Ideal S1x1024 .f32) (w : FVec Ideal S12x2048 .f32) (b : FVec Ideal S1x12 .f32) : FVec Ideal S1x12 .f32 :=
  addf (matmul dot_S1x2048_S12x2048_S1x12_1_1_0_0_n_n none
      (concatenate S1x2048 1 [⟨S1x1024, e⟩, ⟨S1x1024, k0_pay2 hr⟩] concatenates_S1x1024_S1x1024_S1x2048_d1) w
      (constant (F := Ideal) S1x12 .f32 0x00000000#32))
    (shapeCast S1x12 b shapeCasts_S1x12_S1x12)

/-- The joined row [e, h] is the same vector in both programs. -/
theorem joined_eq (x0 : (⟨Cert.ReferenceIdeal.S1x1, .i32⟩ : BufTy).Contents (Elt Ideal))
    (x1 : (⟨Cert.ReferenceIdeal.S1x1x1024, .f32⟩ : BufTy).Contents (Elt Ideal))
    (x4 : (⟨Cert.ReferenceIdeal.S50257x1024, .f32⟩ : BufTy).Contents (Elt Ideal)) :
    concatenate S1x2048 1 [⟨S1x1024, Cert.ReferenceIdeal.ReadP.val_main_v7 (F := Ideal) x0 x4⟩,
        ⟨S1x1024, k0_pay2 (F := Ideal) (shapeCast S1x1024 x1 shapeCasts_S1x1x1024_S1x1024)⟩] concatenates_S1x1024_S1x1024_S1x2048_d1
      = Cert.ReferenceIdeal.ReadP.val_main_v10 (F := Ideal) x0 x1 x4 := by
  unfold k0_pay2
  rw [shapeCast_self]
  rfl

theorem attn_logits_eq (x0 : (⟨Cert.ReferenceIdeal.S1x1, .i32⟩ : BufTy).Contents (Elt Ideal))
    (x1 : (⟨Cert.ReferenceIdeal.S1x1x1024, .f32⟩ : BufTy).Contents (Elt Ideal))
    (x4 : (⟨Cert.ReferenceIdeal.S50257x1024, .f32⟩ : BufTy).Contents (Elt Ideal))
    (x5 : (⟨Cert.ReferenceIdeal.S12x2048, .f32⟩ : BufTy).Contents (Elt Ideal))
    (x6 : (⟨Cert.ReferenceIdeal.S12, .f32⟩ : BufTy).Contents (Elt Ideal)) :
    logitsK (Cert.ReferenceIdeal.ReadP.val_main_v7 (F := Ideal) x0 x4) (shapeCast S1x1024 x1 shapeCasts_S1x1x1024_S1x1024) x5
        (shapeCast S1x12 x6 shapeCasts_S12_S1x12)
      = Cert.ReferenceIdeal.ReadP.val_main_v14 (F := Ideal) x0 x1 x4 x5 x6 := by
  unfold logitsK
  rw [joined_eq]
  funext i
  obtain ⟨p, q, rfl⟩ : ∃ (p : Fin 1) (q : Fin 12), i = ix2 p q := ⟨i 0, i 1, eq_ix2 i⟩
  rw [addf_apply, matmul_logit_apply, shapeCast_self, shapeCast_a_1a_apply,
    Cert.ReferenceIdeal.ReadP.val_main_v14_apply, Cert.ReferenceIdeal.ReadP.val_main_v12_apply, Cert.ReferenceIdeal.ReadP.val_main_v13_apply]
  refine congrArg₂ (· + ·) (Finset.sum_congr rfl fun k _ => ?_) (congrArg x6 ?_)
  · rw [Cert.ReferenceIdeal.ReadP.val_main_v11_apply]
    refine congrArg₂ (· * ·) (congrArg _ ?_) (congrArg x5 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-! ## The softmax of a logits row

Both programs subtract the row's maximum (taken from −∞), exponentiate, and divide by the row's sum (taken from 0).
The maximum and the sum are carried as the same fold and the same sum over the row's twelve lanes on both sides;
neither is evaluated. -/

/-- The kernel's row maximum, broadcast back over the row. -/
def rowMaxK (l : FVec Ideal S1x12 .f32) : FVec Ideal S1x12 .f32 :=
  broadcastTo S1x12 (shapeCast S1x1
    (maximumf (broadcast S1 (Scalar.ofBits (F := Ideal) .f32 0xFF800000#32))
      (multiReduction (F := Ideal) .maximumf [1] S1 l 0xFF800000#32 reduces_S1x12_S1 (.inl rfl) rfl))
    shapeCasts_S1_S1x1) broadcasts_S1x1_S1x12
/-- The kernel's row sum, broadcast back over the row. -/
def rowSumK (e : FVec Ideal S1x12 .f32) : FVec Ideal S1x12 .f32 :=
  broadcastTo S1x12 (shapeCast S1x1
    (multiReduction (F := Ideal) .add [1] S1 e 0x00000000#32 reduces_S1x12_S1 (.inl rfl) rfl)
    shapeCasts_S1_S1x1) broadcasts_S1x1_S1x12
/-- The kernel's softmax of a logits row. -/
def softK (l : FVec Ideal S1x12 .f32) : FVec Ideal S1x12 .f32 :=
  divf (exp (subf l (rowMaxK l))) (rowSumK (exp (subf l (rowMaxK l))))

/-- The reference's row maximum, broadcast back over the row. -/
def rowMaxR (l : FVec Ideal S1x12 .f32) : FVec Ideal S1x12 .f32 :=
  broadcastInDim S1x12 ![0, 1] Cert.ReferenceIdeal.Gen.bcast_S1x1_S1x12_0_1 (broadcastInDim S1x1 ![0] Cert.ReferenceIdeal.Gen.bcast_S1_S1x1_0
    (maximumf (broadcastInDim S1 ![] Cert.ReferenceIdeal.Gen.bcast_S_S1 (constant (F := Ideal) S_ .f32 0xFF800000#32))
      (Host.reduce (FloatOps.maximumf (F := Ideal)) l (constant (F := Ideal) S_ .f32 0xFF800000#32) Cert.ReferenceIdeal.Gen.reducesTo_S1x12_S1_d1 Cert.ReferenceIdeal.Gen.h_S_)))
/-- The reference's row sum, broadcast back over the row. -/
def rowSumR (e : FVec Ideal S1x12 .f32) : FVec Ideal S1x12 .f32 :=
  broadcastInDim S1x12 ![0, 1] Cert.ReferenceIdeal.Gen.bcast_S1x1_S1x12_0_1 (broadcastInDim S1x1 ![0] Cert.ReferenceIdeal.Gen.bcast_S1_S1x1_0
    (Host.reduceAdd (F := Ideal) e (constant (F := Ideal) S_ .f32 0x00000000#32) Cert.ReferenceIdeal.Gen.reducesTo_S1x12_S1_d1 Cert.ReferenceIdeal.Gen.h_S_))
/-- The reference's softmax of a logits row. -/
def softR (l : FVec Ideal S1x12 .f32) : FVec Ideal S1x12 .f32 :=
  Host.divf (F := Ideal) (Host.exp (F := Ideal) (subf l (rowMaxR l))) (rowSumR (Host.exp (F := Ideal) (subf l (rowMaxR l))))

/-- The one index of the reduced row. -/
abbrev attnRow0 : S1.Idx := ix1 (0 : Fin 1)

/-- The kernel's row maximum at any lane: the larger of −∞ and the fold of max over the row. -/
theorem rowMaxK_apply (l : FVec Ideal S1x12 .f32) (p : Fin 1) (q : Fin 12) :
    rowMaxK l (ix2 p q) = max (Ideal.ofBits .f32 0xFF800000#32)
      ((Finset.univ : Finset (Fin (S1x12.size 1))).fold max (Ideal.ofBits .f32 0xFF800000#32) (l ∘ reduces_S1x12_S1.lift attnRow0)) := by
  unfold rowMaxK
  rw [broadcastTo_apply _ broadcasts_S1x1_S1x12 (ix2 p q) (ix2 (0 : Fin 1) (0 : Fin 1)) (fun a => by
      match a with
      | ⟨0, _⟩ => rfl
      | ⟨1, _⟩ => rfl),
    shapeCast_a_1a_apply, maximumf_apply, broadcast_apply]
  exact congrArg (max _) (Ideal.multiReduction_maximumf_single l _ reduces_S1x12_S1 _ _ attnRow0)

/-- The reference's row maximum at any lane: the same. -/
theorem rowMaxR_apply (l : FVec Ideal S1x12 .f32) (p : Fin 1) (q : Fin 12) :
    rowMaxR l (ix2 p q) = max (Ideal.ofBits .f32 0xFF800000#32)
      ((Finset.univ : Finset (Fin (S1x12.size 1))).fold max (Ideal.ofBits .f32 0xFF800000#32) (l ∘ reduces_S1x12_S1.lift attnRow0)) := by
  unfold rowMaxR
  rw [broadcastInDim_apply _ Cert.ReferenceIdeal.Gen.bcast_S1x1_S1x12_0_1 _ (ix2 p q) (ix2 (0 : Fin 1) (0 : Fin 1)) (fun a => by
      match a with
      | ⟨0, _⟩ => rfl
      | ⟨1, _⟩ => rfl),
    broadcastInDim_apply _ Cert.ReferenceIdeal.Gen.bcast_S1_S1x1_0 _ (ix2 (0 : Fin 1) (0 : Fin 1)) attnRow0 (fun a => by
      match a with
      | ⟨0, _⟩ => rfl),
    maximumf_apply,
    broadcastInDim_apply _ Cert.ReferenceIdeal.Gen.bcast_S_S1 _ attnRow0 Idealize.ShloMosaic.ValueIdx.ix0 (fun a => a.elim0)]
  exact congrArg (max _) (Host.reduce_eq_fold_single (FloatOps.maximumf (F := Ideal)) l _ Cert.ReferenceIdeal.Gen.reducesTo_S1x12_S1_d1 reduces_S1x12_S1 Cert.ReferenceIdeal.Gen.h_S_ attnRow0)

theorem rowMax_eq (l : FVec Ideal S1x12 .f32) : rowMaxK l = rowMaxR l := by
  funext i
  obtain ⟨p, q, rfl⟩ : ∃ (p : Fin 1) (q : Fin 12), i = ix2 p q := ⟨i 0, i 1, eq_ix2 i⟩
  rw [rowMaxK_apply, rowMaxR_apply]

/-- The kernel's row sum at any lane: the sum over the row. -/
theorem rowSumK_apply (e : FVec Ideal S1x12 .f32) (p : Fin 1) (q : Fin 12) :
    rowSumK e (ix2 p q) = ∑ k : Fin (S1x12.size 1), e (reduces_S1x12_S1.lift attnRow0 k) := by
  unfold rowSumK
  rw [broadcastTo_apply _ broadcasts_S1x1_S1x12 (ix2 p q) (ix2 (0 : Fin 1) (0 : Fin 1)) (fun a => by
      match a with
      | ⟨0, _⟩ => rfl
      | ⟨1, _⟩ => rfl),
    shapeCast_a_1a_apply]
  exact Ideal.multiReduction_add_single e _ reduces_S1x12_S1 _ _ attnRow0

/-- The reference's row sum at any lane: the same. -/
theorem rowSumR_apply (e : FVec Ideal S1x12 .f32) (p : Fin 1) (q : Fin 12) :
    rowSumR e (ix2 p q) = ∑ k : Fin (S1x12.size 1), e (reduces_S1x12_S1.lift attnRow0 k) := by
  unfold rowSumR
  rw [broadcastInDim_apply _ Cert.ReferenceIdeal.Gen.bcast_S1x1_S1x12_0_1 _ (ix2 p q) (ix2 (0 : Fin 1) (0 : Fin 1)) (fun a => by
      match a with
      | ⟨0, _⟩ => rfl
      | ⟨1, _⟩ => rfl),
    broadcastInDim_apply _ Cert.ReferenceIdeal.Gen.bcast_S1_S1x1_0 _ (ix2 (0 : Fin 1) (0 : Fin 1)) attnRow0 (fun a => by
      match a with
      | ⟨0, _⟩ => rfl)]
  simp only [Host.reduceAdd, Ideal.hostReduceAdd_def]
  rw [Ideal.hostReduceAdd_single Cert.ReferenceIdeal.Gen.reducesTo_S1x12_S1_d1 reduces_S1x12_S1]
  show Ideal.ofBits .f32 0x00000000#32 + _ = _
  rw [Ideal.ofBits_zero_f32, zero_add]

theorem rowSum_eq (e : FVec Ideal S1x12 .f32) : rowSumK e = rowSumR e := by
  funext i
  obtain ⟨p, q, rfl⟩ : ∃ (p : Fin 1) (q : Fin 12), i = ix2 p q := ⟨i 0, i 1, eq_ix2 i⟩
  rw [rowSumK_apply, rowSumR_apply]

/-- The two softmaxes are one function of the logits row. -/
theorem soft_eq (l : FVec Ideal S1x12 .f32) : softK l = softR l := by
  unfold softK softR
  rw [rowMax_eq, rowSum_eq]
  rfl

/-- THE ATTENTION WEIGHTS: the body's weights from the reference's gathered row, the hidden row, attn_W and the bias as
    a one-row matrix are the reference's softmax. -/
theorem attn_eq (x0 : (⟨Cert.ReferenceIdeal.S1x1, .i32⟩ : BufTy).Contents (Elt Ideal))
    (x1 : (⟨Cert.ReferenceIdeal.S1x1x1024, .f32⟩ : BufTy).Contents (Elt Ideal))
    (x4 : (⟨Cert.ReferenceIdeal.S50257x1024, .f32⟩ : BufTy).Contents (Elt Ideal))
    (x5 : (⟨Cert.ReferenceIdeal.S12x2048, .f32⟩ : BufTy).Contents (Elt Ideal))
    (x6 : (⟨Cert.ReferenceIdeal.S12, .f32⟩ : BufTy).Contents (Elt Ideal)) :
    k0_pay3 (F := Ideal) (Cert.ReferenceIdeal.ReadP.val_main_v7 (F := Ideal) x0 x4) (shapeCast S1x1024 x1 shapeCasts_S1x1x1024_S1x1024) x5
        (shapeCast S1x12 x6 shapeCasts_S12_S1x12)
      = Cert.ReferenceIdeal.ReadP.val_main_v25 (F := Ideal) x0 x1 x4 x5 x6 := by
  have hK : k0_pay3 (F := Ideal) (Cert.ReferenceIdeal.ReadP.val_main_v7 (F := Ideal) x0 x4) (shapeCast S1x1024 x1 shapeCasts_S1x1x1024_S1x1024) x5
        (shapeCast S1x12 x6 shapeCasts_S12_S1x12)
      = softK (logitsK (Cert.ReferenceIdeal.ReadP.val_main_v7 (F := Ideal) x0 x4) (shapeCast S1x1024 x1 shapeCasts_S1x1x1024_S1x1024) x5
        (shapeCast S1x12 x6 shapeCasts_S12_S1x12)) := rfl
  have hR : Cert.ReferenceIdeal.ReadP.val_main_v25 (F := Ideal) x0 x1 x4 x5 x6 = softR (Cert.ReferenceIdeal.ReadP.val_main_v14 (F := Ideal) x0 x1 x4 x5 x6) := rfl
  rw [hK, hR, attn_logits_eq, soft_eq]

/-! ## The combined input

The context row weights · enc is the same sum of twelve products in both programs once the weights agree; the joined
row [e, context] times comb_W transposed plus the bias row is then the same sum of 2048 products. -/

/-- The context row: the kernel's product of its weights with the encoder outputs is the reference's. -/
theorem ctx_eq (x0 : (⟨Cert.ReferenceIdeal.S1x1, .i32⟩ : BufTy).Contents (Elt Ideal))
    (x1 : (⟨Cert.ReferenceIdeal.S1x1x1024, .f32⟩ : BufTy).Contents (Elt Ideal))
    (x3 : (⟨Cert.ReferenceIdeal.S12x1024, .f32⟩ : BufTy).Contents (Elt Ideal))
    (x4 : (⟨Cert.ReferenceIdeal.S50257x1024, .f32⟩ : BufTy).Contents (Elt Ideal))
    (x5 : (⟨Cert.ReferenceIdeal.S12x2048, .f32⟩ : BufTy).Contents (Elt Ideal))
    (x6 : (⟨Cert.ReferenceIdeal.S12, .f32⟩ : BufTy).Contents (Elt Ideal)) :
    matmul (φ₁ := .f32) (φ₂ := .f32) dot_S1x12_S12x1024_S1x1024_1_0_0_1_n_n none
        (k0_pay3 (F := Ideal) (Cert.ReferenceIdeal.ReadP.val_main_v7 (F := Ideal) x0 x4) (shapeCast S1x1024 x1 shapeCasts_S1x1x1024_S1x1024) x5
          (shapeCast S1x12 x6 shapeCasts_S12_S1x12))
        x3 (constant (F := Ideal) S1x1024 .f32 0x00000000#32)
      = Cert.ReferenceIdeal.ReadP.val_main_v26 (F := Ideal) x0 x1 x3 x4 x5 x6 := by
  rw [attn_eq]
  funext i
  obtain ⟨p, q, rfl⟩ : ∃ (p : Fin 1) (q : Fin 1024), i = ix2 p q := ⟨i 0, i 1, eq_ix2 i⟩
  rw [matmul_ctx_apply, Cert.ReferenceIdeal.ReadP.val_main_v26_apply]
  refine Finset.sum_congr rfl fun k _ => ?_
  refine congrArg₂ (· * ·) (congrArg _ ?_) (congrArg x3 ?_)
  · exact funext fun a => by match a with | ⟨0, _⟩ => rfl | ⟨1, _⟩ => rfl
  · exact funext fun a => by match a with | ⟨0, _⟩ => rfl | ⟨1, _⟩ => rfl

/-- THE COMBINED INPUT: the body's x from the reference's gathered row, the hidden row, attn_W, the attention bias row,
    the encoder outputs, comb_W and the bias as a one-row matrix is the reference's. -/
theorem xcomb_eq (x0 : (⟨Cert.ReferenceIdeal.S1x1, .i32⟩ : BufTy).Contents (Elt Ideal))
    (x1 : (⟨Cert.ReferenceIdeal.S1x1x1024, .f32⟩ : BufTy).Contents (Elt Ideal))
    (x3 : (⟨Cert.ReferenceIdeal.S12x1024, .f32⟩ : BufTy).Contents (Elt Ideal))
    (x4 : (⟨Cert.ReferenceIdeal.S50257x1024, .f32⟩ : BufTy).Contents (Elt Ideal))
    (x5 : (⟨Cert.ReferenceIdeal.S12x2048, .f32⟩ : BufTy).Contents (Elt Ideal))
    (x6 : (⟨Cert.ReferenceIdeal.S12, .f32⟩ : BufTy).Contents (Elt Ideal))
    (x7 : (⟨Cert.ReferenceIdeal.S1024x2048, .f32⟩ : BufTy).Contents (Elt Ideal))
    (x8 : (⟨Cert.ReferenceIdeal.S1024, .f32⟩ : BufTy).Contents (Elt Ideal)) :
    k0_pay4 (F := Ideal) (Cert.ReferenceIdeal.ReadP.val_main_v7 (F := Ideal) x0 x4) (shapeCast S1x1024 x1 shapeCasts_S1x1x1024_S1x1024) x5
        (shapeCast S1x12 x6 shapeCasts_S12_S1x12) x3 x7 (shapeCast S1x1024 x8 shapeCasts_S1024_S1x1024)
      = Cert.ReferenceIdeal.ReadP.val_main_v31 (F := Ideal) x0 x1 x3 x4 x5 x6 x7 x8 := by
  have hK : k0_pay4 (F := Ideal) (Cert.ReferenceIdeal.ReadP.val_main_v7 (F := Ideal) x0 x4) (shapeCast S1x1024 x1 shapeCasts_S1x1x1024_S1x1024) x5
        (shapeCast S1x12 x6 shapeCasts_S12_S1x12) x3 x7 (shapeCast S1x1024 x8 shapeCasts_S1024_S1x1024)
      = addf (matmul (φ₁ := .f32) (φ₂ := .f32) dot_S1x2048_S1024x2048_S1x1024_1_1_0_0_n_n none
          (concatenate S1x2048 1 [⟨S1x1024, Cert.ReferenceIdeal.ReadP.val_main_v7 (F := Ideal) x0 x4⟩,
            ⟨S1x1024, matmul (φ₁ := .f32) (φ₂ := .f32) dot_S1x12_S12x1024_S1x1024_1_0_0_1_n_n none
              (k0_pay3 (F := Ideal) (Cert.ReferenceIdeal.ReadP.val_main_v7 (F := Ideal) x0 x4) (shapeCast S1x1024 x1 shapeCasts_S1x1x1024_S1x1024) x5
                (shapeCast S1x12 x6 shapeCasts_S12_S1x12))
              x3 (constant (F := Ideal) S1x1024 .f32 0x00000000#32)⟩] concatenates_S1x1024_S1x1024_S1x2048_d1)
          x7 (constant (F := Ideal) S1x1024 .f32 0x00000000#32))
        (shapeCast S1x1024 (shapeCast S1x1024 x8 shapeCasts_S1024_S1x1024) shapeCasts_S1x1024_S1x1024) := rfl
  rw [hK, ctx_eq]
  have hJ : concatenate S1x2048 1 [⟨S1x1024, Cert.ReferenceIdeal.ReadP.val_main_v7 (F := Ideal) x0 x4⟩,
        ⟨S1x1024, Cert.ReferenceIdeal.ReadP.val_main_v26 (F := Ideal) x0 x1 x3 x4 x5 x6⟩] concatenates_S1x1024_S1x1024_S1x2048_d1
      = Cert.ReferenceIdeal.ReadP.val_main_v27 (F := Ideal) x0 x1 x3 x4 x5 x6 := rfl
  rw [hJ]
  funext i
  obtain ⟨p, q, rfl⟩ : ∃ (p : Fin 1) (q : Fin 1024), i = ix2 p q := ⟨i 0, i 1, eq_ix2 i⟩
  rw [addf_apply, matmul_comb_apply, shapeCast_self, shapeCast_a_1a_apply,
    Cert.ReferenceIdeal.ReadP.val_main_v31_apply, Cert.ReferenceIdeal.ReadP.val_main_v29_apply, Cert.ReferenceIdeal.ReadP.val_main_v30_apply]
  refine congrArg₂ (· + ·) (Finset.sum_congr rfl fun k _ => ?_) (congrArg x8 ?_)
  · rw [Cert.ReferenceIdeal.ReadP.val_main_v28_apply]
    refine congrArg₂ (· * ·) (congrArg _ ?_) (congrArg x7 ?_)
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl

/-- THE RELU: the body's maximum with its zero row is the reference's outlined relu, a maximum with a zero broadcast, the
    operands in the same order. -/
theorem relu_eq (x0 : (⟨Cert.ReferenceIdeal.S1x1, .i32⟩ : BufTy).Contents (Elt Ideal))
    (x1 : (⟨Cert.ReferenceIdeal.S1x1x1024, .f32⟩ : BufTy).Contents (Elt Ideal))
    (x3 : (⟨Cert.ReferenceIdeal.S12x1024, .f32⟩ : BufTy).Contents (Elt Ideal))
    (x4 : (⟨Cert.ReferenceIdeal.S50257x1024, .f32⟩ : BufTy).Contents (Elt Ideal))
    (x5 : (⟨Cert.ReferenceIdeal.S12x2048, .f32⟩ : BufTy).Contents (Elt Ideal))
    (x6 : (⟨Cert.ReferenceIdeal.S12, .f32⟩ : BufTy).Contents (Elt Ideal))
    (x7 : (⟨Cert.ReferenceIdeal.S1024x2048, .f32⟩ : BufTy).Contents (Elt Ideal))
    (x8 : (⟨Cert.ReferenceIdeal.S1024, .f32⟩ : BufTy).Contents (Elt Ideal)) :
    maximumf (Cert.ReferenceIdeal.ReadP.val_main_v31 (F := Ideal) x0 x1 x3 x4 x5 x6 x7 x8) (k0_pay5 (F := Ideal))
      = Cert.ReferenceIdeal.ReadP.val_main_v32 (F := Ideal) x0 x1 x3 x4 x5 x6 x7 x8 := by
  funext i
  rw [maximumf_apply, Cert.ReferenceIdeal.ReadP.val_main_v32_apply, Cert.ReferenceIdeal.ReadP.val_main_call0_v0_apply, Cert.ReferenceIdeal.ReadP.val_main_call0_cst_apply]
  rfl

end Cert.KernelIdeal.Hand

end
-- ==== Proof.KI.BridgeB.lean ====
/-
  The raw LSTM gates. The kernel computes them in two halves: grid point t ∈ {0, 1} holds rows 2048·t … 2048·t + 2047
  of W_ih and of W_hh and the same lanes of the two biases, and stores

      (relu(X) · Wbᵀ + b1) + (h · Ubᵀ + b2)

  with h the hidden row and X the combined input before its relu. The reference computes one row of 4096 lanes,

      ((relu(X) · W_ihᵀ + b_ih) + h · W_hhᵀ) + b_hh.

  Lane l of half t is lane 2048·t + l of that row: each matrix product at a lane is the sum over the 1024 positions
  of the contraction of the row's entry times the matrix row's entry, the same sum on both sides once the blocks are
  read as rows of the matrices; the four terms are then added in another grouping, and the sum of extended reals is
  associative with no finiteness needed.
-/
import proofs.«424451_j23149873725851_3_alg».proof.Proof.RefReadP
import proofs.«424451_j23149873725851_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem
open Cert.ReferenceIdeal (ReadP.val_main_v41 ReadP.val_main_v31 ReadP.lidx_main_v34 ReadP.ridx_main_v34 ReadP.idx_main_v33
  ReadP.lidx_main_v38 ReadP.ridx_main_v38 ReadP.idx_main_v37 ReadP.idx_main_v35 ReadP.idx_main_v40 ReadP.val_main_v41_apply
  ReadP.val_main_v39_apply ReadP.val_main_v36_apply ReadP.val_main_v34_apply ReadP.val_main_v35_apply ReadP.val_main_v38_apply
  ReadP.val_main_v40_apply ReadP.val_main_v32_apply ReadP.val_main_v33_apply ReadP.val_main_v37_apply
  ReadP.val_main_call0_v0_apply ReadP.val_main_call0_cst_apply)
open scoped BigOperators

variable {F : FTy → Type} [FloatOps F]

/-! ## The kernel's half product at a lane

The contraction index of the half product has one axis; the four coordinate facts below say which coordinate of the
operands an output lane and a contraction position read. -/

theorem lhs_gate_0 (i : S1x2048.Idx) (q : dot_S1x1024_S2048x1024_S1x2048_1_1_0_0_n_n.contr.Idx) :
    (dot_S1x1024_S2048x1024_S1x2048_1_1_0_0_n_n.lhsIdx i q 0).val = (i 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
theorem lhs_gate_1 (i : S1x2048.Idx) (q : dot_S1x1024_S2048x1024_S1x2048_1_1_0_0_n_n.contr.Idx) :
    (dot_S1x1024_S2048x1024_S1x2048_1_1_0_0_n_n.lhsIdx i q 1).val = (q ⟨0, by decide⟩).val :=
  dot_S1x1024_S2048x1024_S1x2048_1_1_0_0_n_n.lhsIdx_val_of_single rfl i q
theorem rhs_gate_0 (i : S1x2048.Idx) (q : dot_S1x1024_S2048x1024_S1x2048_1_1_0_0_n_n.contr.Idx) :
    (dot_S1x1024_S2048x1024_S1x2048_1_1_0_0_n_n.rhsIdx i q 0).val = (i 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
theorem rhs_gate_1 (i : S1x2048.Idx) (q : dot_S1x1024_S2048x1024_S1x2048_1_1_0_0_n_n.contr.Idx) :
    (dot_S1x1024_S2048x1024_S1x2048_1_1_0_0_n_n.rhsIdx i q 1).val = (q ⟨0, by decide⟩).val :=
  dot_S1x1024_S2048x1024_S1x2048_1_1_0_0_n_n.rhsIdx_val_of_single rfl i q

/-- A row vector times the transpose of a 2048-row block, into the zero accumulator, at lane `l`: the dot product of
    the row with the block's row `l`. -/
theorem row_dot_apply (a : FVec Ideal S1x1024 .f32) (B : FVec Ideal S2048x1024 .f32) (l : Fin 2048) :
    matmul dot_S1x1024_S2048x1024_S1x2048_1_1_0_0_n_n none a B (constant (F := Ideal) S1x2048 .f32 0x00000000#32) (ix2 0 l)
      = ∑ k : Fin 1024, a (ix2 0 k) * B (ix2 l k) := by
  simp only [matmul]
  rw [Ideal.matmul_constant_zero_apply, ← Equiv.sum_comp (contrEquiv1 dot_S1x1024_S2048x1024_S1x2048_1_1_0_0_n_n 1024 rfl rfl).symm]
  refine Finset.sum_congr rfl fun k _ => ?_
  have hk := contrEquiv1_symm_val dot_S1x1024_S2048x1024_S1x2048_1_1_0_0_n_n 1024 rfl rfl k
  have el : dot_S1x1024_S2048x1024_S1x2048_1_1_0_0_n_n.lhsIdx (ix2 0 l) ((contrEquiv1 dot_S1x1024_S2048x1024_S1x2048_1_1_0_0_n_n 1024 rfl rfl).symm k) = ix2 0 k := funext fun a => Fin.ext (by
    match a with
    | ⟨0, _⟩ => exact lhs_gate_0 _ _
    | ⟨1, _⟩ => exact (lhs_gate_1 _ _).trans hk)
  have er : dot_S1x1024_S2048x1024_S1x2048_1_1_0_0_n_n.rhsIdx (ix2 0 l) ((contrEquiv1 dot_S1x1024_S2048x1024_S1x2048_1_1_0_0_n_n 1024 rfl rfl).symm k) = ix2 l k := funext fun a => Fin.ext (by
    match a with
    | ⟨0, _⟩ => exact rhs_gate_0 _ _
    | ⟨1, _⟩ => exact (rhs_gate_1 _ _).trans hk)
  rw [el, er]

/-- The stored half of the raw gates at lane `l`, from the hidden row `h`, the combined input `X` before its relu, and
    the point's blocks of the two weight matrices and of the two biases: (relu(X) · Wbᵀ + b1) + (h · Ubᵀ + b2). The
    casts to the same shape are identities, the sums and the maximum are lanewise. -/
theorem gates_pay_apply (h X : S1x1024.Idx → EReal) (Wb Ub : S2048x1024.Idx → EReal) (b1 b2 : S1x2048.Idx → EReal) (l : Fin 2048) :
    k0_pay1 (F := Ideal) (k0_pay2 h) X (k0_pay5 (F := Ideal)) Wb b1 Ub b2 (ix2 0 l)
      = ((∑ k : Fin 1024, max (X (ix2 0 k)) (Ideal.ofBits .f32 0x00000000#32) * Wb (ix2 l k)) + b1 (ix2 0 l))
        + ((∑ k : Fin 1024, h (ix2 0 k) * Ub (ix2 l k)) + b2 (ix2 0 l)) := by
  unfold k0_pay1 k0_pay2 k0_pay5
  simp only [shapeCast_self]
  rw [addf_apply, addf_apply, addf_apply, row_dot_apply, row_dot_apply]
  rfl

/-! ## The reference's row of raw gates at a lane -/

/-- The reference's raw gates at lane `j` of the 4096: ((relu(X) · W_ihᵀ + b_ih) + h · W_hhᵀ) + b_hh, each product a sum
    over the 1024 positions of the contraction; the transposes and the bias broadcasts only rename indices. -/
theorem gates_ref_apply (x0 : (⟨Cert.ReferenceIdeal.S1x1, .i32⟩ : BufTy).Contents (Elt Ideal)) (x1 : (⟨Cert.ReferenceIdeal.S1x1x1024, .f32⟩ : BufTy).Contents (Elt Ideal))
    (x3 : (⟨Cert.ReferenceIdeal.S12x1024, .f32⟩ : BufTy).Contents (Elt Ideal)) (x4 : (⟨Cert.ReferenceIdeal.S50257x1024, .f32⟩ : BufTy).Contents (Elt Ideal))
    (x5 : (⟨Cert.ReferenceIdeal.S12x2048, .f32⟩ : BufTy).Contents (Elt Ideal)) (x6 : (⟨Cert.ReferenceIdeal.S12, .f32⟩ : BufTy).Contents (Elt Ideal))
    (x7 : (⟨Cert.ReferenceIdeal.S1024x2048, .f32⟩ : BufTy).Contents (Elt Ideal)) (x8 : (⟨Cert.ReferenceIdeal.S1024, .f32⟩ : BufTy).Contents (Elt Ideal))
    (x9 x10 : (⟨Cert.ReferenceIdeal.S4096x1024, .f32⟩ : BufTy).Contents (Elt Ideal)) (x11 x12 : (⟨Cert.ReferenceIdeal.S4096, .f32⟩ : BufTy).Contents (Elt Ideal)) (j : Fin 4096) :
    ReadP.val_main_v41 (F := Ideal) x0 x1 x3 x4 x5 x6 x7 x8 x9 x10 x11 x12 (ix2 0 j)
      = (((∑ k : Fin 1024, max (ReadP.val_main_v31 (F := Ideal) x0 x1 x3 x4 x5 x6 x7 x8 (ix2 0 k)) (Ideal.ofBits .f32 0x00000000#32) * x9 (ix2 j k))
            + x11 (ix1 j))
          + ∑ k : Fin 1024, shapeCast S1x1024 x1 shapeCasts_S1x1x1024_S1x1024 (ix2 0 k) * x10 (ix2 j k))
        + x12 (ix1 j) := by
  have el34 : ∀ k : Fin 1024, ReadP.lidx_main_v34 (ix2 0 j) k = ix2 0 k := fun k =>
    funext fun a => Fin.ext (by match a with | ⟨0, _⟩ => rfl | ⟨1, _⟩ => rfl)
  have er34 : ∀ k : Fin 1024, ReadP.idx_main_v33 (ReadP.ridx_main_v34 (ix2 0 j) k) = ix2 j k := fun k =>
    funext fun a => Fin.ext (by match a with | ⟨0, _⟩ => rfl | ⟨1, _⟩ => rfl)
  have el38 : ∀ k : Fin 1024, ReadP.lidx_main_v38 (ix2 0 j) k = ix2 0 k := fun k =>
    funext fun a => Fin.ext (by match a with | ⟨0, _⟩ => rfl | ⟨1, _⟩ => rfl)
  have er38 : ∀ k : Fin 1024, ReadP.idx_main_v37 (ReadP.ridx_main_v38 (ix2 0 j) k) = ix2 j k := fun k =>
    funext fun a => Fin.ext (by match a with | ⟨0, _⟩ => rfl | ⟨1, _⟩ => rfl)
  have e35 : ReadP.idx_main_v35 (ix2 0 j) = ix1 j := funext fun a => Fin.ext (by match a with | ⟨0, _⟩ => rfl)
  have e40 : ReadP.idx_main_v40 (ix2 0 j) = ix1 j := funext fun a => Fin.ext (by match a with | ⟨0, _⟩ => rfl)
  rw [ReadP.val_main_v41_apply, ReadP.val_main_v39_apply, ReadP.val_main_v36_apply, ReadP.val_main_v34_apply,
    ReadP.val_main_v35_apply, ReadP.val_main_v38_apply, ReadP.val_main_v40_apply]
  simp only [ReadP.val_main_v32_apply, ReadP.val_main_v33_apply, ReadP.val_main_v37_apply, ReadP.val_main_call0_v0_apply,
    ReadP.val_main_call0_cst_apply, el34, er34, el38, er38, e35, e40, Ideal.addf_def, Ideal.maximumf_def]
  rfl

/-! ## The two groupings agree -/

/-- Half `t` of the kernel's raw gates is lanes 2048·t … 2048·t + 2047 of the reference's row: the blocks are those
    rows of W_ih and W_hh and those lanes of the biases, and the two sides add the same four terms, the kernel as
    (a + b) + (c + d), the reference as ((a + b) + c) + d: associativity of the sum of extended reals. -/
theorem gates_half (x0 : (⟨Cert.ReferenceIdeal.S1x1, .i32⟩ : BufTy).Contents (Elt Ideal)) (x1 : (⟨Cert.ReferenceIdeal.S1x1x1024, .f32⟩ : BufTy).Contents (Elt Ideal))
    (x3 : (⟨Cert.ReferenceIdeal.S12x1024, .f32⟩ : BufTy).Contents (Elt Ideal)) (x4 : (⟨Cert.ReferenceIdeal.S50257x1024, .f32⟩ : BufTy).Contents (Elt Ideal))
    (x5 : (⟨Cert.ReferenceIdeal.S12x2048, .f32⟩ : BufTy).Contents (Elt Ideal)) (x6 : (⟨Cert.ReferenceIdeal.S12, .f32⟩ : BufTy).Contents (Elt Ideal))
    (x7 : (⟨Cert.ReferenceIdeal.S1024x2048, .f32⟩ : BufTy).Contents (Elt Ideal)) (x8 : (⟨Cert.ReferenceIdeal.S1024, .f32⟩ : BufTy).Contents (Elt Ideal))
    (x9 x10 : (⟨Cert.ReferenceIdeal.S4096x1024, .f32⟩ : BufTy).Contents (Elt Ideal)) (x11 x12 : (⟨Cert.ReferenceIdeal.S4096, .f32⟩ : BufTy).Contents (Elt Ideal))
    (t : Fin 2) (Wb Ub : S2048x1024.Idx → EReal) (b1 b2 : S1x2048.Idx → EReal)
    (hW : ∀ (r : Fin 2048) (k : Fin 1024), Wb (ix2 r k) = x9 (ix2 (⟨2048 * t.val + r.val, by omega⟩ : Fin 4096) k))
    (hU : ∀ (r : Fin 2048) (k : Fin 1024), Ub (ix2 r k) = x10 (ix2 (⟨2048 * t.val + r.val, by omega⟩ : Fin 4096) k))
    (hb1 : ∀ l : Fin 2048, b1 (ix2 0 l) = x11 (ix1 (⟨2048 * t.val + l.val, by omega⟩ : Fin 4096)))
    (hb2 : ∀ l : Fin 2048, b2 (ix2 0 l) = x12 (ix1 (⟨2048 * t.val + l.val, by omega⟩ : Fin 4096))) (l : Fin 2048) :
    k0_pay1 (F := Ideal) (k0_pay2 (shapeCast S1x1024 x1 shapeCasts_S1x1x1024_S1x1024))
        (ReadP.val_main_v31 (F := Ideal) x0 x1 x3 x4 x5 x6 x7 x8) (k0_pay5 (F := Ideal)) Wb b1 Ub b2 (ix2 0 l)
      = ReadP.val_main_v41 (F := Ideal) x0 x1 x3 x4 x5 x6 x7 x8 x9 x10 x11 x12
          (ix2 0 (⟨2048 * t.val + l.val, by omega⟩ : Fin 4096)) := by
  rw [gates_pay_apply, gates_ref_apply]
  simp only [hW, hU, hb1, hb2]
  exact (add_assoc _ _ _).symm

end Cert.KernelIdeal.Hand

end
-- ==== Proof.KI.BridgeC.lean ====
/-
  The tails after the gates, kernel program against reference, as equalities of values.

  After the raw gates row G (1 × 4096) both programs run the same host operations:
    · the LSTM combine: with i, f, g, o the four quarters of G and σ x = 1 / (1 + exp (−x)),
        c' = σ(f) · c + σ(i) · tanh g,   h' = σ(o) · tanh c';
    · the logits: element j is ∑ₖ h'ₖ · Wⱼₖ + bⱼ (the reference transposes W and contracts along its rows);
    · the log-softmax of the logits row: (x − max x) − log ∑ exp (x − max x);
    · the results h' and c' with a leading unit axis.
  The combine, the log-softmax and the layouts are the same compositions of the same operations in both programs, so the
  kernel program's term applied to the reference's operand IS the reference's term: those equalities hold by unfolding
  names, at every float instance, and neither the maximum nor the sum of the softmax is evaluated. The logits are
  compared element by element at the exact instance, where the reference's contraction is a finite sum.
-/
import proofs.«424451_j23149873725851_3_alg».proof.Proof.RefReadP
import proofs.«424451_j23149873725851_3_alg».proof.Proof.Gen.KernelIdeal.Skeleton
import proofs.«424451_j23149873725851_3_alg».proof.Proof.KI.HostVals
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.ValueIdx

variable {F : FTy → Type} [FloatOps F]

local notation "𝕄" => MT nD τ sig Unit (Elt F) ℕ (Pipeline.UD sig nD τ) ℕ

section Args

variable (x0 : Vec F S1x1 .i32) (x1 x2 : Vec F S1x1x1024 .f32) (x3 : Vec F S12x1024 .f32) (x4 : Vec F S50257x1024 .f32)
  (x5 : Vec F S12x2048 .f32) (x6 : Vec F S12 .f32) (x7 : Vec F S1024x2048 .f32) (x8 : Vec F S1024 .f32)
  (x9 x10 : Vec F S4096x1024 .f32) (x11 x12 : Vec F S4096 .f32) (x13 : Vec F S50257x1024 .f32) (x14 : Vec F S50257 .f32)

/-! ## The gates' combine

Both programs cut the raw gates row into the same four quarters and combine them with the same operations in the
same order, so the two terms are one term. -/

theorem lstmC_eq :
    lstmC (F := F) (Cert.ReferenceIdeal.ReadP.val_main_v41 (F := F) x0 x1 x3 x4 x5 x6 x7 x8 x9 x10 x11 x12)
        (shapeCast S1x1024 x2 shapeCasts_S1x1x1024_S1x1024)
      = Cert.ReferenceIdeal.ReadP.val_main_v67 (F := F) x0 x1 x2 x3 x4 x5 x6 x7 x8 x9 x10 x11 x12 := rfl

theorem lstmH_eq :
    lstmH (F := F) (Cert.ReferenceIdeal.ReadP.val_main_v41 (F := F) x0 x1 x3 x4 x5 x6 x7 x8 x9 x10 x11 x12)
        (shapeCast S1x1024 x2 shapeCasts_S1x1x1024_S1x1024)
      = Cert.ReferenceIdeal.ReadP.val_main_v69 (F := F) x0 x1 x2 x3 x4 x5 x6 x7 x8 x9 x10 x11 x12 := rfl

/-! ## The log-softmax of the logits row

log_softmax x = (x − max x) − log ∑ exp (x − max x), the maximum and the sum taken along the row. The reference's
chain is the same composition applied to its logits row; neither the maximum nor the sum is opened. -/

theorem logSoftmax_eq :
    logSoftmax (F := F) (Cert.ReferenceIdeal.ReadP.val_main_v73 (F := F) x0 x1 x2 x3 x4 x5 x6 x7 x8 x9 x10 x11 x12 x13 x14)
      = Cert.ReferenceIdeal.ReadP.val_main_v74 (F := F) x0 x1 x2 x3 x4 x5 x6 x7 x8 x9 x10 x11 x12 x13 x14 := rfl

/-! ## The result layouts: the new hidden and cell rows with a leading unit axis -/

theorem lead1_h_eq :
    lead1 (F := F) (Cert.ReferenceIdeal.ReadP.val_main_v69 (F := F) x0 x1 x2 x3 x4 x5 x6 x7 x8 x9 x10 x11 x12)
      = Cert.ReferenceIdeal.ReadP.val_main_v75 (F := F) x0 x1 x2 x3 x4 x5 x6 x7 x8 x9 x10 x11 x12 := rfl

theorem lead1_c_eq :
    lead1 (F := F) (Cert.ReferenceIdeal.ReadP.val_main_v67 (F := F) x0 x1 x2 x3 x4 x5 x6 x7 x8 x9 x10 x11 x12)
      = Cert.ReferenceIdeal.ReadP.val_main_v76 (F := F) x0 x1 x2 x3 x4 x5 x6 x7 x8 x9 x10 x11 x12 := rfl

/-- The bias vector as a one-row matrix, read at a column. -/
theorem bias_row_apply (j : Fin 50257) :
    shapeCast S1x50257 x14 shapeCasts_S50257_S1x50257 (ix2 (0 : Fin 1) j) = x14 (ix1 j) :=
  shapeCast_apply x14 shapeCasts_S50257_S1x50257 (ix2 (0 : Fin 1) j) (ix1 j)
    (by rewrite [Shape.rowMajor_val_one, Shape.rowMajor_val_two]; show j.val = 0 * 50257 + j.val; omega)

end Args

/-! ## The logits: the new hidden row against every row of the output matrix, plus the bias -/

section Logits

variable (x0 : Vec Ideal S1x1 .i32) (x1 x2 : Vec Ideal S1x1x1024 .f32) (x3 : Vec Ideal S12x1024 .f32) (x4 : Vec Ideal S50257x1024 .f32)
  (x5 : Vec Ideal S12x2048 .f32) (x6 : Vec Ideal S12 .f32) (x7 : Vec Ideal S1024x2048 .f32) (x8 : Vec Ideal S1024 .f32)
  (x9 x10 : Vec Ideal S4096x1024 .f32) (x11 x12 : Vec Ideal S4096 .f32) (x13 : Vec Ideal S50257x1024 .f32) (x14 : Vec Ideal S50257 .f32)

/-- The reference transposes the output matrix and contracts the hidden row with its columns: element j of the
    logits row is ∑ₖ h'ₖ · Wⱼₖ + bⱼ. -/
theorem logits_eq (j : Fin 50257) :
    (∑ k : Fin 1024, Cert.ReferenceIdeal.ReadP.val_main_v69 (F := Ideal) x0 x1 x2 x3 x4 x5 x6 x7 x8 x9 x10 x11 x12 (ix2 0 k) * x13 (ix2 j k))
        + x14 (ix1 j)
      = Cert.ReferenceIdeal.ReadP.val_main_v73 (F := Ideal) x0 x1 x2 x3 x4 x5 x6 x7 x8 x9 x10 x11 x12 x13 x14 (ix2 0 j) := by
  rw [Cert.ReferenceIdeal.ReadP.val_main_v73_apply, Cert.ReferenceIdeal.ReadP.val_main_v71_apply,
    Cert.ReferenceIdeal.ReadP.val_main_v72_apply, Ideal.addf_def]
  have e2 : Cert.ReferenceIdeal.ReadP.idx_main_v72 (ix2 (0 : Fin 1) j) = ix1 j :=
    funext fun a => by match a with | ⟨0, _⟩ => rfl
  rw [e2]
  refine congrArg (· + x14 (ix1 j)) (Finset.sum_congr rfl fun k _ => ?_)
  rw [Cert.ReferenceIdeal.ReadP.val_main_v70_apply]
  have el : Cert.ReferenceIdeal.ReadP.lidx_main_v71 (ix2 (0 : Fin 1) j) k = ix2 (0 : Fin 1) k :=
    funext fun a => by match a with | ⟨0, _⟩ => rfl | ⟨1, _⟩ => rfl
  have er : Cert.ReferenceIdeal.ReadP.idx_main_v70 (Cert.ReferenceIdeal.ReadP.ridx_main_v71 (ix2 (0 : Fin 1) j) k) = ix2 j k :=
    funext fun a => by match a with | ⟨0, _⟩ => rfl | ⟨1, _⟩ => rfl
  rw [el, er]

/-- The same with the bias read from the one-row matrix the second region's window is cut from. -/
theorem logits_eq_row (j : Fin 50257) :
    (∑ k : Fin 1024, Cert.ReferenceIdeal.ReadP.val_main_v69 (F := Ideal) x0 x1 x2 x3 x4 x5 x6 x7 x8 x9 x10 x11 x12 (ix2 0 k) * x13 (ix2 j k))
        + shapeCast S1x50257 x14 shapeCasts_S50257_S1x50257 (ix2 (0 : Fin 1) j)
      = Cert.ReferenceIdeal.ReadP.val_main_v73 (F := Ideal) x0 x1 x2 x3 x4 x5 x6 x7 x8 x9 x10 x11 x12 x13 x14 (ix2 0 j) := by
  rw [bias_row_apply]
  exact logits_eq x0 x1 x2 x3 x4 x5 x6 x7 x8 x9 x10 x11 x12 x13 x14 j

/-- A row whose element j is ∑ₖ h'ₖ · Wⱼₖ + bⱼ is the reference's logits row. -/
theorem logits_row_eq (X : Vec Ideal S1x50257 .f32)
    (hX : ∀ j : Fin 50257, X (ix2 (0 : Fin 1) j)
      = (∑ k : Fin 1024, Cert.ReferenceIdeal.ReadP.val_main_v69 (F := Ideal) x0 x1 x2 x3 x4 x5 x6 x7 x8 x9 x10 x11 x12 (ix2 0 k) * x13 (ix2 j k))
        + shapeCast S1x50257 x14 shapeCasts_S50257_S1x50257 (ix2 (0 : Fin 1) j)) :
    X = Cert.ReferenceIdeal.ReadP.val_main_v73 (F := Ideal) x0 x1 x2 x3 x4 x5 x6 x7 x8 x9 x10 x11 x12 x13 x14 := by
  funext i
  obtain ⟨p, q, rfl⟩ : ∃ (p : Fin 1) (q : Fin 50257), i = ix2 p q := ⟨i 0, i 1, eq_ix2 i⟩
  obtain rfl := Fin.eq_zero p
  rw [hX q]
  exact logits_eq_row x0 x1 x2 x3 x4 x5 x6 x7 x8 x9 x10 x11 x12 x13 x14 q

/-- Its log-softmax is then the reference's first result. -/
theorem logSoftmax_row_eq (X : Vec Ideal S1x50257 .f32)
    (hX : ∀ j : Fin 50257, X (ix2 (0 : Fin 1) j)
      = (∑ k : Fin 1024, Cert.ReferenceIdeal.ReadP.val_main_v69 (F := Ideal) x0 x1 x2 x3 x4 x5 x6 x7 x8 x9 x10 x11 x12 (ix2 0 k) * x13 (ix2 j k))
        + shapeCast S1x50257 x14 shapeCasts_S50257_S1x50257 (ix2 (0 : Fin 1) j)) :
    logSoftmax (F := Ideal) X
      = Cert.ReferenceIdeal.ReadP.val_main_v74 (F := Ideal) x0 x1 x2 x3 x4 x5 x6 x7 x8 x9 x10 x11 x12 x13 x14 := by
  rw [logits_row_eq x0 x1 x2 x3 x4 x5 x6 x7 x8 x9 x10 x11 x12 x13 x14 X hX]
  exact logSoftmax_eq x0 x1 x2 x3 x4 x5 x6 x7 x8 x9 x10 x11 x12 x13 x14

end Logits

end Cert.KernelIdeal.Hand
end
-- ==== Proof.KI.Glue.lean ====
/-
  The kernel program's values joined to the reference's stage functions, at the exact real instance, for a token id in
  the table's range. The row the kernel copies is the table's row at the clamped id; in range the clamp is the identity,
  and the reference's wrap and the gather's clamp are too, so both read row `id`. From that row on the two programs
  apply the same operations: the attention weights, the combined input and each half of the raw gates agree.
-/
import proofs.«424451_j23149873725851_3_alg».proof.Proof.KI.HostVals
import proofs.«424451_j23149873725851_3_alg».proof.Proof.KI.EmbRow
import proofs.«424451_j23149873725851_3_alg».proof.Proof.KI.BridgeA
import proofs.«424451_j23149873725851_3_alg».proof.Proof.KI.BridgeB
import proofs.«424451_j23149873725851_3_alg».proof.Proof.KI.BridgeC

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c : Dev nD)

/-- The kernel program's fifteen argument arrays on core `c`. -/
abbrev ar0 := m ((c : Thread nD τ).loc main_arg0)
abbrev ar1 := m ((c : Thread nD τ).loc main_arg1)
abbrev ar2 := m ((c : Thread nD τ).loc main_arg2)
abbrev ar3 := m ((c : Thread nD τ).loc main_arg3)
abbrev ar4 := m ((c : Thread nD τ).loc main_arg4)
abbrev ar5 := m ((c : Thread nD τ).loc main_arg5)
abbrev ar6 := m ((c : Thread nD τ).loc main_arg6)
abbrev ar7 := m ((c : Thread nD τ).loc main_arg7)
abbrev ar8 := m ((c : Thread nD τ).loc main_arg8)
abbrev ar9 := m ((c : Thread nD τ).loc main_arg9)
abbrev ar10 := m ((c : Thread nD τ).loc main_arg10)
abbrev ar11 := m ((c : Thread nD τ).loc main_arg11)
abbrev ar12 := m ((c : Thread nD τ).loc main_arg12)
abbrev ar13 := m ((c : Thread nD τ).loc main_arg13)
abbrev ar14 := m ((c : Thread nD τ).loc main_arg14)

/-- The token id: the one word of the first argument. -/
abbrev tok : BitVec 32 := (ar0 m c : S1x1.Idx → Elt Ideal .i32) i00

/-! ## Over plain arrays -/

section Plain

variable (x0 : (⟨Cert.ReferenceIdeal.S1x1, .i32⟩ : BufTy).Contents (Elt Ideal)) (x1 : (⟨Cert.ReferenceIdeal.S1x1x1024, .f32⟩ : BufTy).Contents (Elt Ideal)) (x3 : (⟨Cert.ReferenceIdeal.S12x1024, .f32⟩ : BufTy).Contents (Elt Ideal)) (x4 : (⟨Cert.ReferenceIdeal.S50257x1024, .f32⟩ : BufTy).Contents (Elt Ideal))
  (x5 : (⟨Cert.ReferenceIdeal.S12x2048, .f32⟩ : BufTy).Contents (Elt Ideal)) (x6 : (⟨Cert.ReferenceIdeal.S12, .f32⟩ : BufTy).Contents (Elt Ideal)) (x7 : (⟨Cert.ReferenceIdeal.S1024x2048, .f32⟩ : BufTy).Contents (Elt Ideal)) (x8 : (⟨Cert.ReferenceIdeal.S1024, .f32⟩ : BufTy).Contents (Elt Ideal))
  (x9 : (⟨Cert.ReferenceIdeal.S4096x1024, .f32⟩ : BufTy).Contents (Elt Ideal)) (x10 : (⟨Cert.ReferenceIdeal.S4096x1024, .f32⟩ : BufTy).Contents (Elt Ideal)) (x11 : (⟨Cert.ReferenceIdeal.S4096, .f32⟩ : BufTy).Contents (Elt Ideal)) (x12 : (⟨Cert.ReferenceIdeal.S4096, .f32⟩ : BufTy).Contents (Elt Ideal))

/-- The row the kernel's copy fetches at an in-range word is the reference's gathered row: both are the table's row at
    the word's value, column by column. -/
theorem erow_gather_plain (fh : HbBuf (F := Ideal) c embM) (v0 : BitVec 32) (hchk : k0_chk1 v0)
    (hfh : fh = x4) (hv : v0 = x0 i00) (hr : 0 ≤ (x0 i00).toInt ∧ (x0 i00).toInt < 50257) :
    embRow (F := Ideal) c fh v0 hchk = Cert.ReferenceIdeal.ReadP.val_main_v7 (F := Ideal) x0 x4 := by
  funext i
  obtain ⟨p, k, rfl⟩ : ∃ (p : Fin 1) (k : Fin 1024), i = ix2 p k := ⟨i 0, i 1, eq_ix2 i⟩
  obtain rfl : p = 0 := Subsingleton.elim _ _
  refine (embRow_apply c fh v0 hchk k).trans ?_
  refine Eq.trans ?_ (gather_row x0 x4 i00 hr k).symm
  refine (congrFun hfh _).trans (congrArg x4 (congrArg (fun r => ix2 r k) (Fin.ext ?_)))
  show v0.toNat = (x0 i00).toNat
  rw [hv]

/-- The attention weights from that row. -/
theorem attn_glue_plain (e : Vec Ideal S1x1024 .f32) (he : e = Cert.ReferenceIdeal.ReadP.val_main_v7 (F := Ideal) x0 x4)
    (h : Vec Ideal S1x1024 .f32) (hh : h = shapeCast S1x1024 x1 shapeCasts_S1x1x1024_S1x1024)
    (aW : Vec Ideal S12x2048 .f32) (haW : aW = x5) (ab : Vec Ideal S1x12 .f32) (hab : ab = shapeCast S1x12 x6 shapeCasts_S12_S1x12) :
    attn0 (F := Ideal) e h aW ab = Cert.ReferenceIdeal.ReadP.val_main_v25 (F := Ideal) x0 x1 x4 x5 x6 := by
  rw [he, hh, haW, hab]
  exact attn_eq x0 x1 x4 x5 x6

/-- One half of the raw gates from that row. -/
theorem gates_glue_plain (e : Vec Ideal S1x1024 .f32) (he : e = Cert.ReferenceIdeal.ReadP.val_main_v7 (F := Ideal) x0 x4)
    (h : Vec Ideal S1x1024 .f32) (hh : h = shapeCast S1x1024 x1 shapeCasts_S1x1x1024_S1x1024)
    (enc : Vec Ideal S12x1024 .f32) (henc : enc = x3)
    (aW : Vec Ideal S12x2048 .f32) (haW : aW = x5) (ab : Vec Ideal S1x12 .f32) (hab : ab = shapeCast S1x12 x6 shapeCasts_S12_S1x12)
    (cW : Vec Ideal S1024x2048 .f32) (hcW : cW = x7) (cb : Vec Ideal S1x1024 .f32) (hcb : cb = shapeCast S1x1024 x8 shapeCasts_S1024_S1x1024)
    (t : Fin 2) (Wb Ub : S2048x1024.Idx → EReal) (b1 b2 : S1x2048.Idx → EReal)
    (hW : ∀ (r : Fin 2048) (k : Fin 1024), Wb (ix2 r k) = x9 (ix2 (⟨2048 * t.val + r.val, by omega⟩ : Fin 4096) k))
    (hU : ∀ (r : Fin 2048) (k : Fin 1024), Ub (ix2 r k) = x10 (ix2 (⟨2048 * t.val + r.val, by omega⟩ : Fin 4096) k))
    (hb1 : ∀ l : Fin 2048, b1 (ix2 0 l) = x11 (ix1 (⟨2048 * t.val + l.val, by omega⟩ : Fin 4096)))
    (hb2 : ∀ l : Fin 2048, b2 (ix2 0 l) = x12 (ix1 (⟨2048 * t.val + l.val, by omega⟩ : Fin 4096))) (l : Fin 2048) :
    gates0 (F := Ideal) e h enc aW ab cW cb Wb Ub b1 b2 (ix2 0 l)
      = Cert.ReferenceIdeal.ReadP.val_main_v41 (F := Ideal) x0 x1 x3 x4 x5 x6 x7 x8 x9 x10 x11 x12 (ix2 0 (⟨2048 * t.val + l.val, by omega⟩ : Fin 4096)) := by
  rw [he, hh, henc, haW, hab, hcW, hcb]
  unfold gates0
  rw [xcomb_eq x0 x1 x3 x4 x5 x6 x7 x8]
  exact gates_half x0 x1 x3 x4 x5 x6 x7 x8 x9 x10 x11 x12 t Wb Ub b1 b2 hW hU hb1 hb2 l

end Plain

/-! ## At the kernel's memory

The plain lemmas at the kernel program's own arrays: the operands the host stretches prepare before the first region
are the arguments reshaped, the table's word is the token id in range, and the arguments the region reads are as
launched. -/

section Inst

/-- The row the first region's copy fetches is the reference's gathered row. -/
theorem erow_gather (hr : 0 ≤ (tok m c).toInt ∧ (tok m c).toInt < 50257)
    (hchk : k0_chk1 ((Gen.V3 m c main_v1 : S1.Idx → Elt Ideal .i32) j0)) :
    embRow (F := Ideal) c (Gen.V3 m c main_arg4) ((Gen.V3 m c main_v1 : S1.Idx → Elt Ideal .i32) j0) hchk
      = Cert.ReferenceIdeal.ReadP.val_main_v7 (F := Ideal) (ar0 m c) (ar4 m c) :=
  erow_gather_plain c (ar0 m c) (ar4 m c) (Gen.V3 m c main_arg4) ((Gen.V3 m c main_v1 : S1.Idx → Elt Ideal .i32) j0) hchk
    (V3_arg4 m c) (V3_v1_of_inrange m c hr) hr

/-- The attention weights the first region stores are the reference's. -/
theorem attn_glue (hr : 0 ≤ (tok m c).toInt ∧ (tok m c).toInt < 50257)
    (hchk : k0_chk1 ((Gen.V3 m c main_v1 : S1.Idx → Elt Ideal .i32) j0)) :
    attn0 (F := Ideal) (embRow (F := Ideal) c (Gen.V3 m c main_arg4) ((Gen.V3 m c main_v1 : S1.Idx → Elt Ideal .i32) j0) hchk)
        (Gen.V3 m c main_v2) (Gen.V3 m c main_arg5) (Gen.V3 m c main_v4)
      = Cert.ReferenceIdeal.ReadP.val_main_v25 (F := Ideal) (ar0 m c) (ar1 m c) (ar4 m c) (ar5 m c) (ar6 m c) :=
  attn_glue_plain (ar0 m c) (ar1 m c) (ar4 m c) (ar5 m c) (ar6 m c) _ (erow_gather m c hr hchk) _ (V3_v2 m c) _ (V3_arg5 m c) _ (V3_v4 m c)

/-- Half `t` of the raw gates the first region stores is lanes 2048·t … 2048·t + 2047 of the reference's row. -/
theorem gates_glue (hr : 0 ≤ (tok m c).toInt ∧ (tok m c).toInt < 50257)
    (hchk : k0_chk1 ((Gen.V3 m c main_v1 : S1.Idx → Elt Ideal .i32) j0))
    (t : Fin 2) (Wb Ub : S2048x1024.Idx → EReal) (b1 b2 : S1x2048.Idx → EReal)
    (hW : ∀ (r : Fin 2048) (k : Fin 1024), Wb (ix2 r k) = (ar9 m c : S4096x1024.Idx → EReal) (ix2 (⟨2048 * t.val + r.val, by omega⟩ : Fin 4096) k))
    (hU : ∀ (r : Fin 2048) (k : Fin 1024), Ub (ix2 r k) = (ar10 m c : S4096x1024.Idx → EReal) (ix2 (⟨2048 * t.val + r.val, by omega⟩ : Fin 4096) k))
    (hb1 : ∀ l : Fin 2048, b1 (ix2 0 l) = (ar11 m c : S4096.Idx → EReal) (ix1 (⟨2048 * t.val + l.val, by omega⟩ : Fin 4096)))
    (hb2 : ∀ l : Fin 2048, b2 (ix2 0 l) = (ar12 m c : S4096.Idx → EReal) (ix1 (⟨2048 * t.val + l.val, by omega⟩ : Fin 4096))) (l : Fin 2048) :
    gates0 (F := Ideal) (embRow (F := Ideal) c (Gen.V3 m c main_arg4) ((Gen.V3 m c main_v1 : S1.Idx → Elt Ideal .i32) j0) hchk)
        (Gen.V3 m c main_v2) (Gen.V3 m c main_arg3) (Gen.V3 m c main_arg5) (Gen.V3 m c main_v4) (Gen.V3 m c main_arg7) (Gen.V3 m c main_v5)
        Wb Ub b1 b2 (ix2 0 l)
      = Cert.ReferenceIdeal.ReadP.val_main_v41 (F := Ideal) (ar0 m c) (ar1 m c) (ar3 m c) (ar4 m c) (ar5 m c) (ar6 m c) (ar7 m c) (ar8 m c)
          (ar9 m c) (ar10 m c) (ar11 m c) (ar12 m c) (ix2 0 (⟨2048 * t.val + l.val, by omega⟩ : Fin 4096)) :=
  gates_glue_plain (ar0 m c) (ar1 m c) (ar3 m c) (ar4 m c) (ar5 m c) (ar6 m c) (ar7 m c) (ar8 m c) (ar9 m c) (ar10 m c) (ar11 m c) (ar12 m c)
    _ (erow_gather m c hr hchk) _ (V3_v2 m c) _ (V3_arg3 m c) _ (V3_arg5 m c) _ (V3_v4 m c) _ (V3_arg7 m c) _ (V3_v5 m c)
    t Wb Ub b1 b2 hW hU hb1 hb2 l

end Inst

end Cert.KernelIdeal.Hand

end
-- ==== Proof.KI.Cover1.lean ====
/-
  The logits row of the vocabulary projection is written back in thirteen blocks of 4096 lanes, block `t` at lanes
  `4096 t ‥ 4096 t + 4095`, the last one cut at the row's end (lane 50257 = 12 · 4096 + 1105). The blocks cover the
  row: lane `j` lies in block `j / 4096`. So if every point writes back the restriction of ONE whole-row function
  `G` to its (cut) block, the row ends holding `G`.
-/
import proofs.«424451_j23149873725851_3_alg».proof.Proof.Gen.KernelIdeal.Launch
import proofs.«424451_j23149873725851_3_alg».proof.Proof.Gen.KernelIdeal.Points
import Idealize.ShloMosaic.Lib.Pipeline.Value
import Idealize.ShloMosaic.PureOps.Ideal

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window)

/-- The output window's index map and cuts, decided over the thirteen points: on the row axis the block is the one
    row; on the lane axis block `t` starts at lane `4096 t` and is 4096 lanes long, but for the last, which the
    row's end cuts to 1105 lanes. -/
theorem idx_facts1_3 : ∀ t : Fin cfg1.N,
    win1_3.index t (0 : Fin 2) = 0 ∧ win1_3.xsize (grid1.coords t) (0 : Fin 2) = 1
    ∧ win1_3.index t (1 : Fin 2) = t.val
    ∧ win1_3.xsize (grid1.coords t) (1 : Fin 2) = (if t.val < 12 then 4096 else 1105) :=
  (by decide +kernel : ∀ t : Fin grid1.N, _)

/-- An index of the row is in point `t`'s block iff each coordinate is in the (cut) block's range on its axis. -/
theorem mem_blk1_3 (t : Fin cfg1.N) (i : S1x50257.Idx) :
    i ∈ ((cfg1.win 3).blk t).view.set
      ↔ ∀ a : Fin 2, win1_3.index t a * S1x4096.size a ≤ (i a).val
          ∧ (i a).val < win1_3.index t a * S1x4096.size a + win1_3.xsize (grid1.coords t) a := by
  show i ∈ ((View.whole main_v38).slice (win1_3.rect t)).set ↔ _
  rw [View.set_slice_whole, Rect.mem_set_unit]
  exact Iff.rfl

/-- Every lane of the row is in some point's block: lane `j` in block `j / 4096`. -/
theorem cover1_3 (i : S1x50257.Idx) :
    ∃ t : Fin cfg1.N, (cfg1.win 3).flush t = true ∧ i ∈ ((cfg1.win 3).blk t).view.set := by
  have hi0 : (i 0).val < 1 := (i 0).isLt
  have hi1 : (i 1).val < 50257 := (i 1).isLt
  have hN : cfg1.N = 13 := N_1
  let t : Fin cfg1.N := ⟨(i 1).val / 4096, by rw [hN]; omega⟩
  have htv : t.val = (i 1).val / 4096 := rfl
  obtain ⟨e0, x0, e1, x1⟩ := idx_facts1_3 t
  refine ⟨t, flush1_3 t, ?_⟩
  rw [mem_blk1_3]
  intro a
  match a with
  | ⟨0, _⟩ =>
    show win1_3.index t (0 : Fin 2) * 1 ≤ (i 0).val
      ∧ (i 0).val < win1_3.index t (0 : Fin 2) * 1 + win1_3.xsize (grid1.coords t) (0 : Fin 2)
    rw [e0, x0]; omega
  | ⟨1, _⟩ =>
    show win1_3.index t (1 : Fin 2) * 4096 ≤ (i 1).val
      ∧ (i 1).val < win1_3.index t (1 : Fin 2) * 4096 + win1_3.xsize (grid1.coords t) (1 : Fin 2)
    rw [e1, x1, htv]
    split <;> omega

/-- THE ROW AFTER THE RUN: if what each point writes back is the restriction of one whole-row function `G` to the
    point's (cut) block, the row ends holding `G`. -/
theorem final1_3_of {c : Dev nD} (dat : Dat τ (Elt Ideal) Unit ℕ (Pipeline.UD sig nD τ) ℕ cfg1 c)
    (G : Buf (Elt Ideal) (((cfg1.win 3).arr).view.loc (c : Thread nD τ)))
    (hfl : ∀ t : Fin cfg1.N, dat.flushed 3 t = ((cfg1.win 3).blk t).view.read (Elt Ideal) G) :
    dat.arrAt 3 cfg1.N = G :=
  dat.arrAt_eq_of_cover 3 G (fun t _ => hfl t) cover1_3

end Cert.KernelIdeal.Hand

end
-- ==== Proof.KI.PreDecode.lean ====
/-
  The token id's range, read out of the printed precondition.

  The precondition is a conjunction (a chain of one-bit `and`s) whose last conjunct is
  "all over the [1,1] array of (0 ≤ tok) and (tok < 50257)", the comparisons signed.
  Only that last conjunct is opened: the outer `and` being 1 makes its right operand 1; an
  all-reduction by `and` that is 1 met a 1 at every index; the inner `and` splits into the two
  comparisons; a signed comparison that is 1 is the order of the signed values, and the two
  broadcast constants read 0 and 50257 at the one index.
-/
import proofs.«424451_j23149873725851_3_alg».proof.Proof.Gen.Pre_finite_inputs
import Idealize.ShloMosaic.Lib.Affine
import Idealize.ShloMosaic.Lib.ReduceAll
import Idealize.ShloMosaic.Lib.ValueIdx

noncomputable section

namespace Cert.Pre_finite_inputs.Hand

open Idealize.ShloMosaic Idealize.ShloMosaic.ValueIdx

/-- The scalar shape has one index. -/
instance subsingleton_S_ : Subsingleton S_.Idx := ⟨fun _ _ => funext fun d => d.elim0⟩

variable {F : FTy → Type} [FloatOps F] [Cert.Pre_finite_inputs.Facts]

/-- The last part of the chain: if it is 1 at the one index, the token id is in [0, 50257). -/
theorem part4_inrange (a0 : IVec S1x1 32) (v63 v67 : IVec S_ 1)
    (h : fn_part4 (F := F) a0 v63 v67 ix0 = 1#1) :
    0 ≤ (a0 (ix2 0 0)).toInt ∧ (a0 (ix2 0 0)).toInt < 50257 := by
  unfold fn_part4 at h
  -- the outer conjunction: its right operand, the all-reduction, is 1
  have hall := (IntOp.andi_eq_one.1 h).2
  -- so the reduced mask is 1 at the array's one index
  have hel := Host.reduce_andi_all _ _ _ _ _ hall (ix2 (0 : Fin 1) (0 : Fin 1))
  -- the mask is the conjunction of the two signed comparisons
  obtain ⟨hge, hlt⟩ := IntOp.andi_eq_one.1 hel
  have hge' : (0#32 : BitVec 32).toInt ≤ (a0 (ix2 0 0)).toInt := IntOp.cmpi_sge.1 hge
  have hlt' : (a0 (ix2 0 0)).toInt < (50257#32 : BitVec 32).toInt := IntOp.cmpi_slt.1 hlt
  have e0 : (0#32 : BitVec 32).toInt = 0 := by decide
  have e1 : (50257#32 : BitVec 32).toInt = 50257 := by decide
  rw [e0] at hge'
  rw [e1] at hlt'
  exact ⟨hge', hlt'⟩

/-- The precondition all ones puts the token id, read signed, in [0, 50257). -/
theorem tok_inrange (a0 : IVec S1x1 32) (a1 : FVec F S1x1x1024 .f32) (a2 : FVec F S1x1x1024 .f32)
    (a3 : FVec F S12x1024 .f32) (a4 : FVec F S50257x1024 .f32) (a5 : FVec F S12x2048 .f32) (a6 : FVec F S12 .f32)
    (a7 : FVec F S1024x2048 .f32) (a8 : FVec F S1024 .f32) (a9 : FVec F S4096x1024 .f32) (a10 : FVec F S4096x1024 .f32)
    (a11 : FVec F S4096 .f32) (a12 : FVec F S4096 .f32) (a13 : FVec F S50257x1024 .f32) (a14 : FVec F S50257 .f32)
    (h : fn (F := F) a0 a1 a2 a3 a4 a5 a6 a7 a8 a9 a10 a11 a12 a13 a14 = (fun _ => 1#1)) :
    0 ≤ (a0 (ix2 0 0)).toInt ∧ (a0 (ix2 0 0)).toInt < 50257 := by
  have h0 := congrFun h ix0
  -- the chain of parts ends in the last part applied to the token array and two earlier conjunctions
  dsimp only [fn, fn_part1, fn_part2, fn_part3] at h0
  exact part4_inrange a0 _ _ h0

end Cert.Pre_finite_inputs.Hand

end
-- ==== Proof.KI.Assemble.lean ====
/-
  The idealized kernel program's four results as the reference's stage functions of the argument arrays, for a token id in
  the embedding table's range. The table of region 0 is instantiated here, last, at what the host stretches before the
  region leave in its buffer (the clamped id). Then, result by result: the attention weights are what region 0's second
  output array ends holding; the raw gates are its first, half by half; the new cell and hidden rows are the LSTM
  combine of the gates; the logits row is what region 1's thirteen clipped write-backs leave, lane j the hidden row
  against row j of the output weights plus the bias; the log-probabilities are the log-softmax of that row.
-/
import proofs.«424451_j23149873725851_3_alg».proof.Proof.KI.RunAll
import proofs.«424451_j23149873725851_3_alg».proof.Proof.KI.Val0
import proofs.«424451_j23149873725851_3_alg».proof.Proof.KI.Glue
import proofs.«424451_j23149873725851_3_alg».proof.Proof.KI.Cover1
import proofs.«424451_j23149873725851_3_alg».proof.Proof.KI.PreDecode

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

open Idealize.ShloMosaic.ValueIdx

/-- A bias vector as a one-row matrix, read at a column. -/
theorem bias_row_4096 (x : Vec Ideal S4096 .f32) (j : Fin 4096) :
    shapeCast S1x4096 x shapeCasts_S4096_S1x4096 (ix2 (0 : Fin 1) j) = x (ix1 j) :=
  shapeCast_apply x shapeCasts_S4096_S1x4096 (ix2 (0 : Fin 1) j) (ix1 j)
    (by rewrite [Shape.rowMajor_val_one, Shape.rowMajor_val_two]; show j.val = 0 * 4096 + j.val; omega)

variable (m : (ℓ : Loc nD τ sig) → Buf (Elt Ideal) ℓ)

/-! ## Region 0's table -/

/-- There are admissible table contents whose one table is what the host stretches before region 0 leave in its buffer
    (no index map reads the table: nothing to check of it). The contents are named by a variable first, so that nothing
    below computes with them. -/
theorem exists_a0 : ∃ a0 : (pcfg0 (F := Ideal)).Adm, (a0.1 0 : S1.Idx → Elt Ideal .i32) = Gen.V3 m c0 main_v1 := by
  obtain ⟨T, hT⟩ : ∃ T : S1.Idx → Elt Ideal .i32, T = Gen.V3 m c0 main_v1 := ⟨_, rfl⟩
  exact ⟨⟨fun k => match k with | ⟨0, _⟩ => T, trivial⟩, hT⟩

variable (a0 : (pcfg0 (F := Ideal)).Adm) (ha0 : (a0.1 0 : S1.Idx → Elt Ideal .i32) = Gen.V3 m c0 main_v1)

include ha0 in
/-- The table's word is a row of the embedding table: the host clamped it. -/
theorem hidx_of : k0_chk1 (tblWord a0) := by
  show k0_chk1 ((a0.1 0 : S1.Idx → Elt Ideal .i32) j0)
  rw [ha0]; exact V3_v1_inb m c0

variable (hidx : k0_chk1 (tblWord a0))
variable (hr : 0 ≤ (tok m c0).toInt ∧ (tok m c0).toInt < 50257)

include ha0 hidx hr in
/-- In range the table's word is the token id. -/
theorem word_eq : tblWord a0 = tok m c0 :=
  (congrFun ha0 j0).trans (V3_v1_of_inrange m c0 hr)

include ha0 hidx hr in
/-- The row region 0's body copies is the reference's gathered row. -/
theorem erow_eq : erow (F := Ideal) (V3r m) a0 hidx c0 = Cert.ReferenceIdeal.ReadP.val_main_v7 (F := Ideal) (ar0 m c0) (ar4 m c0) :=
  erow_gather_plain c0 (ar0 m c0) (ar4 m c0) (V3r m c0 main_arg4) (tblWord a0) hidx (V3_arg4 m c0) (word_eq m a0 ha0 hidx hr) hr

/-! ## The attention weights -/

include ha0 hidx hr in
theorem res_attn : Gen.V8 m (outs m a0 hidx) c0 main_v9_1 = Cert.ReferenceIdeal.ReadP.val_main_v25 (F := Ideal) (ar0 m c0) (ar1 m c0) (ar4 m c0) (ar5 m c0) (ar6 m c0) := by
  rw [V8_v9_1 m (outs m a0 hidx) c0, outs_4 m a0 hidx main_v9_1 c0]
  unfold W4
  rw [Pipeline.withArrays_arr spec0 (launch0 (F := Ideal)).win.arr_inj c0 (Gen.V3 m c0) _ 11,
    final0_11 (F := Ideal) (V3r m) a0 hidx c0]
  exact attn_glue_plain (ar0 m c0) (ar1 m c0) (ar4 m c0) (ar5 m c0) (ar6 m c0) _ (erow_eq m a0 ha0 hidx hr) _ (V3_v2 m c0) _ (V3_arg5 m c0) _ (V3_v4 m c0)

/-! ## The raw gates -/

include ha0 hidx hr in
theorem res_gates : (outs m a0 hidx 4 main_v9_0 c0 : S1x4096.Idx → EReal) = Cert.ReferenceIdeal.ReadP.val_main_v41 (F := Ideal) (ar0 m c0) (ar1 m c0) (ar3 m c0) (ar4 m c0) (ar5 m c0) (ar6 m c0) (ar7 m c0) (ar8 m c0) (ar9 m c0) (ar10 m c0) (ar11 m c0) (ar12 m c0) := by
  funext i
  obtain ⟨p, j, rfl⟩ : ∃ (p : Fin 1) (j : Fin 4096), i = ix2 p j := ⟨i 0, i 1, eq_ix2 i⟩
  obtain rfl : p = 0 := Subsingleton.elim _ _
  obtain ⟨t, l, rfl⟩ : ∃ (t : Fin 2) (l : Fin 2048), j = ⟨2048 * t.val + l.val, by have := t.isLt; have := l.isLt; omega⟩ :=
    ⟨⟨j.val / 2048, by have := j.isLt; omega⟩, ⟨j.val % 2048, Nat.mod_lt _ (by decide)⟩, Fin.ext (by show j.val = 2048 * (j.val / 2048) + j.val % 2048; omega)⟩
  rw [outs_4 m a0 hidx main_v9_0 c0]
  unfold W4
  rw [Pipeline.withArrays_arr spec0 (launch0 (F := Ideal)).win.arr_inj c0 (Gen.V3 m c0) _ 10,
    final0_10 (F := Ideal) (V3r m) a0 hidx c0 t l]
  exact gates_glue_plain (ar0 m c0) (ar1 m c0) (ar3 m c0) (ar4 m c0) (ar5 m c0) (ar6 m c0) (ar7 m c0) (ar8 m c0) (ar9 m c0) (ar10 m c0) (ar11 m c0) (ar12 m c0)
    _ (erow_eq m a0 ha0 hidx hr) _ (V3_v2 m c0) _ (V3_arg3 m c0) _ (V3_arg5 m c0) _ (V3_v4 m c0) _ (V3_arg7 m c0) _ (V3_v5 m c0) t _ _ _ _
    (fun r k => (iblk0_6_apply (F := Ideal) (V3r m) a0 c0 t r k).trans (congrFun (V3_arg9 m c0) _))
    (fun r k => (iblk0_7_apply (F := Ideal) (V3r m) a0 c0 t r k).trans (congrFun (V3_arg10 m c0) _))
    (fun l' => (iblk0_8_apply (F := Ideal) (V3r m) a0 c0 t l').trans ((congrFun (V3_v6 m c0) _).trans (bias_row_4096 _ _)))
    (fun l' => (iblk0_9_apply (F := Ideal) (V3r m) a0 c0 t l').trans ((congrFun (V3_v7 m c0) _).trans (bias_row_4096 _ _))) l

/-! ## The LSTM combine -/

include ha0 hidx hr in
theorem gatesA_eq : (outsA m a0 hidx 4 main_v9_0 c0 : S1x4096.Idx → EReal) = Cert.ReferenceIdeal.ReadP.val_main_v41 (F := Ideal) (ar0 m c0) (ar1 m c0) (ar3 m c0) (ar4 m c0) (ar5 m c0) (ar6 m c0) (ar7 m c0) (ar8 m c0) (ar9 m c0) (ar10 m c0) (ar11 m c0) (ar12 m c0) :=
  (outs_4 m a0 hidx main_v9_0 c0).symm.trans (res_gates m a0 ha0 hidx hr)

include ha0 hidx hr in
/-- The new hidden row, as region 1 finds it. -/
theorem res_hnew : (Gen.V5 m (outsA m a0 hidx) c0 main_v37 : Vec Ideal S1x1024 .f32) = Cert.ReferenceIdeal.ReadP.val_main_v69 (F := Ideal) (ar0 m c0) (ar1 m c0) (ar2 m c0) (ar3 m c0) (ar4 m c0) (ar5 m c0) (ar6 m c0) (ar7 m c0) (ar8 m c0) (ar9 m c0) (ar10 m c0) (ar11 m c0) (ar12 m c0) := by
  rw [V5_v37 m (outsA m a0 hidx) c0, gatesA_eq m a0 ha0 hidx hr]
  exact lstmH_eq (ar0 m c0) (ar1 m c0) (ar2 m c0) (ar3 m c0) (ar4 m c0) (ar5 m c0) (ar6 m c0) (ar7 m c0) (ar8 m c0) (ar9 m c0) (ar10 m c0) (ar11 m c0) (ar12 m c0)

include ha0 hidx hr in
theorem res_h : Gen.V8 m (outs m a0 hidx) c0 main_v40 = Cert.ReferenceIdeal.ReadP.val_main_v75 (F := Ideal) (ar0 m c0) (ar1 m c0) (ar2 m c0) (ar3 m c0) (ar4 m c0) (ar5 m c0) (ar6 m c0) (ar7 m c0) (ar8 m c0) (ar9 m c0) (ar10 m c0) (ar11 m c0) (ar12 m c0) := by
  rw [V8_v40 m (outs m a0 hidx) c0, res_gates m a0 ha0 hidx hr, lstmH_eq (ar0 m c0) (ar1 m c0) (ar2 m c0) (ar3 m c0) (ar4 m c0) (ar5 m c0) (ar6 m c0) (ar7 m c0) (ar8 m c0) (ar9 m c0) (ar10 m c0) (ar11 m c0) (ar12 m c0)]
  exact lead1_h_eq (ar0 m c0) (ar1 m c0) (ar2 m c0) (ar3 m c0) (ar4 m c0) (ar5 m c0) (ar6 m c0) (ar7 m c0) (ar8 m c0) (ar9 m c0) (ar10 m c0) (ar11 m c0) (ar12 m c0)

include ha0 hidx hr in
theorem res_c : Gen.V8 m (outs m a0 hidx) c0 main_v41 = Cert.ReferenceIdeal.ReadP.val_main_v76 (F := Ideal) (ar0 m c0) (ar1 m c0) (ar2 m c0) (ar3 m c0) (ar4 m c0) (ar5 m c0) (ar6 m c0) (ar7 m c0) (ar8 m c0) (ar9 m c0) (ar10 m c0) (ar11 m c0) (ar12 m c0) := by
  rw [V8_v41 m (outs m a0 hidx) c0, res_gates m a0 ha0 hidx hr, lstmC_eq (ar0 m c0) (ar1 m c0) (ar2 m c0) (ar3 m c0) (ar4 m c0) (ar5 m c0) (ar6 m c0) (ar7 m c0) (ar8 m c0) (ar9 m c0) (ar10 m c0) (ar11 m c0) (ar12 m c0)]
  exact lead1_c_eq (ar0 m c0) (ar1 m c0) (ar2 m c0) (ar3 m c0) (ar4 m c0) (ar5 m c0) (ar6 m c0) (ar7 m c0) (ar8 m c0) (ar9 m c0) (ar10 m c0) (ar11 m c0) (ar12 m c0)

/-! ## The logits and the log-probabilities -/

include ha0 hidx hr in
theorem res_logp : Gen.V8 m (outs m a0 hidx) c0 main_v39 = Cert.ReferenceIdeal.ReadP.val_main_v74 (F := Ideal) (ar0 m c0) (ar1 m c0) (ar2 m c0) (ar3 m c0) (ar4 m c0) (ar5 m c0) (ar6 m c0) (ar7 m c0) (ar8 m c0) (ar9 m c0) (ar10 m c0) (ar11 m c0) (ar12 m c0) (ar13 m c0) (ar14 m c0) := by
  rw [V8_v39 m (outs m a0 hidx) c0, outs_6 m a0 hidx main_v38 c0]
  unfold W6
  rw [Pipeline.withArrays_arr spec1 (launch1 (F := Ideal)).win.arr_inj c0 (Gen.V5 m (outsA m a0 hidx) c0) _ 3,
    final1_3_of (d1 m a0 hidx c0) (logits1 (V5r m a0 hidx) c0) (flushed1_3 (V5r m a0 hidx) c0)]
  refine logSoftmax_row_eq (ar0 m c0) (ar1 m c0) (ar2 m c0) (ar3 m c0) (ar4 m c0) (ar5 m c0) (ar6 m c0) (ar7 m c0) (ar8 m c0) (ar9 m c0) (ar10 m c0) (ar11 m c0) (ar12 m c0) (ar13 m c0) (ar14 m c0) _ (fun j => ?_)
  have h37 : hidden1 (V5r m a0 hidx) c0 = Cert.ReferenceIdeal.ReadP.val_main_v69 (F := Ideal) (ar0 m c0) (ar1 m c0) (ar2 m c0) (ar3 m c0) (ar4 m c0) (ar5 m c0) (ar6 m c0) (ar7 m c0) (ar8 m c0) (ar9 m c0) (ar10 m c0) (ar11 m c0) (ar12 m c0) := res_hnew m a0 ha0 hidx hr
  have h13 : weights1 (V5r m a0 hidx) c0 = ar13 m c0 := V5_arg13 m (outsA m a0 hidx) c0
  have h8 : bias1 (V5r m a0 hidx) c0 = shapeCast S1x50257 (ar14 m c0) shapeCasts_S50257_S1x50257 := V5_v8 m (outsA m a0 hidx) c0
  show (∑ k : Fin 1024, hidden1 (V5r m a0 hidx) c0 (ix2 0 k) * weights1 (V5r m a0 hidx) c0 (ix2 j k))
      + bias1 (V5r m a0 hidx) c0 (ix2 0 j) = _
  rw [h37, h13, h8]

/-! ## The two claims about the idealized kernel program -/

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include ha0 in
/-- The run of the idealized kernel program, read at any unscoped buffer. -/
theorem run_m (ρ : Dev nD → PrngReg) : θ_run defs (onTc (τ := τ) (main (F := Ideal))) ⟨m, fun _ => 0, ρ⟩ (fun r => ∀ c : Dev nD,
    ∀ b ∈ Pipeline.ucRefs τ sig, r.2.mem (((c : Thread nD τ)).1, b) = Gen.V8 m (outs m a0 hidx) c b) :=
  run_all m ρ a0 ha0 hidx

end Cert.KernelIdeal.Hand

end
-- ==== Proof.lean ====
/-
  The certificate of the LSTM decoder step with attention (one token): a Pallas program of two kernel regions — the small
  step (embedding row fetched by the body's own copy at the prefetched, clamped token id; attention weights; combined
  input; the raw gates in two halves) and the vocabulary projection (thirteen blocks of 4096 lanes, the last clipped at
  lane 50257) — with the LSTM combine and the log-softmax on the host, against the jnp reference.

  The three frames: the bit-level program through relational proof data for the clipped region (nothing is said of what
  it leaves) and exact data for the other; the idealized program through exact data for both, in one run that names every
  buffer at the end; the reference through its run written in five chunks of host operations. The idealization changes
  nothing (its ledger is empty). Equivalence over the extended reals holds for a token id in the embedding table's range
  0 ≤ id < 50257 (the added precondition: the kernel clamps the id where jnp's indexing wraps a negative one): then the
  clamp, the wrap and the gather's own clamp are all the identity, both programs read row id, and from there on apply the
  same operations — the kernel's two gate halves are rows 0‥2047 and 2048‥4095 of the reference's one product, regrouped
  by associativity and commutativity of + on the extended reals; the thirteen projection blocks are restrictions of the
  reference's one product with the output matrix.
-/
import proofs.«424451_j23149873725851_3_alg».proof.Defs
import proofs.«424451_j23149873725851_3_alg».proof.Proof.Gen.Kernel
import proofs.«424451_j23149873725851_3_alg».proof.Proof.Gen.KernelIdeal
import proofs.«424451_j23149873725851_3_alg».proof.Proof.Gen.ReferenceIdeal
import proofs.«424451_j23149873725851_3_alg».proof.Proof.Gen.Pre_finite_inputs
import proofs.«424451_j23149873725851_3_alg».proof.Proof.K.RFrame
import proofs.«424451_j23149873725851_3_alg».proof.Proof.K.HostVals
import proofs.«424451_j23149873725851_3_alg».proof.Proof.KI.Assemble
import proofs.«424451_j23149873725851_3_alg».proof.Proof.RefRunHand
import Idealize.ShloMosaic.Adequacy
import Idealize.ShloMosaic.Init

set_option maxRecDepth 16384

noncomputable section

namespace Cert.Proof

open Idealize.ShloMosaic Idealize.ShloMosaic.TcCoe Idealize.SL.Sem

/-- The bit-level program runs and leaves its arguments: the one fact its bodies assume, that the prefetched word is a
    row of the embedding table, holds because the host clamped it. -/
theorem frame_K : Cert.frame_Kernel := fun m ρ _ =>
  Cert.Kernel.Hand.frame_rel m ρ (fun c => Cert.Kernel.Hand.V3_v1_inb m c)

/-- The idealized program's run, read at the argument arrays: no host stretch and no region writes one. -/
theorem frame_KI : Cert.frame_KernelIdeal := fun m ρ _ => by
  obtain ⟨a0, ha0⟩ := Cert.KernelIdeal.Hand.exists_a0 m
  have hidx := Cert.KernelIdeal.Hand.hidx_of m a0 ha0
  exact (θ_run Cert.KernelIdeal.defs _ _).mono (fun r h c =>
    ⟨(h c _ (Cert.KernelIdeal.Hand.mem_uc Cert.KernelIdeal.main_arg0 (by decide))).trans (Cert.KernelIdeal.Gen.V8_main_arg0 m (Cert.KernelIdeal.Hand.outs m a0 hidx) c),
     (h c _ (Cert.KernelIdeal.Hand.mem_uc Cert.KernelIdeal.main_arg1 (by decide))).trans (Cert.KernelIdeal.Gen.V8_main_arg1 m (Cert.KernelIdeal.Hand.outs m a0 hidx) c),
     (h c _ (Cert.KernelIdeal.Hand.mem_uc Cert.KernelIdeal.main_arg2 (by decide))).trans (Cert.KernelIdeal.Gen.V8_main_arg2 m (Cert.KernelIdeal.Hand.outs m a0 hidx) c),
     (h c _ (Cert.KernelIdeal.Hand.mem_uc Cert.KernelIdeal.main_arg3 (by decide))).trans (Cert.KernelIdeal.Gen.V8_main_arg3 m (Cert.KernelIdeal.Hand.outs m a0 hidx) c),
     (h c _ (Cert.KernelIdeal.Hand.mem_uc Cert.KernelIdeal.main_arg4 (by decide))).trans (Cert.KernelIdeal.Gen.V8_main_arg4 m (Cert.KernelIdeal.Hand.outs m a0 hidx) c),
     (h c _ (Cert.KernelIdeal.Hand.mem_uc Cert.KernelIdeal.main_arg5 (by decide))).trans (Cert.KernelIdeal.Gen.V8_main_arg5 m (Cert.KernelIdeal.Hand.outs m a0 hidx) c),
     (h c _ (Cert.KernelIdeal.Hand.mem_uc Cert.KernelIdeal.main_arg6 (by decide))).trans (Cert.KernelIdeal.Gen.V8_main_arg6 m (Cert.KernelIdeal.Hand.outs m a0 hidx) c),
     (h c _ (Cert.KernelIdeal.Hand.mem_uc Cert.KernelIdeal.main_arg7 (by decide))).trans (Cert.KernelIdeal.Gen.V8_main_arg7 m (Cert.KernelIdeal.Hand.outs m a0 hidx) c),
     (h c _ (Cert.KernelIdeal.Hand.mem_uc Cert.KernelIdeal.main_arg8 (by decide))).trans (Cert.KernelIdeal.Gen.V8_main_arg8 m (Cert.KernelIdeal.Hand.outs m a0 hidx) c),
     (h c _ (Cert.KernelIdeal.Hand.mem_uc Cert.KernelIdeal.main_arg9 (by decide))).trans (Cert.KernelIdeal.Gen.V8_main_arg9 m (Cert.KernelIdeal.Hand.outs m a0 hidx) c),
     (h c _ (Cert.KernelIdeal.Hand.mem_uc Cert.KernelIdeal.main_arg10 (by decide))).trans (Cert.KernelIdeal.Gen.V8_main_arg10 m (Cert.KernelIdeal.Hand.outs m a0 hidx) c),
     (h c _ (Cert.KernelIdeal.Hand.mem_uc Cert.KernelIdeal.main_arg11 (by decide))).trans (Cert.KernelIdeal.Gen.V8_main_arg11 m (Cert.KernelIdeal.Hand.outs m a0 hidx) c),
     (h c _ (Cert.KernelIdeal.Hand.mem_uc Cert.KernelIdeal.main_arg12 (by decide))).trans (Cert.KernelIdeal.Gen.V8_main_arg12 m (Cert.KernelIdeal.Hand.outs m a0 hidx) c),
     (h c _ (Cert.KernelIdeal.Hand.mem_uc Cert.KernelIdeal.main_arg13 (by decide))).trans (Cert.KernelIdeal.Gen.V8_main_arg13 m (Cert.KernelIdeal.Hand.outs m a0 hidx) c),
     (h c _ (Cert.KernelIdeal.Hand.mem_uc Cert.KernelIdeal.main_arg14 (by decide))).trans (Cert.KernelIdeal.Gen.V8_main_arg14 m (Cert.KernelIdeal.Hand.outs m a0 hidx) c)⟩)
    (Cert.KernelIdeal.Hand.run_m m a0 ha0 hidx ρ)

/-- The reference's run with the results dropped. -/
theorem frame_R : Cert.frame_ReferenceIdeal := fun m ρ _ =>
  (θ_run Cert.ReferenceIdeal.defs _ _).mono (fun _ h c => (h c).2.2.2.2) (Cert.ReferenceIdeal.RunHand.run (F := Ideal) m ρ)

/-- Run from memories agreeing on the arguments, with the token id in range, the two idealized programs end with the
    same four results: the log-probabilities, the new hidden and cell rows, the attention weights. -/
theorem algebraic : Cert.algebraic_KernelIdeal_ReferenceIdeal := by
  intro m ρ m' ρ' hpre hagree
  have hr : 0 ≤ (Cert.KernelIdeal.Hand.tok m Cert.KernelIdeal.Hand.c0).toInt ∧ (Cert.KernelIdeal.Hand.tok m Cert.KernelIdeal.Hand.c0).toInt < 50257 :=
    Cert.Pre_finite_inputs.Hand.tok_inrange _ _ _ _ _ _ _ _ _ _ _ _ _ _ _ (hpre Cert.KernelIdeal.Hand.c0)
  obtain ⟨a0, ha0⟩ := Cert.KernelIdeal.Hand.exists_a0 m
  have hidx := Cert.KernelIdeal.Hand.hidx_of m a0 ha0
  refine ⟨fun c => Cert.KernelIdeal.Gen.V8 m (Cert.KernelIdeal.Hand.outs m a0 hidx) c Cert.KernelIdeal.main_v39, fun c => Cert.KernelIdeal.Gen.V8 m (Cert.KernelIdeal.Hand.outs m a0 hidx) c Cert.KernelIdeal.main_v40,
    fun c => Cert.KernelIdeal.Gen.V8 m (Cert.KernelIdeal.Hand.outs m a0 hidx) c Cert.KernelIdeal.main_v41, fun c => Cert.KernelIdeal.Gen.V8 m (Cert.KernelIdeal.Hand.outs m a0 hidx) c Cert.KernelIdeal.main_v9_1, ?_, ?_⟩
  · exact (θ_run Cert.KernelIdeal.defs _ _).mono (fun r h c =>
      ⟨h c _ (Cert.KernelIdeal.Hand.mem_uc Cert.KernelIdeal.main_v39 (by decide)), h c _ (Cert.KernelIdeal.Hand.mem_uc Cert.KernelIdeal.main_v40 (by decide)),
       h c _ (Cert.KernelIdeal.Hand.mem_uc Cert.KernelIdeal.main_v41 (by decide)), h c _ (Cert.KernelIdeal.Hand.mem_uc Cert.KernelIdeal.main_v9_1 (by decide)),
       (h c _ (Cert.KernelIdeal.Hand.mem_uc Cert.KernelIdeal.main_arg0 (by decide))).trans (Cert.KernelIdeal.Gen.V8_main_arg0 m (Cert.KernelIdeal.Hand.outs m a0 hidx) c),
       (h c _ (Cert.KernelIdeal.Hand.mem_uc Cert.KernelIdeal.main_arg1 (by decide))).trans (Cert.KernelIdeal.Gen.V8_main_arg1 m (Cert.KernelIdeal.Hand.outs m a0 hidx) c),
       (h c _ (Cert.KernelIdeal.Hand.mem_uc Cert.KernelIdeal.main_arg2 (by decide))).trans (Cert.KernelIdeal.Gen.V8_main_arg2 m (Cert.KernelIdeal.Hand.outs m a0 hidx) c),
       (h c _ (Cert.KernelIdeal.Hand.mem_uc Cert.KernelIdeal.main_arg3 (by decide))).trans (Cert.KernelIdeal.Gen.V8_main_arg3 m (Cert.KernelIdeal.Hand.outs m a0 hidx) c),
       (h c _ (Cert.KernelIdeal.Hand.mem_uc Cert.KernelIdeal.main_arg4 (by decide))).trans (Cert.KernelIdeal.Gen.V8_main_arg4 m (Cert.KernelIdeal.Hand.outs m a0 hidx) c),
       (h c _ (Cert.KernelIdeal.Hand.mem_uc Cert.KernelIdeal.main_arg5 (by decide))).trans (Cert.KernelIdeal.Gen.V8_main_arg5 m (Cert.KernelIdeal.Hand.outs m a0 hidx) c),
       (h c _ (Cert.KernelIdeal.Hand.mem_uc Cert.KernelIdeal.main_arg6 (by decide))).trans (Cert.KernelIdeal.Gen.V8_main_arg6 m (Cert.KernelIdeal.Hand.outs m a0 hidx) c),
       (h c _ (Cert.KernelIdeal.Hand.mem_uc Cert.KernelIdeal.main_arg7 (by decide))).trans (Cert.KernelIdeal.Gen.V8_main_arg7 m (Cert.KernelIdeal.Hand.outs m a0 hidx) c),
       (h c _ (Cert.KernelIdeal.Hand.mem_uc Cert.KernelIdeal.main_arg8 (by decide))).trans (Cert.KernelIdeal.Gen.V8_main_arg8 m (Cert.KernelIdeal.Hand.outs m a0 hidx) c),
       (h c _ (Cert.KernelIdeal.Hand.mem_uc Cert.KernelIdeal.main_arg9 (by decide))).trans (Cert.KernelIdeal.Gen.V8_main_arg9 m (Cert.KernelIdeal.Hand.outs m a0 hidx) c),
       (h c _ (Cert.KernelIdeal.Hand.mem_uc Cert.KernelIdeal.main_arg10 (by decide))).trans (Cert.KernelIdeal.Gen.V8_main_arg10 m (Cert.KernelIdeal.Hand.outs m a0 hidx) c),
       (h c _ (Cert.KernelIdeal.Hand.mem_uc Cert.KernelIdeal.main_arg11 (by decide))).trans (Cert.KernelIdeal.Gen.V8_main_arg11 m (Cert.KernelIdeal.Hand.outs m a0 hidx) c),
       (h c _ (Cert.KernelIdeal.Hand.mem_uc Cert.KernelIdeal.main_arg12 (by decide))).trans (Cert.KernelIdeal.Gen.V8_main_arg12 m (Cert.KernelIdeal.Hand.outs m a0 hidx) c),
       (h c _ (Cert.KernelIdeal.Hand.mem_uc Cert.KernelIdeal.main_arg13 (by decide))).trans (Cert.KernelIdeal.Gen.V8_main_arg13 m (Cert.KernelIdeal.Hand.outs m a0 hidx) c),
       (h c _ (Cert.KernelIdeal.Hand.mem_uc Cert.KernelIdeal.main_arg14 (by decide))).trans (Cert.KernelIdeal.Gen.V8_main_arg14 m (Cert.KernelIdeal.Hand.outs m a0 hidx) c)⟩)
      (Cert.KernelIdeal.Hand.run_m m a0 ha0 hidx ρ)
  · refine (θ_run Cert.ReferenceIdeal.defs _ _).mono (fun r h c => ?_) (Cert.ReferenceIdeal.RunHand.run (F := Ideal) m' ρ')
    obtain rfl : c = Cert.KernelIdeal.Hand.c0 := Subsingleton.elim _ _
    obtain ⟨h74, h75, h76, h25, hargs⟩ := h Cert.KernelIdeal.Hand.c0
    obtain ⟨e0, e1, e2, e3, e4, e5, e6, e7, e8, e9, e10, e11, e12, e13, e14⟩ := hagree Cert.KernelIdeal.Hand.c0
    rw [e0, e1, e2, e3, e4, e5, e6, e7, e8, e9, e10, e11, e12, e13, e14] at h74
    rw [e0, e1, e2, e3, e4, e5, e6, e7, e8, e9, e10, e11, e12] at h75 h76
    rw [e0, e1, e4, e5, e6] at h25
    exact ⟨h74.trans (Cert.KernelIdeal.Hand.res_logp m a0 ha0 hidx hr).symm, h75.trans (Cert.KernelIdeal.Hand.res_h m a0 ha0 hidx hr).symm,
      h76.trans (Cert.KernelIdeal.Hand.res_c m a0 ha0 hidx hr).symm, h25.trans (Cert.KernelIdeal.Hand.res_attn m a0 ha0 hidx hr).symm, hargs⟩

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
